-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S_ : Shape := ⟨0, ![]⟩
abbrev S512 : Shape := ⟨1, ![512]⟩
abbrev S1x512 : Shape := ⟨2, ![1, 512]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S512_S_d0 : S512.ReducesTo [0] S_

variable [Facts]

def fn_part1 {F : FTy → Type} [FloatOps F] (main_arg1 : FVec F S8192x512 .f32) (main_v8 : IVec S_ 1) (main_v16 : FVec F S512 .f32) : IVec S_ 1 :=
  let main_cst_5 : FVec F S_ .f32 := constant S_ .f32 0x00000000#32
  let main_v17 : FVec F S512 .f32 := broadcastInDim S512 ![] bcast_S_S512 main_cst_5
  let main_v18 : IVec S512 1 := cmpf .ogt main_v16 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v8 main_v19
  let main_cst_7 : FVec F S_ .f32 := constant S_ .f32 0x00000000#32
  let main_v21 : FVec F S512 .f32 := (fun x v => Host.reduceAdd x v reducesTo_S8192x512_S512_d0 h_S_) main_arg1 main_cst_7
  let main_cst_8 : FVec F S_ .f32 := constant S_ .f32 0x46000000#32
  let main_v22 : FVec F S512 .f32 := broadcastInDim S512 ![] bcast_S_S512 main_cst_8
  let main_v23 : FVec F S512 .f32 := Host.divf main_v21 main_v22
  let main_v24 : FVec F S1x512 .f32 := broadcastInDim S1x512 ![1] bcast_S512_S1x512_1 main_v23
  let main_v25 : FVec F S8192x512 .f32 := broadcastInDim S8192x512 ![0, 1] bcast_S1x512_S8192x512_0_1 main_v24
  let main_v26 : FVec F S8192x512 .f32 := subf main_arg1 main_v25
  let main_v27 : FVec F S8192x512 .f32 := mulf main_v26 main_v26
  let main_cst_9 : FVec F S_ .f32 := constant S_ .f32 0x00000000#32
  let main_v28 : FVec F S512 .f32 := (fun x v => Host.reduceAdd x v reducesTo_S8192x512_S512_d0 h_S_) main_v27 main_cst_9
  let main_cst_10 : FVec F S_ .f32 := constant S_ .f32 0x00000000#32
  let main_v29 : FVec F S512 .f32 := broadcastInDim S512 ![] bcast_S_S512 main_cst_10
  let main_v30 : IVec S512 1 := cmpf .ogt main_v28 main_v29
  let main_c_11 : IVec S_ 1 := constantI S_ 1 1#1
  let main_v31 : IVec S_ 1 := (fun x v => Host.reduce IntOp.andi x v reducesTo_S512_S_d0 h_S_) main_v30 main_c_11
  let main_v32 : IVec S_ 1 := andi main_v20 main_v31
  main_v32

def fn {F : FTy → Type} [FloatOps F] (main_arg0 : FVec F S8192x512 .f32) (main_arg1 : FVec F S8192x512 .f32) (main_arg2 : IVec S8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_cst_2 : FVec F S_ .f32 := constant S_ .f32 0x00000000#32
  let main_v9 : FVec F S512 .f32 := (fun x v => Host.reduceAdd x v reducesTo_S8192x512_S512_d0 h_S_) main_arg0 main_cst_2
  let main_cst_3 : FVec F S_ .f32 := constant S_ .f32 0x46000000#32
  let main_v10 : FVec F S512 .f32 := broadcastInDim S512 ![] bcast_S_S512 main_cst_3
  let main_v11 : FVec F S512 .f32 := Host.divf main_v9 main_v10
  let main_v12 : FVec F S1x512 .f32 := broadcastInDim S1x512 ![1] bcast_S512_S1x512_1 main_v11
  let main_v13 : FVec F S8192x512 .f32 := broadcastInDim S8192x512 ![0, 1] bcast_S1x512_S8192x512_0_1 main_v12
  let main_v14 : FVec F S8192x512 .f32 := subf main_arg0 main_v13
  let main_v15 : FVec F S8192x512 .f32 := mulf main_v14 main_v14
  let main_cst_4 : FVec F S_ .f32 := constant S_ .f32 0x00000000#32
  let main_v16 : FVec F S512 .f32 := (fun x v => Host.reduceAdd x v reducesTo_S8192x512_S512_d0 h_S_) main_v15 main_cst_4
  fn_part1 (F := F) main_arg1 main_v8 main_v16
-- ==== Kernel.lean ====
abbrev S8192x512 : Shape := ⟨2, ![8192, 512]⟩
abbrev S8192 : Shape := ⟨1, ![8192]⟩
abbrev S1x512 : Shape := ⟨2, ![1, 512]⟩
abbrev S1024x512 : Shape := ⟨2, ![1024, 512]⟩
abbrev S512 : Shape := ⟨1, ![512]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S512x512 : Shape := ⟨2, ![512, 512]⟩
abbrev S512x1 : Shape := ⟨2, ![512, 1]⟩
abbrev S1 : Shape := ⟨1, ![1]⟩

abbrev nBuf : Space → Nat
  | .hbm => 35
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S8192x1, .i32⟩
  | .hbm, ⟨32, _⟩ => ⟨S1x8192, .i32⟩
  | .hbm, ⟨33, _⟩ => ⟨S1x1, .f32⟩
  | .hbm, ⟨34, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S8192x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S512x1, .i32⟩
  | .local _ .vmem, ⟨20, _⟩ => ⟨S512x1, .i32⟩
  | .local _ .vmem, ⟨21, _⟩ => ⟨S1x8192, .i32⟩
  | .local _ .vmem, ⟨22, _⟩ => ⟨S1x1, .f32⟩
  | .local _ .vmem, ⟨23, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem8_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v35 : BitVec 1 := Scalar.cmpi .eq arg0 c7_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

@[reducible] def k1_t1_loop : Scf.Loop 32 :=
  let c0_i32_8 : BitVec 32 := 0#32
  let c16_i32 : BitVec 32 := 16#32
  let v16 : BitVec 32 := Scalar.addi c0_i32_8 c16_i32
  let c1_i32 : BitVec 32 := 1#32
  ⟨c0_i32_8, v16, c1_i32⟩
def k1_mult1 (k1_t1 : Fin k1_t1_loop.trips) : BitVec 32 :=
  let c0_i32_8 : BitVec 32 := 0#32
  let c1_i32 : BitVec 32 := 1#32
  let arg11 : BitVec 32 := Scf.iv c0_i32_8 c1_i32 k1_t1
  let c512_i32 : BitVec 32 := 512#32
  let v26 : BitVec 32 := Scalar.muli arg11 c512_i32
  v26
def k1_off1 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let c512_i32 : BitVec 32 := 512#32
  let v26 : BitVec 32 := Scalar.muli arg11 c512_i32
  let v27 : BitVec 32 := v26
  let v28 : Index := Scalar.indexCast v27
  let c0_15 : Index := 0#32
  ![v28.toNat, 0]
def k1_off2 (k1_t1 : Fin k1_t1_loop.trips) : Fin 2 → Nat :=
  let c0_22 : Index := 0#32
  let c0_i32_8 : BitVec 32 := 0#32
  let c1_i32 : BitVec 32 := 1#32
  let arg11 : BitVec 32 := Scf.iv c0_i32_8 c1_i32 k1_t1
  let c512_i32 : BitVec 32 := 512#32
  let v26 : BitVec 32 := Scalar.muli arg11 c512_i32
  let v27 : BitVec 32 := v26
  let v43 : Index := Scalar.indexCast v27
  ![0, v43.toNat]
def k1_cond2 (i : grid1.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x8192 .i32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

class Facts₀ : Prop where
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x512_S1024x512_0_0 : ∀ a, (![0, 0] : Fin 2 → Nat) a + S1024x512.size a ≤ S1024x512.size a
  h_S1024x512 : 0 < S1024x512.numel
  reduces_S1024x512_S512 : S1024x512.Reduces [0] S512
  shapeCasts_S512_S1x512 : S512.ShapeCasts S1x512
  bcast_S_S1x512 : S_.BroadcastsInDim S1x512 (![] : Fin 0 → Fin S1x512.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x512_S512x512_0_0 : ∀ a, (![0, 0] : Fin 2 → Nat) a + S512x512.size a ≤ S512x512.size a
  h_S512x512 : 0 < S512x512.numel
  broadcasts_S1x512_S512x512 : S1x512.Broadcasts S512x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x512_p1_0_S512x512 : S512x512.Transposes [1, 0] S512x512
  broadcasts_S512x1_S512x512 : S512x1.Broadcasts S512x512
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x512.size a ≤ S8192x512.size a
  k1_off2_inb : ∀ k1_t1 : Fin k1_t1_loop.trips, ∀ a, (k1_off2 k1_t1) a + S1x512.size a ≤ S1x8192.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x512.size a
  hwx1_0 : ∀ i : grid1.Coords, EltTy.bits .f32 = 32 ∨ (Rect.block (s := S8192x512) S512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x512.size a ≤ S8192x512.size a
  hwx1_1 : ∀ i : grid1.Coords, EltTy.bits .f32 = 32 ∨ (Rect.block (s := S8192x512) S8192x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .i32 = 32 ∨ (Rect.block (s := S8192x1) S512x1.size (cc1_transform_6 i) (hinb1_6 i)).WholeWords (EltTy.packing .i32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x8192.size a ≤ S1x8192.size a
  hwx1_7 : ∀ i : grid1.Coords, EltTy.bits .i32 = 32 ∨ (Rect.block (s := S1x8192) S1x8192.size (cc1_transform_7 i) (hinb1_7 i)).WholeWords (EltTy.packing .i32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1.size a ≤ S1x1.size a
  hwx1_8 : ∀ i : grid1.Coords, EltTy.bits .f32 = 32 ∨ (Rect.block (s := S1x1) S1x1.size (cc1_transform_8 i) (hinb1_8 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x512.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8192x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v19) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v20) S1x8192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S1x1.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x512 : Shape := ⟨2, ![8192, 512]⟩
abbrev S8192 : Shape := ⟨1, ![8192]⟩
abbrev S_ : Shape := ⟨0, ![]⟩
abbrev S512 : Shape := ⟨1, ![512]⟩
abbrev S1x512 : Shape := ⟨2, ![1, 512]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192, .i32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .i32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S512, .f32⟩
  | .hbm, ⟨32, _⟩ => ⟨S1x512, .f32⟩
  | .hbm, ⟨33, _⟩ => ⟨S8192x512, .f32⟩
  | .hbm, ⟨34, _⟩ => ⟨S8192x512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S_, .f32⟩
  | .hbm, ⟨39, _⟩ => ⟨S512, .f32⟩
  | .hbm, ⟨40, _⟩ => ⟨S_, .f32⟩
  | .hbm, ⟨41, _⟩ => ⟨S512, .f32⟩
  | .hbm, ⟨42, _⟩ => ⟨S512, .f32⟩
  | .hbm, ⟨43, _⟩ => ⟨S_, .i32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S_, .f32⟩
  | .hbm, ⟨61, _⟩ => ⟨S_, .i1⟩
  | .hbm, ⟨62, _⟩ => ⟨S_, .f32⟩
  | .hbm, ⟨63, _⟩ => ⟨S_, .f32⟩
  | .hbm, ⟨64, _⟩ => ⟨S512, .f32⟩
  | .hbm, ⟨65, _⟩ => ⟨S512, .f32⟩
  | .hbm, ⟨66, _⟩ => ⟨S512, .f32⟩
  | .hbm, ⟨67, _⟩ => ⟨S1x512, .f32⟩
  | .hbm, ⟨68, _⟩ => ⟨S8192x512, .f32⟩
  | .hbm, ⟨69, _⟩ => ⟨S8192x512, .f32⟩
  | .hbm, ⟨70, _⟩ => ⟨S1x512, .f32⟩
  | .hbm, ⟨71, _⟩ => ⟨S8192x512, .f32⟩
  | .hbm, ⟨72, _⟩ => ⟨S8192x512, .f32⟩
  | .hbm, ⟨73, _⟩ => ⟨S512x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x1, .i32⟩
  | .hbm, ⟨79, _⟩ => ⟨S1x8192, .i32⟩
  | .hbm, ⟨80, _⟩ => ⟨S8192x8192, .i32⟩
  | .hbm, ⟨81, _⟩ => ⟨S8192x8192, .i32⟩
  | .hbm, ⟨82, _⟩ => ⟨S8192x8192, .i1⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_cst_0 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_cst_1 : Ref sig .tc := ⟨.hbm, 19, rfl⟩
abbrev main_call0_call0_v8 : Ref sig .tc := ⟨.hbm, 20, rfl⟩
abbrev main_call0_call0_cst_2 : Ref sig .tc := ⟨.hbm, 21, rfl⟩
abbrev main_call0_call0_v9 : Ref sig .tc := ⟨.hbm, 22, rfl⟩
abbrev main_call0_call0_v10 : Ref sig .tc := ⟨.hbm, 23, rfl⟩
abbrev main_call0_call0_v11 : Ref sig .tc := ⟨.hbm, 24, rfl⟩
abbrev main_call0_call0_cst_3 : Ref sig .tc := ⟨.hbm, 25, rfl⟩
abbrev main_call0_call0_v12 : Ref sig .tc := ⟨.hbm, 26, rfl⟩
abbrev main_call0_call0_cst_4 : Ref sig .tc := ⟨.hbm, 27, rfl⟩
abbrev main_call0_call0_call0_v0 : Ref sig .tc := ⟨.hbm, 28, rfl⟩
abbrev main_call0_call0_call0_v1 : Ref sig .tc := ⟨.hbm, 29, rfl⟩
abbrev main_call0_v0 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_cst_2 : Ref sig .tc := ⟨.hbm, 40, rfl⟩
abbrev main_v11 : Ref sig .tc := ⟨.hbm, 41, rfl⟩
abbrev main_v12 : Ref sig .tc := ⟨.hbm, 42, rfl⟩
abbrev main_c_3 : Ref sig .tc := ⟨.hbm, 43, rfl⟩
abbrev main_call1_call0_cst : Ref sig .tc := ⟨.hbm, 44, rfl⟩
abbrev main_call1_call0_v0 : Ref sig .tc := ⟨.hbm, 45, rfl⟩
abbrev main_call1_call0_v1 : Ref sig .tc := ⟨.hbm, 46, rfl⟩
abbrev main_call1_call0_cst_0 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_cst_1 : Ref sig .tc := ⟨.hbm, 54, rfl⟩
abbrev main_call1_call0_v8 : Ref sig .tc := ⟨.hbm, 55, rfl⟩
abbrev main_call1_call0_cst_2 : Ref sig .tc := ⟨.hbm, 56, rfl⟩
abbrev main_call1_call0_v9 : Ref sig .tc := ⟨.hbm, 57, rfl⟩
abbrev main_call1_call0_v10 : Ref sig .tc := ⟨.hbm, 58, rfl⟩
abbrev main_call1_call0_v11 : Ref sig .tc := ⟨.hbm, 59, rfl⟩
abbrev main_call1_call0_cst_3 : Ref sig .tc := ⟨.hbm, 60, rfl⟩
abbrev main_call1_call0_v12 : Ref sig .tc := ⟨.hbm, 61, rfl⟩
abbrev main_call1_call0_cst_4 : Ref sig .tc := ⟨.hbm, 62, rfl⟩
abbrev main_call1_call0_call0_v0 : Ref sig .tc := ⟨.hbm, 63, rfl⟩
abbrev main_call1_call0_call0_v1 : Ref sig .tc := ⟨.hbm, 64, rfl⟩
abbrev main_call1_v0 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_cst_4 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_5 : Ref sig .tc := ⟨.hbm, 86, rfl⟩
abbrev main_v32 : Ref sig .tc := ⟨.hbm, 87, rfl⟩

abbrev nD : Nat := 1
abbrev τ : Topo := Topo.v7x

variable {F : FTy → Type} [FloatOps F]

class Facts₀ : Prop where
  reducesTo_S8192x512_S512_d0 : S8192x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S8192x512_0_1 : S1x512.BroadcastsInDim S8192x512 (![0, 1] : Fin 2 → Fin S8192x512.rank)
  transposes_S8192x512_S512x8192_1_0 : S8192x512.Transposes [1, 0] S512x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S_d0_1 : S8192x8192.ReducesTo [0, 1] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Defs0.lean ====
/-
  The statistics region (the first kernel call, a grid of 8 points over row tiles of 1024): what its four column
  accumulators hold after each point, as plain terms over the region's input arrays, and the region's proof data.
  After point n the accumulators hold, column by column, the sum and the sum of squares of the first (n+1)·1024 rows
  of each input; the four output windows receive them at the last point and are idle before it.
-/
import proofs.«132247_j36120674959540_1_alg».proof.Proof.Gen.Kernel.Launch
import proofs.«132247_j36120674959540_1_alg».proof.Proof.Gen.Kernel.Skeleton
import proofs.«132247_j36120674959540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the first input at point t, and of the second. -/
abbrev ablk (c : Dev nD) (t : Fin cfg0.N) : Vec F S1024x512 .f32 := iblk0 V c 0 t
abbrev bblk (c : Dev nD) (t : Fin cfg0.N) : Vec F S1024x512 .f32 := iblk0 V c 1 t

/-! ## The staging and scratch memrefs -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- The four accumulators: whole scoped buffers of the kernel's own. -/
abbrev scM0_0 : Memref sig .tc .vmem S1x512 .f32 := Memref.whole cc0_scratch0
abbrev scM0_1 : Memref sig .tc .vmem S1x512 .f32 := Memref.whole cc0_scratch1
abbrev scM0_2 : Memref sig .tc .vmem S1x512 .f32 := Memref.whole cc0_scratch2
abbrev scM0_3 : Memref sig .tc .vmem S1x512 .f32 := Memref.whole cc0_scratch3
/-- The kernel's own scratch among the core's scoped buffers. -/
abbrev scr0 : List (Ref sig .tc) := [cc0_scratch0, cc0_scratch1, cc0_scratch2, cc0_scratch3]

/-! ## The accumulation -/

/-- What the four accumulators (column sums of the first input, of its squares, of the second input, of its squares)
    hold after the body at point n: at the first point each is reset to zero and the point's tile added; afterwards
    the tile is added to what the point before left. -/
def acc0 (c : Dev nD) : (n : ℕ) → n < cfg0.N → Vec F S1x512 .f32 × Vec F S1x512 .f32 × Vec F S1x512 .f32 × Vec F S1x512 .f32
  | 0, hn => (k0_pay6 (ablk V c ⟨0, hn⟩) (k0_pay2 (F := F)), k0_pay7 (ablk V c ⟨0, hn⟩) (k0_pay3 (F := F)),
      k0_pay8 (bblk V c ⟨0, hn⟩) (k0_pay4 (F := F)), k0_pay1 (k0_pay5 (F := F)) (k0_pay9 (bblk V c ⟨0, hn⟩)))
  | n + 1, hn =>
      (k0_pay6 (ablk V c ⟨n + 1, hn⟩) (acc0 c n (Nat.lt_of_succ_lt hn)).1,
       k0_pay7 (ablk V c ⟨n + 1, hn⟩) (acc0 c n (Nat.lt_of_succ_lt hn)).2.1,
       k0_pay8 (bblk V c ⟨n + 1, hn⟩) (acc0 c n (Nat.lt_of_succ_lt hn)).2.2.1,
       k0_pay1 (acc0 c n (Nat.lt_of_succ_lt hn)).2.2.2 (k0_pay9 (bblk V c ⟨n + 1, hn⟩)))

theorem acc0_zero (c : Dev nD) (hn : 0 < cfg0.N) :
    acc0 V c 0 hn = (k0_pay6 (ablk V c ⟨0, hn⟩) (k0_pay2 (F := F)), k0_pay7 (ablk V c ⟨0, hn⟩) (k0_pay3 (F := F)),
      k0_pay8 (bblk V c ⟨0, hn⟩) (k0_pay4 (F := F)), k0_pay1 (k0_pay5 (F := F)) (k0_pay9 (bblk V c ⟨0, hn⟩))) := rfl

theorem acc0_succ (c : Dev nD) (n : ℕ) (hn : n + 1 < cfg0.N) :
    acc0 V c (n + 1) hn =
      (k0_pay6 (ablk V c ⟨n + 1, hn⟩) (acc0 V c n (Nat.lt_of_succ_lt hn)).1,
       k0_pay7 (ablk V c ⟨n + 1, hn⟩) (acc0 V c n (Nat.lt_of_succ_lt hn)).2.1,
       k0_pay8 (bblk V c ⟨n + 1, hn⟩) (acc0 V c n (Nat.lt_of_succ_lt hn)).2.2.1,
       k0_pay1 (acc0 V c n (Nat.lt_of_succ_lt hn)).2.2.2 (k0_pay9 (bblk V c ⟨n + 1, hn⟩))) := rfl

/-! ## The region's invariant and proof data -/

/-- The invariant before position n: before the first point every scoped buffer at anything; afterwards the four
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1
        ∗ owns (c : Thread nD τ) scM0_2 fullShare (acc0 V c n hn).2.2.1 ∗ owns (c : Thread nD τ) scM0_3 fullShare (acc0 V c n hn).2.2.2)
      ∗ Pipeline.scopedRestBut (Ix := Unit) (Name := ℕ) (U := UR sig nD τ) (Lvl := ℕ) (Val := Elt F) spec0 c scr0 ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1
        ∗ owns (c : Thread nD τ) scM0_2 fullShare (acc0 V c n hn).2.2.1 ∗ owns (c : Thread nD τ) scM0_3 fullShare (acc0 V c n hn).2.2.2)
      ∗ Pipeline.scopedRestBut (Ix := Unit) (Name := ℕ) (U := UR sig nD τ) (Lvl := ℕ) (Val := Elt F) spec0 c scr0 ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2.1
        ∗ owns (c : Thread nD τ) scM0_2 fullShare (acc0 V c (n - 1) (by omega)).2.2.1 ∗ owns (c : Thread nD τ) scM0_3 fullShare (acc0 V c (n - 1) (by omega)).2.2.2)
      ∗ Pipeline.scopedRestBut (Ix := Unit) (Name := ℕ) (U := UR sig nD τ) (Lvl := ℕ) (Val := Elt F) spec0 c scr0 ∗ (∃ r, prngReg c r)) := by
  cases n with
  | zero => exact absurd rfl hz
  | succ n => rfl

/-- The proof data of the statistics region on core c: the arrays as the region finds them; after the body at point t
    each input's buffer at its block and output window 2+j's at accumulator j; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2.1
    | ⟨5, _⟩ => (acc0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2.1 := by dsimp only [dat0]
theorem after0_5 (c : Dev nD) (t : Fin cfg0.N) : (dat0 V c).after 5 t = (acc0 V c t.val t.isLt).2.2.2 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.Kernel.Hand

end
-- ==== Proof.K.Defs1.lean ====
/-
  The main region (the second kernel call, a grid of 16 points over row tiles of 512 of the first input): what its
  scalar accumulator holds after each point, as a plain term over the region's input arrays, and the region's proof data.
  At a point the body normalises its row tile, then walks the 16 row chunks of the second input: each trip adds to a
  carried scalar the sum over a 512 by 512 tile of the squared difference between the scaled product of the two
  normalised tiles and the label mask. The point's total is added to the accumulator, which the output window
  receives at the last point and is idle before it.
-/
import proofs.«132247_j36120674959540_1_alg».proof.Proof.Gen.Kernel.Launch
import proofs.«132247_j36120674959540_1_alg».proof.Proof.Gen.Kernel.Skeleton
import proofs.«132247_j36120674959540_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks at point t under their literal types: the row tile of the first input, the whole second input, the
    two means and the two inverse deviations, the row labels of the tile, all the labels as a row. -/
abbrev xa1 (c : Dev nD) (t : Fin cfg1.N) : Vec F S512x512 .f32 := iblk1 V c 0 t
abbrev xb1 (c : Dev nD) (t : Fin cfg1.N) : Vec F S8192x512 .f32 := iblk1 V c 1 t
abbrev ma1 (c : Dev nD) (t : Fin cfg1.N) : Vec F S1x512 .f32 := iblk1 V c 2 t
abbrev ia1 (c : Dev nD) (t : Fin cfg1.N) : Vec F S1x512 .f32 := iblk1 V c 3 t
abbrev mb1 (c : Dev nD) (t : Fin cfg1.N) : Vec F S1x512 .f32 := iblk1 V c 4 t
abbrev ib1 (c : Dev nD) (t : Fin cfg1.N) : Vec F S1x512 .f32 := iblk1 V c 5 t
abbrev lr1 (c : Dev nD) (t : Fin cfg1.N) : Vec F S512x1 .i32 := iblk1 V c 6 t
abbrev lc1 (c : Dev nD) (t : Fin cfg1.N) : Vec F S1x8192 .i32 := iblk1 V c 7 t

/-! ## The staging and scratch memrefs -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8192 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
/-- The scalar accumulator: a whole scoped buffer of the kernel's own. -/
abbrev scM1_0 : Memref sig .tc .vmem S1x1 .f32 := Memref.whole cc1_scratch0
abbrev scr1 : List (Ref sig .tc) := [cc1_scratch0]

/-! ## One trip of the inner loop, the loop, the accumulation -/

/-- The rows of the second input that trip k reads (512 rows from row 512·k), and the labels beside them. -/
abbrev rB (k : Fin k1_t1_loop.trips) : Rect S8192x512 := Rect.unit (s := S8192x512) (k1_off1 k) S512x512.size (k1_off1_inb k)
abbrev rL (k : Fin k1_t1_loop.trips) : Rect S1x8192 := Rect.unit (s := S1x8192) (k1_off2 k) S1x512.size (k1_off2_inb k)

/-- What trip k yields from the carried scalar: the scalar plus the tile's sum of squared residuals. -/
def trip1 (xa : Vec F S512x512 .f32) (xb : Vec F S8192x512 .f32) (ma ia mb ib : Vec F S1x512 .f32)
    (lr : Vec F S512x1 .i32) (lc : Vec F S1x8192 .i32) (k : Fin k1_t1_loop.trips) (acc : FVec F S1x1 .f32) : FVec F S1x1 .f32 :=
  k1_pay3 xa ma ia lr acc (View.ld xb (rB k)) mb ib (View.ld lc (rL k))

/-- The carried scalar before trip k, from zero. -/
def loop1 (xa : Vec F S512x512 .f32) (xb : Vec F S8192x512 .f32) (ma ia mb ib : Vec F S1x512 .f32)
    (lr : Vec F S512x1 .i32) (lc : Vec F S1x8192 .i32) : ℕ → FVec F S1x1 .f32
  | 0 => k1_pay2 (F := F)
  | k + 1 => if h : k < k1_t1_loop.trips then trip1 xa xb ma ia mb ib lr lc ⟨k, h⟩ (loop1 xa xb ma ia mb ib lr lc k)
      else loop1 xa xb ma ia mb ib lr lc k

theorem loop1_zero (xa : Vec F S512x512 .f32) (xb : Vec F S8192x512 .f32) (ma ia mb ib : Vec F S1x512 .f32)
    (lr : Vec F S512x1 .i32) (lc : Vec F S1x8192 .i32) : loop1 xa xb ma ia mb ib lr lc 0 = k1_pay2 (F := F) := rfl

theorem loop1_succ (xa : Vec F S512x512 .f32) (xb : Vec F S8192x512 .f32) (ma ia mb ib : Vec F S1x512 .f32)
    (lr : Vec F S512x1 .i32) (lc : Vec F S1x8192 .i32) (k : Fin k1_t1_loop.trips) :
    loop1 xa xb ma ia mb ib lr lc (k.val + 1) = trip1 xa xb ma ia mb ib lr lc k (loop1 xa xb ma ia mb ib lr lc k.val) := by
  rw [loop1.eq_2]; exact dif_pos k.isLt

/-- The point's total: the loop's result at point t. -/
def tot1 (c : Dev nD) (t : Fin cfg1.N) : FVec F S1x1 .f32 :=
  loop1 (xa1 V c t) (xb1 V c t) (ma1 V c t) (ia1 V c t) (mb1 V c t) (ib1 V c t) (lr1 V c t) (lc1 V c t) k1_t1_loop.trips

/-- What the scalar accumulator holds after the body at point n: reset to zero at the first point; the point's total added. -/
def acc1 (c : Dev nD) : (n : ℕ) → n < cfg1.N → Vec F S1x1 .f32
  | 0, hn => k1_pay4 (tot1 V c ⟨0, hn⟩) (k1_pay1 (F := F))
  | n + 1, hn => k1_pay4 (tot1 V c ⟨n + 1, hn⟩) (acc1 c n (Nat.lt_of_succ_lt hn))

theorem acc1_zero (c : Dev nD) (hn : 0 < cfg1.N) : acc1 V c 0 hn = k1_pay4 (tot1 V c ⟨0, hn⟩) (k1_pay1 (F := F)) := rfl
theorem acc1_succ (c : Dev nD) (n : ℕ) (hn : n + 1 < cfg1.N) :
    acc1 V c (n + 1) hn = k1_pay4 (tot1 V c ⟨n + 1, hn⟩) (acc1 V c n (Nat.lt_of_succ_lt hn)) := rfl

/-! ## The region's invariant and proof data -/

/-- The invariant before position n: before the first point every scoped buffer at anything; afterwards the accumulator
    at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (acc1 V c n hn)
      ∗ Pipeline.scopedRestBut (Ix := Unit) (Name := ℕ) (U := UR sig nD τ) (Lvl := ℕ) (Val := Elt F) spec1 c scr1 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn)
      ∗ Pipeline.scopedRestBut (Ix := Unit) (Name := ℕ) (U := UR sig nD τ) (Lvl := ℕ) (Val := Elt F) spec1 c scr1 ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega))
      ∗ Pipeline.scopedRestBut (Ix := Unit) (Name := ℕ) (U := UR sig nD τ) (Lvl := ℕ) (Val := Elt F) spec1 c scr1 ∗ (∃ r, prngReg c r)) := by
  cases n with
  | zero => exact absurd rfl hz
  | succ n => rfl

/-- The proof data of the main region on core c: the arrays as the region finds them; after the body at point t each
    input's buffer at its block and the output window's at the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.Kernel.Hand

end
-- ==== Proof.K.Fold.lean ====
/-
  The contents of the TensorCore's buffers at each boundary of the program: at launch; after the statistics region
  (its four output arrays at what its write-backs leave); after the host operations between the regions (means,
  variances, reciprocal roots, the labels as a column and as a row); after the main region (its one output array at what
  its write-back leaves); after the last host operation (the 1 by 1 result reshaped to a scalar).
-/
import proofs.«132247_j36120674959540_1_alg».proof.Proof.Gen.Kernel.Launch
import proofs.«132247_j36120674959540_1_alg».proof.Proof.Gen.Kernel.Skeleton
import proofs.«132247_j36120674959540_1_alg».proof.Proof.Gen.Kernel.Points
import proofs.«132247_j36120674959540_1_alg».proof.Proof.K.Defs0
import proofs.«132247_j36120674959540_1_alg».proof.Proof.K.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the statistics region's entry: no host operation precedes it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the statistics region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- After the host operations between the regions (the main region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the main region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
/-- After the last host operation: the program's end. -/
abbrev W4 : Dev nD → Valuation τ sig (Elt F) := fun c => StableHlo.after hostOps2 (W3 m ρ c)

end Cert.Kernel.Hand

end
-- ==== Proof.K.Body0.lean ====
/-
  The statistics region (the first kernel call, a grid of 8 points over row tiles of 1024): its body obligation and
  the two ends of its invariant. At every point the body adds, column by column, the tile's sums and sums of squares
  of the two inputs to four accumulators; at the first point it resets them to zero before adding; at the last point
  it also copies them to the four output windows, which are left untouched before it. So after point n the
  accumulators hold the explicit terms of the region's definitions, and the invariant before the first point and
  after the last is the launch's own.
-/
import proofs.«132247_j36120674959540_1_alg».proof.Proof.Gen.Kernel.Launch
import proofs.«132247_j36120674959540_1_alg».proof.Proof.Gen.Kernel.Skeleton
import proofs.«132247_j36120674959540_1_alg».proof.Proof.Gen.Kernel.Points
import proofs.«132247_j36120674959540_1_alg».proof.Proof.K.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditionals, and whole-buffer loads and stores -/

/-- The first conditional of the body: the point is the grid's first. -/
abbrev cond0_0 (i : grid0.Coords) : Prop := (Scalar.cmpi .ne (Scalar.extui (Scalar.cmpi .eq (BitVec.ofNat 32 (i 0).val) 0#32)) 0#32) = 1#1
/-- The second: the point is the grid's last. -/
abbrev cond0_1 (i : grid0.Coords) : Prop := k0_cond2 i = 1#1

/-- The zero offsets of a one-row vector's rectangle, and of a tile's. -/
theorem hzV : (![0, 0] : Fin S1x512.rank → ℕ) = fun _ => 0 := by
  funext a; fin_cases a <;> rfl
theorem hzT : (![0, 0] : Fin S1024x512.rank → ℕ) = fun _ => 0 := by
  funext a; fin_cases a <;> rfl

/-- A buffer whose last store was of its whole shape reads as that store's payload. -/
theorem read_cons_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩), View.canon_cons_unit_zero hz]

/-- A load of a whole buffer reads its contents. -/
theorem load_whole {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-! ## The body on any whole memrefs, case by case -/

set_option maxHeartbeats 2000000 in
/-- A middle point (neither conditional taken): with the tiles x0, x1 in the input buffers and the accumulators at
    s0..s3, the body leaves the accumulators at s0 + the column sums of x0, s1 + those of x0², s2 + those of x1,
    s3 + those of x1², and everything else as it was (the output windows at whatever they held). -/
theorem run0_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : ¬cond0_1 i)
    (x0 x1 : Vec F S1024x512 .f32) (xi2 xi3 xi4 xi5 s0 s1 s2 s3 : Vec F S1x512 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xi4 ∗ owns (c : Thread nD τ) arg6 fullShare xi5
        ∗ owns (c : Thread nD τ) arg7 fullShare s0 ∗ owns (c : Thread nD τ) arg8 fullShare s1
        ∗ owns (c : Thread nD τ) arg9 fullShare s2 ∗ owns (c : Thread nD τ) arg10 fullShare s3
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xi4 ∗ owns (c : Thread nD τ) arg6 fullShare xi5
            ∗ owns (c : Thread nD τ) arg7 fullShare (k0_pay6 x0 s0) ∗ owns (c : Thread nD τ) arg8 fullShare (k0_pay7 x0 s1)
            ∗ owns (c : Thread nD τ) arg9 fullShare (k0_pay8 x1 s2) ∗ owns (c : Thread nD τ) arg10 fullShare (k0_pay1 s3 (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
  obtain rfl := harg1.eq_unread hf0; obtain rfl := harg2.eq_unread hf1
  obtain rfl := harg7.eq_unread hg0; obtain rfl := harg8.eq_unread hg1
  obtain rfl := harg9.eq_unread hg2; obtain rfl := harg10.eq_unread hg3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [S0]
  · iexists _; isplitr
    swap; · iexact S0
    ipureintro
    rw [read_cons_whole _ _ hzV, load_whole _ harg1 hzT, load_whole _ harg7 hzV]
  isplitl [S1]
  · iexists _; isplitr
    swap; · iexact S1
    ipureintro
    rw [read_cons_whole _ _ hzV, load_whole _ harg1 hzT, load_whole _ harg8 hzV]
  isplitl [S2]
  · iexists _; isplitr
    swap; · iexact S2
    ipureintro
    rw [read_cons_whole _ _ hzV, load_whole _ harg2 hzT, load_whole _ harg9 hzV]
  iexists _; isplitr
  swap; · iexact S3
  ipureintro
  refine (read_cons_whole _ _ hzV _ _ _).trans ?_
  dsimp only
  rw [load_whole _ harg2 hzT, load_whole _ harg10 hzV]

set_option maxHeartbeats 2000000 in
/-- The first point (the first conditional taken, the second not): whatever the accumulators held, the body leaves them
    at zero + the tile's column sums (and sums of squares); the output windows stay as they were. -/
theorem run0_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : cond0_0 i) (hc1 : ¬cond0_1 i)
    (x0 x1 : Vec F S1024x512 .f32) (xi2 xi3 xi4 xi5 : Vec F S1x512 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xi4 ∗ owns (c : Thread nD τ) arg6 fullShare xi5
            ∗ owns (c : Thread nD τ) arg7 fullShare (k0_pay6 x0 (k0_pay2 (F := F))) ∗ owns (c : Thread nD τ) arg8 fullShare (k0_pay7 x0 (k0_pay3 (F := F)))
            ∗ owns (c : Thread nD τ) arg9 fullShare (k0_pay8 x1 (k0_pay4 (F := F))) ∗ owns (c : Thread nD τ) arg10 fullShare (k0_pay1 (k0_pay5 (F := F)) (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, S0⟩, ⟨%d1, %g1, -, S1⟩, ⟨%d2, %g2, -, S2⟩, ⟨%d3, %g3, -, S3⟩, Hk⟩
  obtain rfl := harg1.eq_unread hf0; obtain rfl := harg2.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [S0]
  · iexists _; isplitr
    swap; · iexact S0
    ipureintro
    rw [read_cons_whole _ _ hzV, load_whole _ harg1 hzT]
    sl_unfold_run_names
    rw [View.readCov_unit_zero _ hzV]
  isplitl [S1]
  · iexists _; isplitr
    swap; · iexact S1
    ipureintro
    rw [read_cons_whole _ _ hzV, load_whole _ harg1 hzT]
    sl_unfold_run_names
    rw [View.readCov_unit_zero _ hzV]
  isplitl [S2]
  · iexists _; isplitr
    swap; · iexact S2
    ipureintro
    rw [read_cons_whole _ _ hzV, load_whole _ harg2 hzT]
    sl_unfold_run_names
    rw [View.readCov_unit_zero _ hzV]
  iexists _; isplitr
  swap; · iexact S3
  ipureintro
  refine (read_cons_whole _ _ hzV _ _ _).trans ?_
  dsimp only
  rw [load_whole _ harg2 hzT]
  sl_unfold_run_names
  rw [View.readCov_unit_zero _ hzV]

set_option maxHeartbeats 2000000 in
/-- The last point (the second conditional taken, the first not): the accumulators are updated as at a middle point,
    and each output window, whatever it held, receives its accumulator's new contents. -/
theorem run0_C (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : cond0_1 i)
    (x0 x1 : Vec F S1024x512 .f32) (s0 s1 s2 s3 : Vec F S1x512 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ owns (c : Thread nD τ) arg9 fullShare s2 ∗ owns (c : Thread nD τ) arg10 fullShare s3
        ∗ (iprop(owns (c : Thread nD τ) arg1 fullShare x0 ∗ owns (c : Thread nD τ) arg2 fullShare x1
            ∗ owns (c : Thread nD τ) arg3 fullShare (k0_pay6 x0 s0) ∗ owns (c : Thread nD τ) arg4 fullShare (k0_pay7 x0 s1)
            ∗ owns (c : Thread nD τ) arg5 fullShare (k0_pay8 x1 s2) ∗ owns (c : Thread nD τ) arg6 fullShare (k0_pay1 s3 (k0_pay9 x1))
            ∗ owns (c : Thread nD τ) arg7 fullShare (k0_pay6 x0 s0) ∗ owns (c : Thread nD τ) arg8 fullShare (k0_pay7 x0 s1)
            ∗ owns (c : Thread nD τ) arg9 fullShare (k0_pay8 x1 s2) ∗ owns (c : Thread nD τ) arg10 fullShare (k0_pay1 s3 (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%e2, %f2, -, H2⟩, ⟨%e3, %f3, -, H3⟩, ⟨%e4, %f4, -, H4⟩, ⟨%e5, %f5, -, H5⟩, ⟨%g0, %hg0, S0⟩, ⟨%g1, %hg1, S1⟩, ⟨%g2, %hg2, S2⟩, ⟨%g3, %hg3, S3⟩, Hk⟩
  obtain rfl := harg1.eq_unread hf0; obtain rfl := harg2.eq_unread hf1
  obtain rfl := harg7.eq_unread hg0; obtain rfl := harg8.eq_unread hg1
  obtain rfl := harg9.eq_unread hg2; obtain rfl := harg10.eq_unread hg3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_cons_whole _ _ hzV _ _ _).trans ?_
    sl_unfold_run_names
    rw [View.readCov_unit_zero _ hzV, load_whole _ harg1 hzT, load_whole _ harg7 hzV]
  isplitl [H3]
  · iexists _; isplitr
    swap; · iexact H3
    ipureintro
    refine (read_cons_whole _ _ hzV _ _ _).trans ?_
    sl_unfold_run_names
    rw [View.readCov_unit_zero _ hzV, load_whole _ harg1 hzT, load_whole _ harg8 hzV]
  isplitl [H4]
  · iexists _; isplitr
    swap; · iexact H4
    ipureintro
    refine (read_cons_whole _ _ hzV _ _ _).trans ?_
    sl_unfold_run_names
    rw [View.readCov_unit_zero _ hzV, load_whole _ harg2 hzT, load_whole _ harg9 hzV]
  isplitl [H5]
  · iexists _; isplitr
    swap; · iexact H5
    ipureintro
    refine (read_cons_whole _ _ hzV _ _ _).trans ?_
    sl_unfold_run_names
    refine (View.readCov_unit_zero _ hzV _ _).trans ?_
    dsimp only
    rw [load_whole _ harg2 hzT, load_whole _ harg10 hzV]
  isplitl [S0]
  · iexists _; isplitr
    swap; · iexact S0
    ipureintro
    sl_unfold_run_names
    rw [read_cons_whole _ _ hzV, load_whole _ harg1 hzT, load_whole _ harg7 hzV]
  isplitl [S1]
  · iexists _; isplitr
    swap; · iexact S1
    ipureintro
    sl_unfold_run_names
    rw [read_cons_whole _ _ hzV, load_whole _ harg1 hzT, load_whole _ harg8 hzV]
  isplitl [S2]
  · iexists _; isplitr
    swap; · iexact S2
    ipureintro
    sl_unfold_run_names
    rw [read_cons_whole _ _ hzV, load_whole _ harg2 hzT, load_whole _ harg9 hzV]
  iexists _; isplitr
  swap; · iexact S3
  ipureintro
  sl_unfold_run_names
  refine (read_cons_whole _ _ hzV _ _ _).trans ?_
  dsimp only
  rw [load_whole _ harg2 hzT, load_whole _ harg10 hzV]

-- the TensorCore's buffer contents when the region is entered
variable (V : (c : Dev nD) → (b : Ref sig .tc) → Buf (Elt F) ((c : Thread nD τ).loc b))

/-! ## The branch conditions and the idle points, over the grid -/

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 7 :=
  (by decide +kernel : ∀ t : Fin grid0.N, cond0_1 (grid0.coords t) ↔ t.val = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The accumulators point by point -/

theorem acc0_first (c : Dev nD) (t : Fin cfg0.N) (h0 : t.val = 0) :
    acc0 V c t.val t.isLt = (k0_pay6 (ablk V c t) (k0_pay2 (F := F)), k0_pay7 (ablk V c t) (k0_pay3 (F := F)),
      k0_pay8 (bblk V c t) (k0_pay4 (F := F)), k0_pay1 (k0_pay5 (F := F)) (k0_pay9 (bblk V c t))) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt =
      (k0_pay6 (ablk V c t) (acc0 V c (t.val - 1) (Nat.lt_of_le_of_lt (Nat.sub_le _ _) t.isLt)).1,
       k0_pay7 (ablk V c t) (acc0 V c (t.val - 1) (Nat.lt_of_le_of_lt (Nat.sub_le _ _) t.isLt)).2.1,
       k0_pay8 (bblk V c t) (acc0 V c (t.val - 1) (Nat.lt_of_le_of_lt (Nat.sub_le _ _) t.isLt)).2.2.1,
       k0_pay1 (acc0 V c (t.val - 1) (Nat.lt_of_le_of_lt (Nat.sub_le _ _) t.isLt)).2.2.2 (k0_pay9 (bblk V c t))) := by
  obtain ⟨n, hn⟩ := t
  cases n with
  | zero => exact absurd rfl h0
  | succ n => rfl

/-! ## The invariant before the first point, with the four accumulators as owned memrefs -/

/-- Regrouping a separating conjunction. -/
theorem sep_regroup {M : Type} [URA M] (A R G : sProp M) : (iprop((A ∗ R) ∗ G) : sProp M) = iprop(A ∗ R ∗ G) := by
  have h₁ : (iprop((A ∗ R) ∗ G) : sProp M) ⊢ iprop(A ∗ R ∗ G) := by
    iintro ⟨⟨HA, HR⟩, HG⟩
    isplitl [HA]; · iexact HA
    isplitl [HR]; · iexact HR
    iexact HG
  have h₂ : (iprop(A ∗ R ∗ G) : sProp M) ⊢ iprop((A ∗ R) ∗ G) := by
    iintro ⟨HA, HR, HG⟩
    isplitl [HA HR]
    · isplitl [HA]; · iexact HA
      iexact HR
    iexact HG
  exact BI.equiv_iff.mp ⟨h₁, h₂⟩

theorem PhiA0_eq (c : Dev nD) :
    (Pipeline.ΦA spec0 c : sProp 𝕄)
      = iprop(iprop((∃ d, owns (c : Thread nD τ) (scM0_0) fullShare (d)) ∗ (∃ d, owns (c : Thread nD τ) (scM0_1) fullShare (d))
          ∗ (∃ d, owns (c : Thread nD τ) (scM0_2) fullShare (d)) ∗ (∃ d, owns (c : Thread nD τ) (scM0_3) fullShare (d)))
        ∗ Pipeline.scopedRestBut (Ix := Unit) (Name := ℕ) (U := UR sig nD τ) (Lvl := ℕ) (Val := Elt F) spec0 c scr0 ∗ (∃ r, prngReg c r)) := by
  unfold Pipeline.ΦA
  rw [Pipeline.scopedRest_split_of_list spec0 c scr0 (by decide) (by decide)]
  simp only [scM0_0, scM0_1, scM0_2, scM0_3, owns_whole]
  exact sep_regroup _ _ _

/-! ## The inputs' staging buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the point's position decides the case. At the first
    point the invariant hands the four accumulators at anything and takes them back reset and with the tile added; at a
    later point it hands them at what the point before left; at the last point the output windows receive them, and
    before it they are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h7 : t.val = 7
  · have h0 : t.val ≠ 0 := by omega
    have hc0 : ¬cond0_0 (grid0.coords t) := fun h => h0 ((hcond0_0 t).mp h)
    have hc1 : cond0_1 (grid0.coords t) := (hcond0_1 t).mpr h7
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [show (dat0 V c).leavesExact 4 t = owns (c : Thread nD τ) (ms0_4 t) fullShare ((dat0 V c).after 4 t) from by
      unfold Dat.leavesExact; rw [liveAt0_4 t hc1], after0_4]
    rw [show (dat0 V c).leavesExact 5 t = owns (c : Thread nD τ) (ms0_5 t) fullShare ((dat0 V c).after 5 t) from by
      unfold Dat.leavesExact; rw [liveAt0_5 t hc1], after0_5]
    rw [acc0_later V c t h0]; (try dsimp only)
    rw [PhiS0_castSucc V c t, PhiS0_pos V c _ _ h0]
    iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
    iapply (run0_C c (grid0.coords t) _ _ _ _ _ _ _ _ _ _ _ _ _ _ _ _ _ _ _ _ hc0 hc1 (ablk V c t) (bblk V c t) _ _ _ _ Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond0_1 (grid0.coords t) := fun h => h7 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1),
      Dat.leavesExact_idle (dat0 V c) 4 t (idleAt0_4 t hc1) (noFlush0_4 t hc1),
      Dat.leavesExact_idle (dat0 V c) 5 t (idleAt0_5 t hc1) (noFlush0_5 t hc1)]
    by_cases h0 : t.val = 0
    · have hc0 : cond0_0 (grid0.coords t) := (hcond0_0 t).mpr h0
      rw [acc0_first V c t h0]; (try dsimp only)
      rw [PhiS0_castSucc V c t, PhiS0_zero V c _ _ h0, PhiA0_eq]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run0_A c (grid0.coords t) _ _ _ _ _ _ _ _ _ _ _ _ _ _ _ _ _ _ _ _ hc0 hc1 (ablk V c t) (bblk V c t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · have hc0 : ¬cond0_0 (grid0.coords t) := fun h => h0 ((hcond0_0 t).mp h)
      rw [acc0_later V c t h0]; (try dsimp only)
      rw [PhiS0_castSucc V c t, PhiS0_pos V c _ _ h0]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ _ _ _ _ hc0 hc1 (ablk V c t) (bblk V c t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3⟩, Hr, Hg⟩
  isplitl [HS0 HS1 HS2 HS3]
  · isplitl [HS0]; · iexists _; iexact HS0
    isplitl [HS1]; · iexists _; iexact HS1
    isplitl [HS2]; · iexists _; iexact HS2
    iexists _; iexact HS3
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.Kernel.Hand

end
-- ==== Proof.K.Body1Runs.lean ====
/-
  The main region's body on whole buffers, case by case. At the first point of the grid the scalar accumulator is
  reset to zero before anything else; at every point the row tile is normalised and the sixteen row chunks of the
  second input are walked, each trip adding to a carried scalar the tile's sum of squared residuals, and the total is
  added to the accumulator; at the last point the accumulator is also copied to the output. The carried scalar
  before trip n is the explicit recursion over the trips (one trip's yield read once, then induction), so each case
  leaves the accumulator at the point's total added to what it held (zero at the first point).
-/
import proofs.«132247_j36120674959540_1_alg».proof.Proof.K.Defs1
import proofs.«132247_j36120674959540_1_alg».proof.Proof.Gen.Kernel.Loops
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, in closed form over the grid -/

/-- The first branch of the body (the reset) is taken. -/
abbrev cond1_0 (i : grid1.Coords) : Prop := (Scalar.cmpi .ne (Scalar.extui (Scalar.cmpi .eq (BitVec.ofNat 32 (i 0).val) 0#32)) 0#32) = 1#1
/-- It is taken at the first point only. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch of the body (the copy to the output) is taken. -/
abbrev cond1_1 (i : grid1.Coords) : Prop := k1_cond2 i = 1#1
/-- It is taken at the last point only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Before the last point the output window is idle, -/
theorem idleAt1_8 : ∀ t : Fin cfg1.N, ¬cond1_1 (grid1.coords t) → cfg1.idle 8 (grid1.coords t) = true := by decide +kernel
/-- and not written back; -/
theorem noFlush1_8 : ∀ t : Fin cfg1.N, ¬cond1_1 (grid1.coords t) → (cfg1.win 8).flush t = false := by decide +kernel
/-- at the last point it is live. -/
theorem liveAt1_8 : ∀ t : Fin cfg1.N, cond1_1 (grid1.coords t) → cfg1.idle 8 (grid1.coords t) = false := by decide +kernel

/-! ## The carried scalar of the inner loop, explicitly -/

/-- The whole-buffer rectangle's offsets are zero. -/
theorem hz : (![0, 0] : Fin 2 → ℕ) = fun _ => 0 := funext fun a => by fin_cases a <;> rfl

/-- One trip's yield, read once: the trip's payload of the carried scalar and of what the trip loads — the trip's
    rows of the second input, its mean and inverse deviation whole, the trip's labels. -/
theorem tripR_eq (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole)
    (v3 : Vec F S512x512 .f32) (v4 v8 : Vec F S1x512 .f32) (v13 : Vec F S512x1 .i32)
    (X2 : BufTy.Contents (Elt F) arg2.view.ty) (X5 : BufTy.Contents (Elt F) arg5.view.ty) (X6 : BufTy.Contents (Elt F) arg6.view.ty) (X8 : BufTy.Contents (Elt F) arg8.view.ty)
    (k : Fin k1_t1_loop.trips) (acc : FVec F S1x1 .f32) :
    tripR_k1_t1 (F := F) Variants.none c none i arg1 harg1 arg2 harg2 arg3 harg3 arg4 harg4 arg5 harg5 arg6 harg6 arg7 harg7 arg8 harg8 arg9 harg9 arg10 harg10 v3 v4 v8 v13 X2 X5 X6 X8 k acc
      = k1_pay3 v3 v4 v8 v13 acc (View.ld (arg2.view.read (Elt F) X2) (rB k)) (arg5.view.read (Elt F) X5) (arg6.view.read (Elt F) X6) (View.ld (arg8.view.read (Elt F) X8) (rL k)) := by
  unfold tripR_k1_t1 trip_k1_t1
  dsimp only
  rw [View.readAt_eq_ld, View.readAt_eq_ld, View.readAt_eq_ld, View.readAt_eq_ld]
  rw [View.ld_unit_zero (S := S1x512) hz, View.ld_unit_zero (S := S1x512) hz]

/-- The carried scalar before trip n is the explicit recursion over the trips, from zero. -/
theorem st_eq_loop1 (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole)
    (xa : Vec F S512x512 .f32) (xb : Vec F S8192x512 .f32) (ma ia mb ib : Vec F S1x512 .f32) (lr : Vec F S512x1 .i32) (lc : Vec F S1x8192 .i32) :
    ∀ n, n ≤ k1_t1_loop.trips →
      st_k1_t1 (F := F) Variants.none c none i arg1 harg1 arg2 harg2 arg3 harg3 arg4 harg4 arg5 harg5 arg6 harg6 arg7 harg7 arg8 harg8 arg9 harg9 arg10 harg10 xa ma ia lr (harg2.unread xb) (harg5.unread mb) (harg6.unread ib) (harg8.unread lc) (k1_pay2 (F := F)) n
        = loop1 xa xb ma ia mb ib lr lc n
  | 0, _ => rfl
  | n + 1, hn => by
    have h : n < k1_t1_loop.trips := hn
    refine (st_k1_t1_succ (F := F) Variants.none c none i arg1 harg1 arg2 harg2 arg3 harg3 arg4 harg4 arg5 harg5 arg6 harg6 arg7 harg7 arg8 harg8 arg9 harg9 arg10 harg10 xa ma ia lr _ _ _ _ _ ⟨n, h⟩).trans ?_
    refine (tripR_eq c i arg1 harg1 arg2 harg2 arg3 harg3 arg4 harg4 arg5 harg5 arg6 harg6 arg7 harg7 arg8 harg8 arg9 harg9 arg10 harg10 xa ma ia lr _ _ _ _ ⟨n, h⟩ _).trans ?_
    rw [harg2.read_unread, harg5.read_unread, harg6.read_unread, harg8.read_unread,
      st_eq_loop1 c i arg1 harg1 arg2 harg2 arg3 harg3 arg4 harg4 arg5 harg5 arg6 harg6 arg7 harg7 arg8 harg8 arg9 harg9 arg10 harg10 xa xb ma ia mb ib lr lc n (Nat.le_of_lt h)]
    exact (loop1_succ xa xb ma ia mb ib lr lc ⟨n, h⟩).symm

/-- One store through the whole-scalar rectangle, last, covers the scalar. -/
theorem cover1 (w : Vec F S1x1 .f32) (L : List (View.Piece (Elt F) S1x1 .f32)) (y : S1x1.Idx) :
    ∃ pc ∈ ((⟨Rect.unit ![0, 0] S1x1.size inb_S1x1_S1x1_0_0, w⟩ : View.Piece (Elt F) S1x1 .f32) :: L), y ∈ pc.1.set :=
  ⟨_, List.mem_cons_self, View.mem_set_unit_zero hz inb_S1x1_S1x1_0_0 y⟩

/-! ## The body's runs -/

set_option maxHeartbeats 4000000 in
/-- The first point: the accumulator is reset to zero, then gains the point's total; the output's buffer is left as found. -/
theorem run1_A (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (xa : Vec F S512x512 .f32) (xb : Vec F S8192x512 .f32) (ma ia mb ib : Vec F S1x512 .f32) (lr : Vec F S512x1 .i32) (lc : Vec F S1x8192 .i32) (xi9 : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ (∃ d, owns (c : Thread nD τ) arg10 fullShare d)
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare (k1_pay4 (loop1 xa xb ma ia mb ib lr lc k1_t1_loop.trips) (k1_pay1 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v (k1_pay1 (F := F))) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

set_option maxHeartbeats 4000000 in
/-- A middle point: nothing is reset or copied; the accumulator gains the point's total; the output's buffer is left as found. -/
theorem run1_B (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (xa : Vec F S512x512 .f32) (xb : Vec F S8192x512 .f32) (ma ia mb ib : Vec F S1x512 .f32) (lr : Vec F S512x1 .i32) (lc : Vec F S1x8192 .i32) (xi9 xs : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare xs
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare (k1_pay4 (loop1 xa xb ma ia mb ib lr lc k1_t1_loop.trips) xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

set_option maxHeartbeats 4000000 in
/-- The last point: the accumulator gains the point's total and is copied to the output's buffer. -/
theorem run1_C (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (xa : Vec F S512x512 .f32) (xb : Vec F S8192x512 .f32) (ma ia mb ib : Vec F S1x512 .f32) (lr : Vec F S512x1 .i32) (lc : Vec F S1x8192 .i32) (xs : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ (∃ d, owns (c : Thread nD τ) arg9 fullShare d) ∗ owns (c : Thread nD τ) arg10 fullShare xs
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare (k1_pay4 (loop1 xa xb ma ia mb ib lr lc k1_t1_loop.trips) xs) ∗ owns (c : Thread nD τ) arg10 fullShare (k1_pay4 (loop1 xa xb ma ia mb ib lr lc k1_t1_loop.trips) xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [View.read_writes_eq_canon _ _ _ (cover1 _ _), View.canon_cons_unit_zero hz]
    simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
    exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

end Cert.Kernel.Hand

end
-- ==== Proof.K.Body1.lean ====
/-
  The main region's body obligation and the two ends of its invariant. Before the first point every scoped buffer
  is at anything; the scalar accumulator is split off that rest and the others are carried unopened. At a point the
  inputs' buffers hold their blocks (fetched there or not); the first point resets the accumulator and adds the
  point's total, a later point adds the point's total to what the point before left, and the last point also copies
  the accumulator to the output's buffer, which is idle and handed back untouched before it. After any point but
  the first the accumulator's named contents may be forgotten, which gives the launch's form of the invariant back.
-/
import proofs.«132247_j36120674959540_1_alg».proof.Proof.K.Body1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant before the first point -/

/-- Before the first point: the scalar accumulator owned at anything, the other scoped buffers unopened, the
    generator register at some state. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c scr1) ∗ (∃ r, prngReg c r)) := by
  unfold Pipeline.ΦA
  rw [Pipeline.scopedRest_split_of_list spec1 c scr1 (by decide) (by decide)]
  simp only [bigSepL_singleton, scM1_0, owns_whole]
  try rfl

/-! ## What the accumulator holds, at a point of the grid -/

theorem acc1_first (c : Dev nD) (t : Fin cfg1.N) (hz : t.val = 0) :
    acc1 V c t.val t.isLt = k1_pay4 (loop1 (xa1 V c t) (xb1 V c t) (ma1 V c t) (ia1 V c t) (mb1 V c t) (ib1 V c t) (lr1 V c t) (lc1 V c t) k1_t1_loop.trips) (k1_pay1 (F := F)) := by
  obtain ⟨n, hn⟩ := t
  cases n with
  | zero => rfl
  | succ n => exact absurd hz (Nat.succ_ne_zero n)

theorem acc1_later (c : Dev nD) (t : Fin cfg1.N) (hz : t.val ≠ 0) :
    acc1 V c t.val t.isLt = k1_pay4 (loop1 (xa1 V c t) (xb1 V c t) (ma1 V c t) (ia1 V c t) (mb1 V c t) (ib1 V c t) (lr1 V c t) (lc1 V c t) k1_t1_loop.trips) (acc1 V c (t.val - 1) (by omega)) := by
  obtain ⟨n, hn⟩ := t
  cases n with
  | zero => exact absurd rfl hz
  | succ n => rfl

/-! ## Each input's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' buffers hold their blocks; the closed forms say which case the point is in;
    the invariant hands the body the accumulator at what the point before left (at anything at the first point) and
    takes it back at this point's contents; the output's buffer is handed back untouched before the last point and
    holds the accumulator at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 16 = 0
  · have h1 : ¬t.val % 16 = 15 := by omega
    have hz : t.val = 0 := by omega
    rw [Dat.leavesExact_idle (dat1 V c) 8 t (idleAt1_8 t (fun h => h1 ((hcond1_1 t).mp h))) (noFlush1_8 t (fun h => h1 ((hcond1_1 t).mp h)))]
    rw [PhiS1_castSucc V c t, PhiS1_zero V c _ _ hz, PhiA1_eq, acc1_first V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (xa1 V c t) (xb1 V c t) (ma1 V c t) (ia1 V c t) (mb1 V c t) (ib1 V c t) (lr1 V c t) (lc1 V c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8]
      rw [PhiS1_castSucc V c t, PhiS1_pos V c _ _ hz, acc1_later V c t hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (xa1 V c t) (xb1 V c t) (ma1 V c t) (ia1 V c t) (mb1 V c t) (ib1 V c t) (lr1 V c t) (lc1 V c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat1 V c) 8 t (idleAt1_8 t (fun h => h1 ((hcond1_1 t).mp h))) (noFlush1_8 t (fun h => h1 ((hcond1_1 t).mp h)))]
      rw [PhiS1_castSucc V c t, PhiS1_pos V c _ _ hz, acc1_later V c t hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (xa1 V c t) (xb1 V c t) (ma1 V c t) (ia1 V c t) (mb1 V c t) (ib1 V c t) (lr1 V c t) (lc1 V c t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Hand

end
-- ==== Proof.K.Run.lean ====
/-
  The program's run over its four items (the statistics region, the host operations between, the main region, the
  last host operation): every weakly fair execution terminates with every unscoped buffer at the last boundary's
  contents; the three argument arrays come through unchanged, and the result buffer holds the last boundary's value.
-/
import proofs.«132247_j36120674959540_1_alg».proof.Proof.Gen.Kernel.Launch
import proofs.«132247_j36120674959540_1_alg».proof.Proof.Gen.Kernel.Skeleton
import proofs.«132247_j36120674959540_1_alg».proof.Proof.Gen.Kernel.Points
import proofs.«132247_j36120674959540_1_alg».proof.Proof.K.Fold
import proofs.«132247_j36120674959540_1_alg».proof.Proof.K.Body0
import proofs.«132247_j36120674959540_1_alg».proof.Proof.K.Body1
import proofs.«132247_j36120674959540_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument and no region changes one: a region reads the first two through input windows
(an input window's array stays at its entry contents) and bypasses the third, which the host operations between the
regions only read. So the last boundary's contents at an argument walk back, boundary by boundary, to the launch. -/

/-- No item writes an argument: the fold at an argument's buffer walks back to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 (W3 m ρ c) hostOps2_writes (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 (W1 m ρ c) hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 (W3 m ρ c) hostOps2_writes (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 (W1 m ρ c) hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 (W3 m ρ c) hostOps2_writes (by decide)
    _ = W2 m ρ c (Proc.devRef .tc main_arg2) := W3_of_ne m ρ c main_arg2 (by decide)
    _ = W1 m ρ c (Proc.devRef .tc main_arg2) := StableHlo.after_of_writes_sub hostOps1 (W1 m ρ c) hostOps1_writes (by decide)
    _ = W0 m ρ c (Proc.devRef .tc main_arg2) := W1_of_ne m ρ c main_arg2 (by decide)
    _ = m ((c : Thread nD τ).loc main_arg2) := rfl

/-! ## What each region leaves, as the two facts its exit needs -/

/-- At the statistics region's exit each of its arrays holds what the pipeline leaves, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The same at the main region's exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- Every pipeline's proof data, each at its region's entry contents: the statistics region at the launch contents,
    the main region at the contents after the host operations between. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A line of host operations as an item of the run: over the unscoped references from the contents W, R riding along;
    it ends with those references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- The statistics region over the thread state: entered from every unscoped buffer at the launch contents, left at
    the first boundary's. Its arrays are split out of the unscoped buffers and put back at the exit contents; the
    generator register and the scoped buffers enter the invariant's first position and come back from its last; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine BIBase.Entails.trans ?_ (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region over the thread state: entered from every unscoped buffer at the second boundary's contents (after
    the host operations between the regions), left at the third's. The same protocol as the statistics region's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The program's four items in order: the statistics region, the host operations between from the first boundary's
    contents, the main region, the last host operation from the third boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program IS the run of the items. -/
theorem main_run (c : Dev nD) : main (F := F) c = Pipeline.Seg.run (segs m ρ) :=
  main_segs adm (pdats m ρ) () 𝒱₀ L lv (hseg hostOps1 hostOps1_sub hostOps1_fresh (W1 m ρ))
    (hseg hostOps2 hostOps2_sub hostOps2_fresh (W3 m ρ)) (reg0 m ρ) (reg1 m ρ) rfl rfl c

set_option backward.isDefEq.respectTransparency.types false in
/-- THE RUN: from any memory with zero counters every weakly fair execution of the program terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

/-- The run with the result buffer named: it ends at the last boundary's value, the arguments unchanged. -/
theorem run_value : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v22 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.Kernel.Hand

end
-- ==== Proof.KI.Defs0.lean ====
/-
  The statistics region (the first kernel call, a grid of 8 points over row tiles of 1024): what its four column
  accumulators hold after each point, as plain terms over the region's input arrays, and the region's proof data.
  After point n the accumulators hold, column by column, the sum and the sum of squares of the first (n+1)·1024 rows
  of each input; the four output windows receive them at the last point and are idle before it.
-/
import proofs.«132247_j36120674959540_1_alg».proof.Proof.Gen.KernelIdeal.Launch
import proofs.«132247_j36120674959540_1_alg».proof.Proof.Gen.KernelIdeal.Skeleton
import proofs.«132247_j36120674959540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row tile of the first input at point t, and of the second. -/
abbrev ablk (c : Dev nD) (t : Fin cfg0.N) : Vec F S1024x512 .f32 := iblk0 V c 0 t
abbrev bblk (c : Dev nD) (t : Fin cfg0.N) : Vec F S1024x512 .f32 := iblk0 V c 1 t

/-! ## The staging and scratch memrefs -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
/-- The four accumulators: whole scoped buffers of the kernel's own. -/
abbrev scM0_0 : Memref sig .tc .vmem S1x512 .f32 := Memref.whole cc0_scratch0
abbrev scM0_1 : Memref sig .tc .vmem S1x512 .f32 := Memref.whole cc0_scratch1
abbrev scM0_2 : Memref sig .tc .vmem S1x512 .f32 := Memref.whole cc0_scratch2
abbrev scM0_3 : Memref sig .tc .vmem S1x512 .f32 := Memref.whole cc0_scratch3
/-- The kernel's own scratch among the core's scoped buffers. -/
abbrev scr0 : List (Ref sig .tc) := [cc0_scratch0, cc0_scratch1, cc0_scratch2, cc0_scratch3]

/-! ## The accumulation -/

/-- What the four accumulators (column sums of the first input, of its squares, of the second input, of its squares)
    hold after the body at point n: at the first point each is reset to zero and the point's tile added; afterwards
    the tile is added to what the point before left. -/
def acc0 (c : Dev nD) : (n : ℕ) → n < cfg0.N → Vec F S1x512 .f32 × Vec F S1x512 .f32 × Vec F S1x512 .f32 × Vec F S1x512 .f32
  | 0, hn => (k0_pay6 (ablk V c ⟨0, hn⟩) (k0_pay2 (F := F)), k0_pay7 (ablk V c ⟨0, hn⟩) (k0_pay3 (F := F)),
      k0_pay8 (bblk V c ⟨0, hn⟩) (k0_pay4 (F := F)), k0_pay1 (k0_pay5 (F := F)) (k0_pay9 (bblk V c ⟨0, hn⟩)))
  | n + 1, hn =>
      (k0_pay6 (ablk V c ⟨n + 1, hn⟩) (acc0 c n (Nat.lt_of_succ_lt hn)).1,
       k0_pay7 (ablk V c ⟨n + 1, hn⟩) (acc0 c n (Nat.lt_of_succ_lt hn)).2.1,
       k0_pay8 (bblk V c ⟨n + 1, hn⟩) (acc0 c n (Nat.lt_of_succ_lt hn)).2.2.1,
       k0_pay1 (acc0 c n (Nat.lt_of_succ_lt hn)).2.2.2 (k0_pay9 (bblk V c ⟨n + 1, hn⟩)))

theorem acc0_zero (c : Dev nD) (hn : 0 < cfg0.N) :
    acc0 V c 0 hn = (k0_pay6 (ablk V c ⟨0, hn⟩) (k0_pay2 (F := F)), k0_pay7 (ablk V c ⟨0, hn⟩) (k0_pay3 (F := F)),
      k0_pay8 (bblk V c ⟨0, hn⟩) (k0_pay4 (F := F)), k0_pay1 (k0_pay5 (F := F)) (k0_pay9 (bblk V c ⟨0, hn⟩))) := rfl

theorem acc0_succ (c : Dev nD) (n : ℕ) (hn : n + 1 < cfg0.N) :
    acc0 V c (n + 1) hn =
      (k0_pay6 (ablk V c ⟨n + 1, hn⟩) (acc0 V c n (Nat.lt_of_succ_lt hn)).1,
       k0_pay7 (ablk V c ⟨n + 1, hn⟩) (acc0 V c n (Nat.lt_of_succ_lt hn)).2.1,
       k0_pay8 (bblk V c ⟨n + 1, hn⟩) (acc0 V c n (Nat.lt_of_succ_lt hn)).2.2.1,
       k0_pay1 (acc0 V c n (Nat.lt_of_succ_lt hn)).2.2.2 (k0_pay9 (bblk V c ⟨n + 1, hn⟩))) := rfl

/-! ## The region's invariant and proof data -/

/-- The invariant before position n: before the first point every scoped buffer at anything; afterwards the four
    accumulators at what the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare (acc0 V c n hn).1 ∗ owns (c : Thread nD τ) scM0_1 fullShare (acc0 V c n hn).2.1
        ∗ owns (c : Thread nD τ) scM0_2 fullShare (acc0 V c n hn).2.2.1 ∗ owns (c : Thread nD τ) scM0_3 fullShare (acc0 V c n hn).2.2.2)
      ∗ Pipeline.scopedRestBut (Ix := Unit) (Name := ℕ) (U := UR sig nD τ) (Lvl := ℕ) (Val := Elt F) spec0 c scr0 ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (acc0 V c n hn).1 ∗ owns (c : Thread nD τ) scM0_1 fullShare (acc0 V c n hn).2.1
        ∗ owns (c : Thread nD τ) scM0_2 fullShare (acc0 V c n hn).2.2.1 ∗ owns (c : Thread nD τ) scM0_3 fullShare (acc0 V c n hn).2.2.2)
      ∗ Pipeline.scopedRestBut (Ix := Unit) (Name := ℕ) (U := UR sig nD τ) (Lvl := ℕ) (Val := Elt F) spec0 c scr0 ∗ (∃ r, prngReg c r)) := rfl

theorem PhiS0_pos (c : Dev nD) (n : ℕ) (h : n ≤ cfg0.N) (hz : n ≠ 0) :
    PhiS0 V c n h = iprop(iprop(owns (c : Thread nD τ) scM0_0 fullShare (acc0 V c (n - 1) (by omega)).1 ∗ owns (c : Thread nD τ) scM0_1 fullShare (acc0 V c (n - 1) (by omega)).2.1
        ∗ owns (c : Thread nD τ) scM0_2 fullShare (acc0 V c (n - 1) (by omega)).2.2.1 ∗ owns (c : Thread nD τ) scM0_3 fullShare (acc0 V c (n - 1) (by omega)).2.2.2)
      ∗ Pipeline.scopedRestBut (Ix := Unit) (Name := ℕ) (U := UR sig nD τ) (Lvl := ℕ) (Val := Elt F) spec0 c scr0 ∗ (∃ r, prngReg c r)) := by
  cases n with
  | zero => exact absurd rfl hz
  | succ n => rfl

/-- The proof data of the statistics region on core c: the arrays as the region finds them; after the body at point t
    each input's buffer at its block and output window 2+j's at accumulator j; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt).1
    | ⟨3, _⟩ => (acc0 V c t.val t.isLt).2.1
    | ⟨4, _⟩ => (acc0 V c t.val t.isLt).2.2.1
    | ⟨5, _⟩ => (acc0 V c t.val t.isLt).2.2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt).1 := by dsimp only [dat0]
theorem after0_3 (c : Dev nD) (t : Fin cfg0.N) : (dat0 V c).after 3 t = (acc0 V c t.val t.isLt).2.1 := by dsimp only [dat0]
theorem after0_4 (c : Dev nD) (t : Fin cfg0.N) : (dat0 V c).after 4 t = (acc0 V c t.val t.isLt).2.2.1 := by dsimp only [dat0]
theorem after0_5 (c : Dev nD) (t : Fin cfg0.N) : (dat0 V c).after 5 t = (acc0 V c t.val t.isLt).2.2.2 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

end Cert.KernelIdeal.Hand

end
-- ==== Proof.KI.Defs1.lean ====
/-
  The main region (the second kernel call, a grid of 16 points over row tiles of 512 of the first input): what its
  scalar accumulator holds after each point, as a plain term over the region's input arrays, and the region's proof data.
  At a point the body normalises its row tile, then walks the 16 row chunks of the second input: each trip adds to a
  carried scalar the sum over a 512 by 512 tile of the squared difference between the scaled product of the two
  normalised tiles and the label mask. The point's total is added to the accumulator, which the output window
  receives at the last point and is idle before it.
-/
import proofs.«132247_j36120674959540_1_alg».proof.Proof.Gen.KernelIdeal.Launch
import proofs.«132247_j36120674959540_1_alg».proof.Proof.Gen.KernelIdeal.Skeleton
import proofs.«132247_j36120674959540_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The blocks at point t under their literal types: the row tile of the first input, the whole second input, the
    two means and the two inverse deviations, the row labels of the tile, all the labels as a row. -/
abbrev xa1 (c : Dev nD) (t : Fin cfg1.N) : Vec F S512x512 .f32 := iblk1 V c 0 t
abbrev xb1 (c : Dev nD) (t : Fin cfg1.N) : Vec F S8192x512 .f32 := iblk1 V c 1 t
abbrev ma1 (c : Dev nD) (t : Fin cfg1.N) : Vec F S1x512 .f32 := iblk1 V c 2 t
abbrev ia1 (c : Dev nD) (t : Fin cfg1.N) : Vec F S1x512 .f32 := iblk1 V c 3 t
abbrev mb1 (c : Dev nD) (t : Fin cfg1.N) : Vec F S1x512 .f32 := iblk1 V c 4 t
abbrev ib1 (c : Dev nD) (t : Fin cfg1.N) : Vec F S1x512 .f32 := iblk1 V c 5 t
abbrev lr1 (c : Dev nD) (t : Fin cfg1.N) : Vec F S512x1 .i32 := iblk1 V c 6 t
abbrev lc1 (c : Dev nD) (t : Fin cfg1.N) : Vec F S1x8192 .i32 := iblk1 V c 7 t

/-! ## The staging and scratch memrefs -/

abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .i32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x8192 .i32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x1 .f32 := win1_8.stage (cfg1.slots t 8)
abbrev hs1_8 (t : Fin cfg1.N) : (ms1_8 t).IsWhole := hstage1_8 ((cfg1.slots t 8).cast nbuf1_8)
/-- The scalar accumulator: a whole scoped buffer of the kernel's own. -/
abbrev scM1_0 : Memref sig .tc .vmem S1x1 .f32 := Memref.whole cc1_scratch0
abbrev scr1 : List (Ref sig .tc) := [cc1_scratch0]

/-! ## One trip of the inner loop, the loop, the accumulation -/

/-- The rows of the second input that trip k reads (512 rows from row 512·k), and the labels beside them. -/
abbrev rB (k : Fin k1_t1_loop.trips) : Rect S8192x512 := Rect.unit (s := S8192x512) (k1_off1 k) S512x512.size (k1_off1_inb k)
abbrev rL (k : Fin k1_t1_loop.trips) : Rect S1x8192 := Rect.unit (s := S1x8192) (k1_off2 k) S1x512.size (k1_off2_inb k)

/-- What trip k yields from the carried scalar: the scalar plus the tile's sum of squared residuals. -/
def trip1 (xa : Vec F S512x512 .f32) (xb : Vec F S8192x512 .f32) (ma ia mb ib : Vec F S1x512 .f32)
    (lr : Vec F S512x1 .i32) (lc : Vec F S1x8192 .i32) (k : Fin k1_t1_loop.trips) (acc : FVec F S1x1 .f32) : FVec F S1x1 .f32 :=
  k1_pay3 xa ma ia lr acc (View.ld xb (rB k)) mb ib (View.ld lc (rL k))

/-- The carried scalar before trip k, from zero. -/
def loop1 (xa : Vec F S512x512 .f32) (xb : Vec F S8192x512 .f32) (ma ia mb ib : Vec F S1x512 .f32)
    (lr : Vec F S512x1 .i32) (lc : Vec F S1x8192 .i32) : ℕ → FVec F S1x1 .f32
  | 0 => k1_pay2 (F := F)
  | k + 1 => if h : k < k1_t1_loop.trips then trip1 xa xb ma ia mb ib lr lc ⟨k, h⟩ (loop1 xa xb ma ia mb ib lr lc k)
      else loop1 xa xb ma ia mb ib lr lc k

theorem loop1_zero (xa : Vec F S512x512 .f32) (xb : Vec F S8192x512 .f32) (ma ia mb ib : Vec F S1x512 .f32)
    (lr : Vec F S512x1 .i32) (lc : Vec F S1x8192 .i32) : loop1 xa xb ma ia mb ib lr lc 0 = k1_pay2 (F := F) := rfl

theorem loop1_succ (xa : Vec F S512x512 .f32) (xb : Vec F S8192x512 .f32) (ma ia mb ib : Vec F S1x512 .f32)
    (lr : Vec F S512x1 .i32) (lc : Vec F S1x8192 .i32) (k : Fin k1_t1_loop.trips) :
    loop1 xa xb ma ia mb ib lr lc (k.val + 1) = trip1 xa xb ma ia mb ib lr lc k (loop1 xa xb ma ia mb ib lr lc k.val) := by
  rw [loop1.eq_2]; exact dif_pos k.isLt

/-- The point's total: the loop's result at point t. -/
def tot1 (c : Dev nD) (t : Fin cfg1.N) : FVec F S1x1 .f32 :=
  loop1 (xa1 V c t) (xb1 V c t) (ma1 V c t) (ia1 V c t) (mb1 V c t) (ib1 V c t) (lr1 V c t) (lc1 V c t) k1_t1_loop.trips

/-- What the scalar accumulator holds after the body at point n: reset to zero at the first point; the point's total added. -/
def acc1 (c : Dev nD) : (n : ℕ) → n < cfg1.N → Vec F S1x1 .f32
  | 0, hn => k1_pay4 (tot1 V c ⟨0, hn⟩) (k1_pay1 (F := F))
  | n + 1, hn => k1_pay4 (tot1 V c ⟨n + 1, hn⟩) (acc1 c n (Nat.lt_of_succ_lt hn))

theorem acc1_zero (c : Dev nD) (hn : 0 < cfg1.N) : acc1 V c 0 hn = k1_pay4 (tot1 V c ⟨0, hn⟩) (k1_pay1 (F := F)) := rfl
theorem acc1_succ (c : Dev nD) (n : ℕ) (hn : n + 1 < cfg1.N) :
    acc1 V c (n + 1) hn = k1_pay4 (tot1 V c ⟨n + 1, hn⟩) (acc1 V c n (Nat.lt_of_succ_lt hn)) := rfl

/-! ## The region's invariant and proof data -/

/-- The invariant before position n: before the first point every scoped buffer at anything; afterwards the accumulator
    at what the point before left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (acc1 V c n hn)
      ∗ Pipeline.scopedRestBut (Ix := Unit) (Name := ℕ) (U := UR sig nD τ) (Lvl := ℕ) (Val := Elt F) spec1 c scr1 ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn)
      ∗ Pipeline.scopedRestBut (Ix := Unit) (Name := ℕ) (U := UR sig nD τ) (Lvl := ℕ) (Val := Elt F) spec1 c scr1 ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega))
      ∗ Pipeline.scopedRestBut (Ix := Unit) (Name := ℕ) (U := UR sig nD τ) (Lvl := ℕ) (Val := Elt F) spec1 c scr1 ∗ (∃ r, prngReg c r)) := by
  cases n with
  | zero => exact absurd rfl hz
  | succ n => rfl

/-- The proof data of the main region on core c: the arrays as the region finds them; after the body at point t each
    input's buffer at its block and the output window's at the accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = acc1 V c t.val t.isLt := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

end Cert.KernelIdeal.Hand

end
-- ==== Proof.KI.Fold.lean ====
/-
  The contents of the TensorCore's buffers at each boundary of the program: at launch; after the statistics region
  (its four output arrays at what its write-backs leave); after the host operations between the regions (means,
  variances, reciprocal roots, the labels as a column and as a row); after the main region (its one output array at what
  its write-back leaves); after the last host operation (the 1 by 1 result reshaped to a scalar).
-/
import proofs.«132247_j36120674959540_1_alg».proof.Proof.Gen.KernelIdeal.Launch
import proofs.«132247_j36120674959540_1_alg».proof.Proof.Gen.KernelIdeal.Skeleton
import proofs.«132247_j36120674959540_1_alg».proof.Proof.Gen.KernelIdeal.Points
import proofs.«132247_j36120674959540_1_alg».proof.Proof.KI.Defs0
import proofs.«132247_j36120674959540_1_alg».proof.Proof.KI.Defs1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch (the statistics region's entry: no host operation precedes it). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b
/-- At the statistics region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
/-- After the host operations between the regions (the main region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the main region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
/-- After the last host operation: the program's end. -/
abbrev W4 : Dev nD → Valuation τ sig (Elt F) := fun c => StableHlo.after hostOps2 (W3 m ρ c)

end Cert.KernelIdeal.Hand

end
-- ==== Proof.KI.Body0.lean ====
/-
  The statistics region (the first kernel call, a grid of 8 points over row tiles of 1024): its body obligation and
  the two ends of its invariant. At every point the body adds, column by column, the tile's sums and sums of squares
  of the two inputs to four accumulators; at the first point it resets them to zero before adding; at the last point
  it also copies them to the four output windows, which are left untouched before it. So after point n the
  accumulators hold the explicit terms of the region's definitions, and the invariant before the first point and
  after the last is the launch's own.
-/
import proofs.«132247_j36120674959540_1_alg».proof.Proof.Gen.KernelIdeal.Launch
import proofs.«132247_j36120674959540_1_alg».proof.Proof.Gen.KernelIdeal.Skeleton
import proofs.«132247_j36120674959540_1_alg».proof.Proof.Gen.KernelIdeal.Points
import proofs.«132247_j36120674959540_1_alg».proof.Proof.KI.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditionals, and whole-buffer loads and stores -/

/-- The first conditional of the body: the point is the grid's first. -/
abbrev cond0_0 (i : grid0.Coords) : Prop := (Scalar.cmpi .ne (Scalar.extui (Scalar.cmpi .eq (BitVec.ofNat 32 (i 0).val) 0#32)) 0#32) = 1#1
/-- The second: the point is the grid's last. -/
abbrev cond0_1 (i : grid0.Coords) : Prop := k0_cond2 i = 1#1

/-- The zero offsets of a one-row vector's rectangle, and of a tile's. -/
theorem hzV : (![0, 0] : Fin S1x512.rank → ℕ) = fun _ => 0 := by
  funext a; fin_cases a <;> rfl
theorem hzT : (![0, 0] : Fin S1024x512.rank → ℕ) = fun _ => 0 := by
  funext a; fin_cases a <;> rfl

/-- A buffer whose last store was of its whole shape reads as that store's payload. -/
theorem read_cons_whole {S : Shape} {e : EltTy} (m : Memref sig .tc .vmem S e) (f : m.view.ty.Contents (Elt F))
    {off : Fin S.rank → ℕ} (hz : off = fun _ => 0) (inb : ∀ a, off a + S.size a ≤ S.size a) (w : S.Idx → Elt F e)
    (L : List (View.Piece (Elt F) S e)) :
    m.view.read (Elt F) (m.view.writes (Elt F) f (⟨Rect.unit off S.size inb, w⟩ :: L)) = w := by
  rw [View.read_writes_eq_canon _ _ _ (fun y => ⟨_, List.mem_cons_self, View.mem_set_unit_zero hz inb y⟩), View.canon_cons_unit_zero hz]

/-- A load of a whole buffer reads its contents. -/
theorem load_whole {S : Shape} {e : EltTy} (m : Memref sig .tc .vmem S e) (h : m.IsWhole)
    {off : Fin S.rank → ℕ} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

/-! ## The body on any whole memrefs, case by case -/

set_option maxHeartbeats 2000000 in
/-- A middle point (neither conditional taken): with the tiles x0, x1 in the input buffers and the accumulators at
    s0..s3, the body leaves the accumulators at s0 + the column sums of x0, s1 + those of x0², s2 + those of x1,
    s3 + those of x1², and everything else as it was (the output windows at whatever they held). -/
theorem run0_B (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : ¬cond0_1 i)
    (x0 x1 : Vec F S1024x512 .f32) (xi2 xi3 xi4 xi5 s0 s1 s2 s3 : Vec F S1x512 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xi4 ∗ owns (c : Thread nD τ) arg6 fullShare xi5
        ∗ owns (c : Thread nD τ) arg7 fullShare s0 ∗ owns (c : Thread nD τ) arg8 fullShare s1
        ∗ owns (c : Thread nD τ) arg9 fullShare s2 ∗ owns (c : Thread nD τ) arg10 fullShare s3
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xi4 ∗ owns (c : Thread nD τ) arg6 fullShare xi5
            ∗ owns (c : Thread nD τ) arg7 fullShare (k0_pay6 x0 s0) ∗ owns (c : Thread nD τ) arg8 fullShare (k0_pay7 x0 s1)
            ∗ owns (c : Thread nD τ) arg9 fullShare (k0_pay8 x1 s2) ∗ owns (c : Thread nD τ) arg10 fullShare (k0_pay1 s3 (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, S0⟩, ⟨%g1, %hg1, S1⟩, ⟨%g2, %hg2, S2⟩, ⟨%g3, %hg3, S3⟩, Hk⟩
  obtain rfl := harg1.eq_unread hf0; obtain rfl := harg2.eq_unread hf1
  obtain rfl := harg7.eq_unread hg0; obtain rfl := harg8.eq_unread hg1
  obtain rfl := harg9.eq_unread hg2; obtain rfl := harg10.eq_unread hg3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [S0]
  · iexists _; isplitr
    swap; · iexact S0
    ipureintro
    rw [read_cons_whole _ _ hzV, load_whole _ harg1 hzT, load_whole _ harg7 hzV]
  isplitl [S1]
  · iexists _; isplitr
    swap; · iexact S1
    ipureintro
    rw [read_cons_whole _ _ hzV, load_whole _ harg1 hzT, load_whole _ harg8 hzV]
  isplitl [S2]
  · iexists _; isplitr
    swap; · iexact S2
    ipureintro
    rw [read_cons_whole _ _ hzV, load_whole _ harg2 hzT, load_whole _ harg9 hzV]
  iexists _; isplitr
  swap; · iexact S3
  ipureintro
  refine (read_cons_whole _ _ hzV _ _ _).trans ?_
  dsimp only
  rw [load_whole _ harg2 hzT, load_whole _ harg10 hzV]

set_option maxHeartbeats 2000000 in
/-- The first point (the first conditional taken, the second not): whatever the accumulators held, the body leaves them
    at zero + the tile's column sums (and sums of squares); the output windows stay as they were. -/
theorem run0_A (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : cond0_0 i) (hc1 : ¬cond0_1 i)
    (x0 x1 : Vec F S1024x512 .f32) (xi2 xi3 xi4 xi5 : Vec F S1x512 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare xi4 ∗ owns (c : Thread nD τ) arg6 fullShare xi5
            ∗ owns (c : Thread nD τ) arg7 fullShare (k0_pay6 x0 (k0_pay2 (F := F))) ∗ owns (c : Thread nD τ) arg8 fullShare (k0_pay7 x0 (k0_pay3 (F := F)))
            ∗ owns (c : Thread nD τ) arg9 fullShare (k0_pay8 x1 (k0_pay4 (F := F))) ∗ owns (c : Thread nD τ) arg10 fullShare (k0_pay1 (k0_pay5 (F := F)) (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d0, %g0, -, S0⟩, ⟨%d1, %g1, -, S1⟩, ⟨%d2, %g2, -, S2⟩, ⟨%d3, %g3, -, S3⟩, Hk⟩
  obtain rfl := harg1.eq_unread hf0; obtain rfl := harg2.eq_unread hf1
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [S0]
  · iexists _; isplitr
    swap; · iexact S0
    ipureintro
    rw [read_cons_whole _ _ hzV, load_whole _ harg1 hzT]
    sl_unfold_run_names
    rw [View.readCov_unit_zero _ hzV]
  isplitl [S1]
  · iexists _; isplitr
    swap; · iexact S1
    ipureintro
    rw [read_cons_whole _ _ hzV, load_whole _ harg1 hzT]
    sl_unfold_run_names
    rw [View.readCov_unit_zero _ hzV]
  isplitl [S2]
  · iexists _; isplitr
    swap; · iexact S2
    ipureintro
    rw [read_cons_whole _ _ hzV, load_whole _ harg2 hzT]
    sl_unfold_run_names
    rw [View.readCov_unit_zero _ hzV]
  iexists _; isplitr
  swap; · iexact S3
  ipureintro
  refine (read_cons_whole _ _ hzV _ _ _).trans ?_
  dsimp only
  rw [load_whole _ harg2 hzT]
  sl_unfold_run_names
  rw [View.readCov_unit_zero _ hzV]

set_option maxHeartbeats 2000000 in
/-- The last point (the second conditional taken, the first not): the accumulators are updated as at a middle point,
    and each output window, whatever it held, receives its accumulator's new contents. -/
theorem run0_C (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (hc0 : ¬cond0_0 i) (hc1 : cond0_1 i)
    (x0 x1 : Vec F S1024x512 .f32) (s0 s1 s2 s3 : Vec F S1x512 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ owns (c : Thread nD τ) arg9 fullShare s2 ∗ owns (c : Thread nD τ) arg10 fullShare s3
        ∗ (iprop(owns (c : Thread nD τ) arg1 fullShare x0 ∗ owns (c : Thread nD τ) arg2 fullShare x1
            ∗ owns (c : Thread nD τ) arg3 fullShare (k0_pay6 x0 s0) ∗ owns (c : Thread nD τ) arg4 fullShare (k0_pay7 x0 s1)
            ∗ owns (c : Thread nD τ) arg5 fullShare (k0_pay8 x1 s2) ∗ owns (c : Thread nD τ) arg6 fullShare (k0_pay1 s3 (k0_pay9 x1))
            ∗ owns (c : Thread nD τ) arg7 fullShare (k0_pay6 x0 s0) ∗ owns (c : Thread nD τ) arg8 fullShare (k0_pay7 x0 s1)
            ∗ owns (c : Thread nD τ) arg9 fullShare (k0_pay8 x1 s2) ∗ owns (c : Thread nD τ) arg10 fullShare (k0_pay1 s3 (k0_pay9 x1))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10) K := by
  simp only [cc0__stats_kernel_eq_skeleton]; unfold cc0__stats_kernel_skel
  simp only [k0_part1_eq_skeleton]; unfold k0_part1_skel
  unfold owns
  iintro ⟨⟨%f0, %hf0, H0⟩, ⟨%f1, %hf1, H1⟩, ⟨%e2, %f2, -, H2⟩, ⟨%e3, %f3, -, H3⟩, ⟨%e4, %f4, -, H4⟩, ⟨%e5, %f5, -, H5⟩, ⟨%g0, %hg0, S0⟩, ⟨%g1, %hg1, S1⟩, ⟨%g2, %hg2, S2⟩, ⟨%g3, %hg3, S3⟩, Hk⟩
  obtain rfl := harg1.eq_unread hf0; obtain rfl := harg2.eq_unread hf1
  obtain rfl := harg7.eq_unread hg0; obtain rfl := harg8.eq_unread hg1
  obtain rfl := harg9.eq_unread hg2; obtain rfl := harg10.eq_unread hg3
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (read_cons_whole _ _ hzV _ _ _).trans ?_
    sl_unfold_run_names
    rw [View.readCov_unit_zero _ hzV, load_whole _ harg1 hzT, load_whole _ harg7 hzV]
  isplitl [H3]
  · iexists _; isplitr
    swap; · iexact H3
    ipureintro
    refine (read_cons_whole _ _ hzV _ _ _).trans ?_
    sl_unfold_run_names
    rw [View.readCov_unit_zero _ hzV, load_whole _ harg1 hzT, load_whole _ harg8 hzV]
  isplitl [H4]
  · iexists _; isplitr
    swap; · iexact H4
    ipureintro
    refine (read_cons_whole _ _ hzV _ _ _).trans ?_
    sl_unfold_run_names
    rw [View.readCov_unit_zero _ hzV, load_whole _ harg2 hzT, load_whole _ harg9 hzV]
  isplitl [H5]
  · iexists _; isplitr
    swap; · iexact H5
    ipureintro
    refine (read_cons_whole _ _ hzV _ _ _).trans ?_
    sl_unfold_run_names
    refine (View.readCov_unit_zero _ hzV _ _).trans ?_
    dsimp only
    rw [load_whole _ harg2 hzT, load_whole _ harg10 hzV]
  isplitl [S0]
  · iexists _; isplitr
    swap; · iexact S0
    ipureintro
    sl_unfold_run_names
    rw [read_cons_whole _ _ hzV, load_whole _ harg1 hzT, load_whole _ harg7 hzV]
  isplitl [S1]
  · iexists _; isplitr
    swap; · iexact S1
    ipureintro
    sl_unfold_run_names
    rw [read_cons_whole _ _ hzV, load_whole _ harg1 hzT, load_whole _ harg8 hzV]
  isplitl [S2]
  · iexists _; isplitr
    swap; · iexact S2
    ipureintro
    sl_unfold_run_names
    rw [read_cons_whole _ _ hzV, load_whole _ harg2 hzT, load_whole _ harg9 hzV]
  iexists _; isplitr
  swap; · iexact S3
  ipureintro
  sl_unfold_run_names
  refine (read_cons_whole _ _ hzV _ _ _).trans ?_
  dsimp only
  rw [load_whole _ harg2 hzT, load_whole _ harg10 hzV]

-- the TensorCore's buffer contents when the region is entered
variable (V : (c : Dev nD) → (b : Ref sig .tc) → Buf (Elt F) ((c : Thread nD τ).loc b))

/-! ## The branch conditions and the idle points, over the grid -/

theorem hcond0_0 : ∀ t : Fin cfg0.N, cond0_0 (grid0.coords t) ↔ t.val = 0 :=
  (by decide +kernel : ∀ t : Fin grid0.N, cond0_0 (grid0.coords t) ↔ t.val = 0)
theorem hcond0_1 : ∀ t : Fin cfg0.N, cond0_1 (grid0.coords t) ↔ t.val = 7 :=
  (by decide +kernel : ∀ t : Fin grid0.N, cond0_1 (grid0.coords t) ↔ t.val = 7)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_2 : ∀ t : Fin cfg0.N, ¬cond0_1 (grid0.coords t) → (cfg0.win 2).flush t = false := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The accumulators point by point -/

theorem acc0_first (c : Dev nD) (t : Fin cfg0.N) (h0 : t.val = 0) :
    acc0 V c t.val t.isLt = (k0_pay6 (ablk V c t) (k0_pay2 (F := F)), k0_pay7 (ablk V c t) (k0_pay3 (F := F)),
      k0_pay8 (bblk V c t) (k0_pay4 (F := F)), k0_pay1 (k0_pay5 (F := F)) (k0_pay9 (bblk V c t))) := by
  obtain ⟨n, hn⟩ := t
  cases n with
  | zero => rfl
  | succ n => exact absurd h0 (Nat.succ_ne_zero n)

theorem acc0_later (c : Dev nD) (t : Fin cfg0.N) (h0 : t.val ≠ 0) :
    acc0 V c t.val t.isLt =
      (k0_pay6 (ablk V c t) (acc0 V c (t.val - 1) (Nat.lt_of_le_of_lt (Nat.sub_le _ _) t.isLt)).1,
       k0_pay7 (ablk V c t) (acc0 V c (t.val - 1) (Nat.lt_of_le_of_lt (Nat.sub_le _ _) t.isLt)).2.1,
       k0_pay8 (bblk V c t) (acc0 V c (t.val - 1) (Nat.lt_of_le_of_lt (Nat.sub_le _ _) t.isLt)).2.2.1,
       k0_pay1 (acc0 V c (t.val - 1) (Nat.lt_of_le_of_lt (Nat.sub_le _ _) t.isLt)).2.2.2 (k0_pay9 (bblk V c t))) := by
  obtain ⟨n, hn⟩ := t
  cases n with
  | zero => exact absurd rfl h0
  | succ n => rfl

/-! ## The invariant before the first point, with the four accumulators as owned memrefs -/

/-- Regrouping a separating conjunction. -/
theorem sep_regroup {M : Type} [URA M] (A R G : sProp M) : (iprop((A ∗ R) ∗ G) : sProp M) = iprop(A ∗ R ∗ G) := by
  have h₁ : (iprop((A ∗ R) ∗ G) : sProp M) ⊢ iprop(A ∗ R ∗ G) := by
    iintro ⟨⟨HA, HR⟩, HG⟩
    isplitl [HA]; · iexact HA
    isplitl [HR]; · iexact HR
    iexact HG
  have h₂ : (iprop(A ∗ R ∗ G) : sProp M) ⊢ iprop((A ∗ R) ∗ G) := by
    iintro ⟨HA, HR, HG⟩
    isplitl [HA HR]
    · isplitl [HA]; · iexact HA
      iexact HR
    iexact HG
  exact BI.equiv_iff.mp ⟨h₁, h₂⟩

theorem PhiA0_eq (c : Dev nD) :
    (Pipeline.ΦA spec0 c : sProp 𝕄)
      = iprop(iprop((∃ d, owns (c : Thread nD τ) (scM0_0) fullShare (d)) ∗ (∃ d, owns (c : Thread nD τ) (scM0_1) fullShare (d))
          ∗ (∃ d, owns (c : Thread nD τ) (scM0_2) fullShare (d)) ∗ (∃ d, owns (c : Thread nD τ) (scM0_3) fullShare (d)))
        ∗ Pipeline.scopedRestBut (Ix := Unit) (Name := ℕ) (U := UR sig nD τ) (Lvl := ℕ) (Val := Elt F) spec0 c scr0 ∗ (∃ r, prngReg c r)) := by
  unfold Pipeline.ΦA
  rw [Pipeline.scopedRest_split_of_list spec0 c scr0 (by decide) (by decide)]
  simp only [scM0_0, scM0_1, scM0_2, scM0_3, owns_whole]
  exact sep_regroup _ _ _

/-! ## The inputs' staging buffers hold their blocks at every point -/

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The inputs' memrefs hold their blocks; the point's position decides the case. At the first
    point the invariant hands the four accumulators at anything and takes them back reset and with the tile added; at a
    later point it hands them at what the point before left; at the last point the output windows receive them, and
    before it they are handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h7 : t.val = 7
  · have h0 : t.val ≠ 0 := by omega
    have hc0 : ¬cond0_0 (grid0.coords t) := fun h => h0 ((hcond0_0 t).mp h)
    have hc1 : cond0_1 (grid0.coords t) := (hcond0_1 t).mpr h7
    rw [show (dat0 V c).leavesExact 2 t = owns (c : Thread nD τ) (ms0_2 t) fullShare ((dat0 V c).after 2 t) from by
      unfold Dat.leavesExact; rw [liveAt0_2 t hc1], after0_2]
    rw [show (dat0 V c).leavesExact 3 t = owns (c : Thread nD τ) (ms0_3 t) fullShare ((dat0 V c).after 3 t) from by
      unfold Dat.leavesExact; rw [liveAt0_3 t hc1], after0_3]
    rw [show (dat0 V c).leavesExact 4 t = owns (c : Thread nD τ) (ms0_4 t) fullShare ((dat0 V c).after 4 t) from by
      unfold Dat.leavesExact; rw [liveAt0_4 t hc1], after0_4]
    rw [show (dat0 V c).leavesExact 5 t = owns (c : Thread nD τ) (ms0_5 t) fullShare ((dat0 V c).after 5 t) from by
      unfold Dat.leavesExact; rw [liveAt0_5 t hc1], after0_5]
    rw [acc0_later V c t h0]; (try dsimp only)
    rw [PhiS0_castSucc V c t, PhiS0_pos V c _ _ h0]
    iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
    iapply (run0_C c (grid0.coords t) _ _ _ _ _ _ _ _ _ _ _ _ _ _ _ _ _ _ _ _ hc0 hc1 (ablk V c t) (bblk V c t) _ _ _ _ Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    isplitl [HS3]; · iexact HS3
    iintro ⟨H0, H1, H2, H3, H4, H5, HS0, HS1, HS2, HS3⟩
    isplitl [HS0 HS1 HS2 HS3 Hr Hg]
    · isplitl [HS0 HS1 HS2 HS3]
      · isplitl [HS0]; · iexact HS0
        isplitl [HS1]; · iexact HS1
        isplitl [HS2]; · iexact HS2
        iexact HS3
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc1 : ¬cond0_1 (grid0.coords t) := fun h => h7 ((hcond0_1 t).mp h)
    rw [Dat.leavesExact_idle (dat0 V c) 2 t (idleAt0_2 t hc1) (noFlush0_2 t hc1),
      Dat.leavesExact_idle (dat0 V c) 3 t (idleAt0_3 t hc1) (noFlush0_3 t hc1),
      Dat.leavesExact_idle (dat0 V c) 4 t (idleAt0_4 t hc1) (noFlush0_4 t hc1),
      Dat.leavesExact_idle (dat0 V c) 5 t (idleAt0_5 t hc1) (noFlush0_5 t hc1)]
    by_cases h0 : t.val = 0
    · have hc0 : cond0_0 (grid0.coords t) := (hcond0_0 t).mpr h0
      rw [acc0_first V c t h0]; (try dsimp only)
      rw [PhiS0_castSucc V c t, PhiS0_zero V c _ _ h0, PhiA0_eq]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run0_A c (grid0.coords t) _ _ _ _ _ _ _ _ _ _ _ _ _ _ _ _ _ _ _ _ hc0 hc1 (ablk V c t) (bblk V c t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5
    · have hc0 : ¬cond0_0 (grid0.coords t) := fun h => h0 ((hcond0_0 t).mp h)
      rw [acc0_later V c t h0]; (try dsimp only)
      rw [PhiS0_castSucc V c t, PhiS0_pos V c _ _ h0]
      iintro ⟨⟨⟨HS0, HS1, HS2, HS3⟩, Hr, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ _ _ _ _ hc0 hc1 (ablk V c t) (bblk V c t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, HS0, HS1, HS2, HS3⟩
      isplitl [HS0 HS1 HS2 HS3 Hr Hg]
      · isplitl [HS0 HS1 HS2 HS3]
        · isplitl [HS0]; · iexact HS0
          isplitl [HS1]; · iexact HS1
          isplitl [HS2]; · iexact HS2
          iexact HS3
        isplitl [Hr]; · iexact Hr
        iexact Hg
      isplitl [Ho]; · iexact Ho
      isplitl [H0]; · iexact H0
      isplitl [H1]; · iexact H1
      isplitl [H2]; · iexists _; iexact H2
      isplitl [H3]; · iexists _; iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the launch's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3⟩, Hr, Hg⟩
  isplitl [HS0 HS1 HS2 HS3]
  · isplitl [HS0]; · iexists _; iexact HS0
    isplitl [HS1]; · iexists _; iexact HS1
    isplitl [HS2]; · iexists _; iexact HS2
    iexists _; iexact HS3
  isplitl [Hr]; · iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Hand

end
-- ==== Proof.KI.Body1Runs.lean ====
/-
  The main region's body on whole buffers, case by case. At the first point of the grid the scalar accumulator is
  reset to zero before anything else; at every point the row tile is normalised and the sixteen row chunks of the
  second input are walked, each trip adding to a carried scalar the tile's sum of squared residuals, and the total is
  added to the accumulator; at the last point the accumulator is also copied to the output. The carried scalar
  before trip n is the explicit recursion over the trips (one trip's yield read once, then induction), so each case
  leaves the accumulator at the point's total added to what it held (zero at the first point).
-/
import proofs.«132247_j36120674959540_1_alg».proof.Proof.KI.Defs1
import proofs.«132247_j36120674959540_1_alg».proof.Proof.Gen.KernelIdeal.Loops
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, in closed form over the grid -/

/-- The first branch of the body (the reset) is taken. -/
abbrev cond1_0 (i : grid1.Coords) : Prop := (Scalar.cmpi .ne (Scalar.extui (Scalar.cmpi .eq (BitVec.ofNat 32 (i 0).val) 0#32)) 0#32) = 1#1
/-- It is taken at the first point only. -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch of the body (the copy to the output) is taken. -/
abbrev cond1_1 (i : grid1.Coords) : Prop := k1_cond2 i = 1#1
/-- It is taken at the last point only. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- Before the last point the output window is idle, -/
theorem idleAt1_8 : ∀ t : Fin cfg1.N, ¬cond1_1 (grid1.coords t) → cfg1.idle 8 (grid1.coords t) = true := by decide +kernel
/-- and not written back; -/
theorem noFlush1_8 : ∀ t : Fin cfg1.N, ¬cond1_1 (grid1.coords t) → (cfg1.win 8).flush t = false := by decide +kernel
/-- at the last point it is live. -/
theorem liveAt1_8 : ∀ t : Fin cfg1.N, cond1_1 (grid1.coords t) → cfg1.idle 8 (grid1.coords t) = false := by decide +kernel

/-! ## The carried scalar of the inner loop, explicitly -/

/-- The whole-buffer rectangle's offsets are zero. -/
theorem hz : (![0, 0] : Fin 2 → ℕ) = fun _ => 0 := funext fun a => by fin_cases a <;> rfl

/-- One trip's yield, read once: the trip's payload of the carried scalar and of what the trip loads — the trip's
    rows of the second input, its mean and inverse deviation whole, the trip's labels. -/
theorem tripR_eq (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole)
    (v3 : Vec F S512x512 .f32) (v4 v8 : Vec F S1x512 .f32) (v13 : Vec F S512x1 .i32)
    (X2 : BufTy.Contents (Elt F) arg2.view.ty) (X5 : BufTy.Contents (Elt F) arg5.view.ty) (X6 : BufTy.Contents (Elt F) arg6.view.ty) (X8 : BufTy.Contents (Elt F) arg8.view.ty)
    (k : Fin k1_t1_loop.trips) (acc : FVec F S1x1 .f32) :
    tripR_k1_t1 (F := F) Variants.none c none i arg1 harg1 arg2 harg2 arg3 harg3 arg4 harg4 arg5 harg5 arg6 harg6 arg7 harg7 arg8 harg8 arg9 harg9 arg10 harg10 v3 v4 v8 v13 X2 X5 X6 X8 k acc
      = k1_pay3 v3 v4 v8 v13 acc (View.ld (arg2.view.read (Elt F) X2) (rB k)) (arg5.view.read (Elt F) X5) (arg6.view.read (Elt F) X6) (View.ld (arg8.view.read (Elt F) X8) (rL k)) := by
  unfold tripR_k1_t1 trip_k1_t1
  dsimp only
  rw [View.readAt_eq_ld, View.readAt_eq_ld, View.readAt_eq_ld, View.readAt_eq_ld]
  rw [View.ld_unit_zero (S := S1x512) hz, View.ld_unit_zero (S := S1x512) hz]

/-- The carried scalar before trip n is the explicit recursion over the trips, from zero. -/
theorem st_eq_loop1 (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole)
    (xa : Vec F S512x512 .f32) (xb : Vec F S8192x512 .f32) (ma ia mb ib : Vec F S1x512 .f32) (lr : Vec F S512x1 .i32) (lc : Vec F S1x8192 .i32) :
    ∀ n, n ≤ k1_t1_loop.trips →
      st_k1_t1 (F := F) Variants.none c none i arg1 harg1 arg2 harg2 arg3 harg3 arg4 harg4 arg5 harg5 arg6 harg6 arg7 harg7 arg8 harg8 arg9 harg9 arg10 harg10 xa ma ia lr (harg2.unread xb) (harg5.unread mb) (harg6.unread ib) (harg8.unread lc) (k1_pay2 (F := F)) n
        = loop1 xa xb ma ia mb ib lr lc n
  | 0, _ => rfl
  | n + 1, hn => by
    have h : n < k1_t1_loop.trips := hn
    refine (st_k1_t1_succ (F := F) Variants.none c none i arg1 harg1 arg2 harg2 arg3 harg3 arg4 harg4 arg5 harg5 arg6 harg6 arg7 harg7 arg8 harg8 arg9 harg9 arg10 harg10 xa ma ia lr _ _ _ _ _ ⟨n, h⟩).trans ?_
    refine (tripR_eq c i arg1 harg1 arg2 harg2 arg3 harg3 arg4 harg4 arg5 harg5 arg6 harg6 arg7 harg7 arg8 harg8 arg9 harg9 arg10 harg10 xa ma ia lr _ _ _ _ ⟨n, h⟩ _).trans ?_
    rw [harg2.read_unread, harg5.read_unread, harg6.read_unread, harg8.read_unread,
      st_eq_loop1 c i arg1 harg1 arg2 harg2 arg3 harg3 arg4 harg4 arg5 harg5 arg6 harg6 arg7 harg7 arg8 harg8 arg9 harg9 arg10 harg10 xa xb ma ia mb ib lr lc n (Nat.le_of_lt h)]
    exact (loop1_succ xa xb ma ia mb ib lr lc ⟨n, h⟩).symm

/-- One store through the whole-scalar rectangle, last, covers the scalar. -/
theorem cover1 (w : Vec F S1x1 .f32) (L : List (View.Piece (Elt F) S1x1 .f32)) (y : S1x1.Idx) :
    ∃ pc ∈ ((⟨Rect.unit ![0, 0] S1x1.size inb_S1x1_S1x1_0_0, w⟩ : View.Piece (Elt F) S1x1 .f32) :: L), y ∈ pc.1.set :=
  ⟨_, List.mem_cons_self, View.mem_set_unit_zero hz inb_S1x1_S1x1_0_0 y⟩

/-! ## The body's runs -/

set_option maxHeartbeats 4000000 in
/-- The first point: the accumulator is reset to zero, then gains the point's total; the output's buffer is left as found. -/
theorem run1_A (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : cond1_0 i) (hc1 : ¬cond1_1 i)
    (xa : Vec F S512x512 .f32) (xb : Vec F S8192x512 .f32) (ma ia mb ib : Vec F S1x512 .f32) (lr : Vec F S512x1 .i32) (lc : Vec F S1x8192 .i32) (xi9 : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ (∃ d, owns (c : Thread nD τ) arg10 fullShare d)
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare (k1_pay4 (loop1 xa xb ma ia mb ib lr lc k1_t1_loop.trips) (k1_pay1 (F := F)))) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v (k1_pay1 (F := F))) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

set_option maxHeartbeats 4000000 in
/-- A middle point: nothing is reset or copied; the accumulator gains the point's total; the output's buffer is left as found. -/
theorem run1_B (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : ¬cond1_1 i)
    (xa : Vec F S512x512 .f32) (xb : Vec F S8192x512 .f32) (ma ia mb ib : Vec F S1x512 .f32) (lr : Vec F S512x1 .i32) (lc : Vec F S1x8192 .i32) (xi9 xs : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare xs
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare xi9 ∗ owns (c : Thread nD τ) arg10 fullShare (k1_pay4 (loop1 xa xb ma ia mb ib lr lc k1_t1_loop.trips) xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg9.eq_unread hf9; obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

set_option maxHeartbeats 4000000 in
/-- The last point: the accumulator gains the point's total and is copied to the output's buffer. -/
theorem run1_C (c : Dev nD) (i : grid1.Coords) (arg1 : Memref sig .tc .vmem S512x512 .f32) (harg1 : arg1.IsWhole) (arg2 : Memref sig .tc .vmem S8192x512 .f32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S512x1 .i32) (harg7 : arg7.IsWhole) (arg8 : Memref sig .tc .vmem S1x8192 .i32) (harg8 : arg8.IsWhole) (arg9 : Memref sig .tc .vmem S1x1 .f32) (harg9 : arg9.IsWhole) (arg10 : Memref sig .tc .vmem S1x1 .f32) (harg10 : arg10.IsWhole) (hc0 : ¬cond1_0 i) (hc1 : cond1_1 i)
    (xa : Vec F S512x512 .f32) (xb : Vec F S8192x512 .f32) (ma ia mb ib : Vec F S1x512 .f32) (lr : Vec F S512x1 .i32) (lc : Vec F S1x8192 .i32) (xs : Vec F S1x1 .f32) (E : Set ℕ) (K : PUnit → sProp 𝕄) :
    iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ (∃ d, owns (c : Thread nD τ) arg9 fullShare d) ∗ owns (c : Thread nD τ) arg10 fullShare xs
        ∗ (iprop(owns (c : Thread nD τ) arg1 fullShare xa ∗ owns (c : Thread nD τ) arg2 fullShare xb ∗ owns (c : Thread nD τ) arg3 fullShare ma ∗ owns (c : Thread nD τ) arg4 fullShare ia
        ∗ owns (c : Thread nD τ) arg5 fullShare mb ∗ owns (c : Thread nD τ) arg6 fullShare ib ∗ owns (c : Thread nD τ) arg7 fullShare lr ∗ owns (c : Thread nD τ) arg8 fullShare lc
        ∗ owns (c : Thread nD τ) arg9 fullShare (k1_pay4 (loop1 xa xb ma ia mb ib lr lc k1_t1_loop.trips) xs) ∗ owns (c : Thread nD τ) arg10 fullShare (k1_pay4 (loop1 xa xb ma ia mb ib lr lc k1_t1_loop.trips) xs)) -∗ K ⟨⟩))
      ⊢ wp frame (wpE (defs₀ (F := F)) Variants.none c none) E (cc1_kernel i arg1 harg1 arg2 harg2 arg3 harg3 arg4 harg4 arg5 harg5 arg6 harg6 arg7 harg7 arg8 harg8 arg9 harg9 arg10 harg10) K := by
  simp only [cc1_kernel_eq_skeleton]; unfold cc1_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  obtain rfl := harg10.eq_unread hf10
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [View.read_writes_eq_canon _ _ _ (cover1 _ _), View.canon_cons_unit_zero hz]
    simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
    exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

  iexists _; isplitr
  swap; · iexact H10
  ipureintro
  sl_unfold_run_names
  rw [View.read_writes_eq_canon _ _ _ (cover1 _ _), View.canon_cons_unit_zero hz]
  simp only [View.readAt_eq_ld, harg1.read_unread, harg3.read_unread, harg4.read_unread, harg7.read_unread, View.ld_unit_zero (S := S512x512) hz, View.ld_unit_zero (S := S1x512) hz, View.ld_unit_zero (S := S512x1) hz, View.ld_unit_zero (S := S1x1) hz, View.readCov_unit_zero (S := S1x1) _ hz, harg10.read_unread]
  exact congrArg (fun v => k1_pay4 v xs) (st_eq_loop1 c i arg1 harg1 arg2 harg2 arg3 harg3 arg4 harg4 arg5 harg5 arg6 harg6 arg7 harg7 arg8 harg8 arg9 harg9 arg10 harg10 xa xb ma ia mb ib lr lc k1_t1_loop.trips (Nat.le_refl _))

end Cert.KernelIdeal.Hand

end
-- ==== Proof.KI.Body1.lean ====
/-
  The main region's body obligation and the two ends of its invariant. Before the first point every scoped buffer
  is at anything; the scalar accumulator is split off that rest and the others are carried unopened. At a point the
  inputs' buffers hold their blocks (fetched there or not); the first point resets the accumulator and adds the
  point's total, a later point adds the point's total to what the point before left, and the last point also copies
  the accumulator to the output's buffer, which is idle and handed back untouched before it. After any point but
  the first the accumulator's named contents may be forgotten, which gives the launch's form of the invariant back.
-/
import proofs.«132247_j36120674959540_1_alg».proof.Proof.KI.Body1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The invariant before the first point -/

/-- Before the first point: the scalar accumulator owned at anything, the other scoped buffers unopened, the
    generator register at some state. -/
theorem PhiA1_eq (c : Dev nD) :
    (Pipeline.ΦA spec1 c : sProp 𝕄)
      = iprop(iprop((∃ d, owns (c : Thread nD τ) scM1_0 fullShare d)
          ∗ Pipeline.scopedRestBut (Ix := Unit) (Name := ℕ) (U := UR sig nD τ) (Lvl := ℕ) (Val := Elt F) spec1 c scr1) ∗ (∃ r, prngReg c r)) := by
  unfold Pipeline.ΦA
  rw [Pipeline.scopedRest_split_of_list spec1 c scr1 (by decide) (by decide)]
  simp only [bigSepL_singleton, scM1_0, owns_whole]
  try rfl

/-! ## What the accumulator holds, at a point of the grid -/

theorem acc1_first (c : Dev nD) (t : Fin cfg1.N) (hz : t.val = 0) :
    acc1 V c t.val t.isLt = k1_pay4 (loop1 (xa1 V c t) (xb1 V c t) (ma1 V c t) (ia1 V c t) (mb1 V c t) (ib1 V c t) (lr1 V c t) (lc1 V c t) k1_t1_loop.trips) (k1_pay1 (F := F)) := by
  obtain ⟨n, hn⟩ := t
  cases n with
  | zero => rfl
  | succ n => exact absurd hz (Nat.succ_ne_zero n)

theorem acc1_later (c : Dev nD) (t : Fin cfg1.N) (hz : t.val ≠ 0) :
    acc1 V c t.val t.isLt = k1_pay4 (loop1 (xa1 V c t) (xb1 V c t) (ma1 V c t) (ia1 V c t) (mb1 V c t) (ib1 V c t) (lr1 V c t) (lc1 V c t) k1_t1_loop.trips) (acc1 V c (t.val - 1) (by omega)) := by
  obtain ⟨n, hn⟩ := t
  cases n with
  | zero => exact absurd rfl hz
  | succ n => rfl

/-! ## Each input's buffer holds its block at every point, fetched there or not -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-! ## The body obligation, at a generic point -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' buffers hold their blocks; the closed forms say which case the point is in;
    the invariant hands the body the accumulator at what the point before left (at anything at the first point) and
    takes it back at this point's contents; the output's buffer is handed back untouched before the last point and
    holds the accumulator at the last; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  rw [show (dat1 V c).leavesExact 7 t = owns (c : Thread nD τ) (ms1_7 t) fullShare ((dat1 V c).after 7 t) from by
    unfold Dat.leavesExact; rw [liveAt1_7 t], after1_7]
  by_cases h0 : t.val % 16 = 0
  · have h1 : ¬t.val % 16 = 15 := by omega
    have hz : t.val = 0 := by omega
    rw [Dat.leavesExact_idle (dat1 V c) 8 t (idleAt1_8 t (fun h => h1 ((hcond1_1 t).mp h))) (noFlush1_8 t (fun h => h1 ((hcond1_1 t).mp h)))]
    rw [PhiS1_castSucc V c t, PhiS1_zero V c _ _ hz, PhiA1_eq, acc1_first V c t hz]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (xa1 V c t) (xb1 V c t) (ma1 V c t) (ia1 V c t) (mb1 V c t) (ib1 V c t) (lr1 V c t) (lc1 V c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS]; · iexact HS
    iintro ⟨H0, H1, H2, H3, H4, H5, H6, H7, H8, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · have hz : t.val ≠ 0 := by omega
    by_cases h1 : t.val % 16 = 15
    · rw [show (dat1 V c).leavesExact 8 t = owns (c : Thread nD τ) (ms1_8 t) fullShare ((dat1 V c).after 8 t) from by
        unfold Dat.leavesExact; rw [liveAt1_8 t ((hcond1_1 t).mpr h1)], after1_8]
      rw [PhiS1_castSucc V c t, PhiS1_pos V c _ _ hz, acc1_later V c t hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (xa1 V c t) (xb1 V c t) (ma1 V c t) (ia1 V c t) (mb1 V c t) (ib1 V c t) (lr1 V c t) (lc1 V c t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, H8, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dat1 V c) 8 t (idleAt1_8 t (fun h => h1 ((hcond1_1 t).mp h))) (noFlush1_8 t (fun h => h1 ((hcond1_1 t).mp h)))]
      rw [PhiS1_castSucc V c t, PhiS1_pos V c _ _ hz, acc1_later V c t hz]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) (fun h => h1 ((hcond1_1 t).mp h)) (xa1 V c t) (xb1 V c t) (ma1 V c t) (ia1 V c t) (mb1 V c t) (ib1 V c t) (lr1 V c t) (lc1 V c t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's form back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.KernelIdeal.Hand

end
-- ==== Proof.KI.Run.lean ====
/-
  The program's run over its four items (the statistics region, the host operations between, the main region, the
  last host operation): every weakly fair execution terminates with every unscoped buffer at the last boundary's
  contents; the three argument arrays come through unchanged, and the result buffer holds the last boundary's value.
-/
import proofs.«132247_j36120674959540_1_alg».proof.Proof.Gen.KernelIdeal.Launch
import proofs.«132247_j36120674959540_1_alg».proof.Proof.Gen.KernelIdeal.Skeleton
import proofs.«132247_j36120674959540_1_alg».proof.Proof.Gen.KernelIdeal.Points
import proofs.«132247_j36120674959540_1_alg».proof.Proof.KI.Fold
import proofs.«132247_j36120674959540_1_alg».proof.Proof.KI.Body0
import proofs.«132247_j36120674959540_1_alg».proof.Proof.KI.Body1
import proofs.«132247_j36120674959540_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched

No host operation writes an argument and no region changes one: a region reads the first two through input windows
(an input window's array stays at its entry contents) and bypasses the third, which the host operations between the
regions only read. So the last boundary's contents at an argument walk back, boundary by boundary, to the launch. -/

/-- No item writes an argument: the fold at an argument's buffer walks back to the launch memory. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 (W3 m ρ c) hostOps2_writes (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := StableHlo.after_of_writes_sub hostOps1 (W1 m ρ c) hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 (W3 m ρ c) hostOps2_writes (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := StableHlo.after_of_writes_sub hostOps1 (W1 m ρ c) hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := StableHlo.after_of_writes_sub hostOps2 (W3 m ρ c) hostOps2_writes (by decide)
    _ = W2 m ρ c (Proc.devRef .tc main_arg2) := W3_of_ne m ρ c main_arg2 (by decide)
    _ = W1 m ρ c (Proc.devRef .tc main_arg2) := StableHlo.after_of_writes_sub hostOps1 (W1 m ρ c) hostOps1_writes (by decide)
    _ = W0 m ρ c (Proc.devRef .tc main_arg2) := W1_of_ne m ρ c main_arg2 (by decide)
    _ = m ((c : Thread nD τ).loc main_arg2) := rfl

/-! ## What each region leaves, as the two facts its exit needs -/

/-- At the statistics region's exit each of its arrays holds what the pipeline leaves, and every other buffer what it
    held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- The same at the main region's exit. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- Every pipeline's proof data, each at its region's entry contents: the statistics region at the launch contents,
    the main region at the contents after the host operations between. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A line of host operations as an item of the run: over the unscoped references from the contents W, R riding along;
    it ends with those references at the contents after the line. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as items of the run -/

set_option backward.isDefEq.respectTransparency.types false in
/-- The statistics region over the thread state: entered from every unscoped buffer at the launch contents, left at
    the first boundary's. Its arrays are split out of the unscoped buffers and put back at the exit contents; the
    generator register and the scoped buffers enter the invariant's first position and come back from its last; nothing
    is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (V0 m ρ) c).Φ 0 from rfl]
    refine BIBase.Entails.trans ?_ (hin0 (V0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (V0 m ρ) c).Φ (Fin.last cfg0.N) from rfl]
    refine BIBase.Entails.trans (hout0 (V0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The main region over the thread state: entered from every unscoped buffer at the second boundary's contents (after
    the host operations between the regions), left at the third's. The same protocol as the statistics region's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V2 m ρ) c).Φ 0 from rfl]
    refine BIBase.Entails.trans ?_ (hin1 (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V2 m ρ) c).Φ (Fin.last cfg1.N) from rfl]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its four items, and the launch -/

/-- The program's four items in order: the statistics region, the host operations between from the first boundary's
    contents, the main region, the last host operation from the third boundary's contents. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program IS the run of the items. -/
theorem main_run (c : Dev nD) : main (F := F) c = Pipeline.Seg.run (segs m ρ) :=
  main_segs adm (pdats m ρ) () 𝒱₀ L lv (hseg hostOps1 hostOps1_sub hostOps1_fresh (W1 m ρ))
    (hseg hostOps2 hostOps2_sub hostOps2_fresh (W3 m ρ)) (reg0 m ρ) (reg1 m ρ) rfl rfl c

set_option backward.isDefEq.respectTransparency.types false in
/-- THE RUN: from any memory with zero counters every weakly fair execution of the program terminates, nothing faulting,
    and every final state holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

/-- The run with the result buffer named: it ends at the last boundary's value, the arguments unchanged. -/
theorem run_value : θ_run defs (onTc (τ := τ) (main (F := F))) ⟨m, fun _ => 0, ρ⟩ (fun r => ∀ c : Dev nD,
      r.2.mem ((c.tc : Thread nD τ).loc main_v22) = W4 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v22 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run m ρ)

end Cert.KernelIdeal.Hand

end
-- ==== Proof.Spec.lean ====
/-
  What the two programs compute, as functions of the argument arrays over the extended reals, and the law that makes
  them one function.

  Both normalise every column of each input to mean zero and unit sample variance, form the 8192 by 8192 matrix of
  scaled inner products c(i,j) = (1/512) Σ_d â(i,d)·b̂(j,d), subtract the label mask (1 where the two rows carry the same
  label), square and sum. They differ in how a column is normalised:
    kernel     (x - μ) · rsqrt(v)   with v = (Σx² - (Σx)²/8192) / 8191,
    reference  (x - μ) / sqrt(w)    with w = Σ(x - μ)² / 8191,        μ = Σx / 8192 in both.
  For finite entries v = w over the reals (expand the square: Σ(x-μ)² = Σx² - 2μΣx + 8192μ² = Σx² - (Σx)²/8192), and
  where w > 0 the reciprocal root times a number is that number divided by the root. Where a column is constant,
  w = 0 and the two differ (0·⊤ = 0 against 0/0), which is why the law takes positivity of Σ(x-μ)² as a hypothesis.
-/
import Idealize.ShloMosaic.PureOps.Ideal
import Idealize.ShloMosaic.Lib.ValueIdx

noncomputable section

namespace Cert.Spec

open Idealize.ShloMosaic Idealize.ShloMosaic.ValueIdx

/-- The inputs' shape, and the labels'. -/
abbrev SA : Shape := ⟨2, ![8192, 512]⟩
abbrev SL : Shape := ⟨1, ![8192]⟩

/-- Column d's sum, and its sum of squares. -/
def colSum (x : SA.Idx → EReal) (d : Fin 512) : EReal := ∑ n : Fin 8192, x (ix2 n d)
def colSumSq (x : SA.Idx → EReal) (d : Fin 512) : EReal := ∑ n : Fin 8192, x (ix2 n d) * x (ix2 n d)
/-- Column d's mean (both programs). -/
def mean (x : SA.Idx → EReal) (d : Fin 512) : EReal := Ideal.div (colSum x d) ((8192 : ℝ) : EReal)
/-- Column d's sum of squared deviations from its mean. -/
def ssd (x : SA.Idx → EReal) (d : Fin 512) : EReal := ∑ n : Fin 8192, (x (ix2 n d) - mean x d) * (x (ix2 n d) - mean x d)

/-- The label mask: one where rows i and j carry the same label. -/
def mask (l : SL.Idx → BitVec 32) (i j : Fin 8192) : EReal := if l (ix1 i) = l (ix1 j) then 1 else 0

/-! ## The kernel's side -/

/-- The sample variance as the kernel's host glue computes it, from the sum and the sum of squares. -/
def kVar (x : SA.Idx → EReal) (d : Fin 512) : EReal :=
  Ideal.div (colSumSq x d - Ideal.div (colSum x d * colSum x d) ((8192 : ℝ) : EReal)) ((8191 : ℝ) : EReal)
/-- A normalised entry: the deviation times the reciprocal root of the variance. -/
def kNorm (x : SA.Idx → EReal) (n : Fin 8192) (d : Fin 512) : EReal := (x (ix2 n d) - mean x d) * Ideal.rsqrt (kVar x d)
/-- The scaled inner product of row i of the first normalised input and row j of the second. -/
def kC (a b : SA.Idx → EReal) (i j : Fin 8192) : EReal :=
  Ideal.div (∑ d : Fin 512, kNorm a i d * kNorm b j d) ((512 : ℝ) : EReal)
/-- The kernel's result. -/
def kLoss (a b : SA.Idx → EReal) (l : SL.Idx → BitVec 32) : EReal :=
  ∑ i : Fin 8192, ∑ j : Fin 8192, (kC a b i j - mask l i j) * (kC a b i j - mask l i j)

/-! ## The reference's side -/

/-- The sample variance as the reference computes it, from the squared deviations. -/
def rVar (x : SA.Idx → EReal) (d : Fin 512) : EReal := Ideal.div (ssd x d) ((8191 : ℝ) : EReal)
/-- A normalised entry: the deviation divided by the standard deviation. -/
def rNorm (x : SA.Idx → EReal) (n : Fin 8192) (d : Fin 512) : EReal := Ideal.div (x (ix2 n d) - mean x d) (Ideal.sqrt (rVar x d))
def rC (a b : SA.Idx → EReal) (i j : Fin 8192) : EReal :=
  Ideal.div (∑ d : Fin 512, rNorm a i d * rNorm b j d) ((512 : ℝ) : EReal)
/-- The reference's result. -/
def rLoss (a b : SA.Idx → EReal) (l : SL.Idx → BitVec 32) : EReal :=
  ∑ i : Fin 8192, ∑ j : Fin 8192, (rC a b i j - mask l i j) * (rC a b i j - mask l i j)

/-! ## The constants' values -/

theorem ofBits_8192 : Ideal.ofBits .f32 0x46000000#32 = ((8192 : ℝ) : EReal) := by
  simp [Ideal.ofBits, Ideal.ieee, -EReal.coe_mul]; norm_num
theorem ofBits_8191 : Ideal.ofBits .f32 0x45FFF800#32 = ((8191 : ℝ) : EReal) := by
  simp [Ideal.ofBits, Ideal.ieee, -EReal.coe_mul]; norm_num
theorem ofBits_512 : Ideal.ofBits .f32 0x44000000#32 = ((512 : ℝ) : EReal) := by
  simp [Ideal.ofBits, Ideal.ieee, -EReal.coe_mul]; norm_num

/-! ## The law -/

/-- A finite sum of reals, read in the extended reals, is the sum of the readings. -/
theorem coe_sum {ι : Type} (s : Finset ι) (f : ι → ℝ) :
    (∑ i ∈ s, ((f i : ℝ) : EReal)) = ((∑ i ∈ s, f i : ℝ) : EReal) := by
  classical
  refine Finset.induction_on s ?_ ?_
  · simp
  · intro i s hi ih
    rw [Finset.sum_insert hi, Finset.sum_insert hi, ih, EReal.coe_add]

/-- Over the reals: the squared deviations of 8192 numbers from their mean sum to the sum of their squares less the
    square of their sum over 8192 (expand the square; the constant term is counted 8192 times). -/
theorem real_ssd (f : Fin 8192 → ℝ) :
    ∑ n, (f n - (∑ n, f n) * (1 / 8192)) * (f n - (∑ n, f n) * (1 / 8192))
      = ∑ n, f n * f n - (∑ n, f n) * (∑ n, f n) * (1 / 8192) := by
  have h : ∀ n, (f n - (∑ n, f n) * (1 / 8192)) * (f n - (∑ n, f n) * (1 / 8192))
      = f n * f n - (2 * ((∑ n, f n) * (1 / 8192))) * f n
        + ((∑ n, f n) * (1 / 8192)) * ((∑ n, f n) * (1 / 8192)) := fun n => by ring
  rw [Finset.sum_congr rfl (fun n _ => h n), Finset.sum_add_distrib, Finset.sum_sub_distrib, ← Finset.mul_sum,
    Finset.sum_const, Finset.card_univ, Fintype.card_fin, nsmul_eq_mul]
  push_cast
  ring

/-- For a positive real v, a real times the reciprocal root of v is that real divided by the root of v. -/
theorem scale_eq (y v : ℝ) (hv : 0 < v) :
    (y : EReal) * Ideal.rsqrt (v : EReal) = Ideal.div (y : EReal) (Ideal.sqrt (v : EReal)) := by
  have h0 : ¬ v < 0 := not_lt.mpr hv.le
  have hs : Real.sqrt v ≠ 0 := (Real.sqrt_pos.mpr hv).ne'
  rw [Ideal.rsqrt_coe, Ideal.sqrt_coe, if_neg h0, if_neg hv.ne', if_neg h0, Ideal.div_coe hs, one_div]

section Column

variable (X : SA.Idx → ℝ) (d : Fin 512)

/-- On real entries, a column's sum is the real sum. -/
theorem colSum_coe : colSum (fun i => ((X i : ℝ) : EReal)) d = ((∑ n : Fin 8192, X (ix2 n d) : ℝ) : EReal) := by
  show (∑ n : Fin 8192, ((X (ix2 n d) : ℝ) : EReal)) = _
  exact coe_sum _ _

/-- On real entries, a column's sum of squares is the real sum of squares. -/
theorem colSumSq_coe : colSumSq (fun i => ((X i : ℝ) : EReal)) d
    = ((∑ n : Fin 8192, X (ix2 n d) * X (ix2 n d) : ℝ) : EReal) := by
  show (∑ n : Fin 8192, ((X (ix2 n d) : ℝ) : EReal) * ((X (ix2 n d) : ℝ) : EReal)) = _
  simp only [← EReal.coe_mul]
  exact coe_sum _ _

/-- On real entries, a column's mean is the real mean. -/
theorem mean_coe : mean (fun i => ((X i : ℝ) : EReal)) d
    = (((∑ n : Fin 8192, X (ix2 n d)) * (1 / 8192) : ℝ) : EReal) := by
  rw [mean, colSum_coe, Ideal.div_coe (y := 8192) (by norm_num), ← EReal.coe_mul]

/-- On real entries, a column's sum of squared deviations is the real one. -/
theorem ssd_coe : ssd (fun i => ((X i : ℝ) : EReal)) d
    = ((∑ n : Fin 8192, (X (ix2 n d) - (∑ n : Fin 8192, X (ix2 n d)) * (1 / 8192))
        * (X (ix2 n d) - (∑ n : Fin 8192, X (ix2 n d)) * (1 / 8192)) : ℝ) : EReal) := by
  rw [ssd, mean_coe]
  simp only [← EReal.coe_sub, ← EReal.coe_mul]
  exact coe_sum _ _

/-- On real entries, the variance from the sum and the sum of squares is a real. -/
theorem kVar_coe : kVar (fun i => ((X i : ℝ) : EReal)) d
    = ((((∑ n : Fin 8192, X (ix2 n d) * X (ix2 n d))
          - (∑ n : Fin 8192, X (ix2 n d)) * (∑ n : Fin 8192, X (ix2 n d)) * (1 / 8192)) * (1 / 8191) : ℝ) : EReal) := by
  rw [kVar, colSum_coe, colSumSq_coe, Ideal.div_coe (y := 8192) (by norm_num),
    Ideal.div_coe (y := 8191) (by norm_num)]
  simp only [← EReal.coe_mul, ← EReal.coe_sub]

/-- On real entries, the variance from the squared deviations is a real. -/
theorem rVar_coe : rVar (fun i => ((X i : ℝ) : EReal)) d
    = (((∑ n : Fin 8192, (X (ix2 n d) - (∑ n : Fin 8192, X (ix2 n d)) * (1 / 8192))
        * (X (ix2 n d) - (∑ n : Fin 8192, X (ix2 n d)) * (1 / 8192))) * (1 / 8191) : ℝ) : EReal) := by
  rw [rVar, ssd_coe, Ideal.div_coe (y := 8191) (by norm_num), ← EReal.coe_mul]

/-- The real identity of the two variances' numerators, for column d. -/
theorem real_ssd_col :
    ∑ n : Fin 8192, (X (ix2 n d) - (∑ n : Fin 8192, X (ix2 n d)) * (1 / 8192))
        * (X (ix2 n d) - (∑ n : Fin 8192, X (ix2 n d)) * (1 / 8192))
      = (∑ n : Fin 8192, X (ix2 n d) * X (ix2 n d))
          - (∑ n : Fin 8192, X (ix2 n d)) * (∑ n : Fin 8192, X (ix2 n d)) * (1 / 8192) :=
  real_ssd (fun n => X (ix2 n d))

end Column

/-- On a column of finite entries that is not constant, the two normalisations agree entry by entry. -/
theorem kNorm_eq_rNorm (x : SA.Idx → EReal) (hx : ∀ i, ∃ r : ℝ, x i = (r : EReal)) (d : Fin 512)
    (hv : 0 < ssd x d) (n : Fin 8192) : kNorm x n d = rNorm x n d := by
  choose X hX using hx
  obtain rfl : x = fun i => ((X i : ℝ) : EReal) := funext hX
  rw [ssd_coe] at hv
  have hv' := mul_pos (EReal.coe_pos.mp hv) (show (0 : ℝ) < 1 / 8191 by norm_num)
  rw [kNorm, rNorm, kVar_coe, rVar_coe, mean_coe, ← real_ssd_col X d, ← EReal.coe_sub]
  exact scale_eq _ _ hv'

/-- On inputs whose entries are all finite and none of whose columns is constant, the two sides are one number. -/
theorem kLoss_eq_rLoss (a b : SA.Idx → EReal) (l : SL.Idx → BitVec 32)
    (ha : ∀ i, ∃ r : ℝ, a i = (r : EReal)) (hb : ∀ i, ∃ r : ℝ, b i = (r : EReal))
    (hva : ∀ d, 0 < ssd a d) (hvb : ∀ d, 0 < ssd b d) :
    kLoss a b l = rLoss a b l := by
  have hC : ∀ i j, kC a b i j = rC a b i j := fun i j => by
    rw [kC, rC]
    congr 1
    exact Finset.sum_congr rfl (fun d _ => by
      rw [kNorm_eq_rNorm a ha d (hva d) i, kNorm_eq_rNorm b hb d (hvb d) j])
  rw [kLoss, rLoss]
  exact Finset.sum_congr rfl (fun i _ => Finset.sum_congr rfl (fun j _ => by rw [hC i j]))

end Cert.Spec

end
-- ==== Proof.KV.Val0.lean ====
/-
  What the statistics region leaves in its four output arrays, over the extended reals: column d of each holds the sum
  over all 8192 rows of the entries (windows 2 and 4) or of their squares (windows 3 and 5) of the first and the
  second input: eight tiles of 1024 rows, each tile's column sums added to an accumulator that starts from zero.
-/
import proofs.«132247_j36120674959540_1_alg».proof.Proof.Spec
import proofs.«132247_j36120674959540_1_alg».proof.Proof.KI.Defs0
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-! ## One tile's contribution: the body's arithmetic at a column -/

/-- The column sums of a tile of 1024 rows, laid out as a row of 512: entry d is the sum of the tile's column d. -/
theorem tileRow_apply (x : Vec Ideal S1024x512 .f32) (d : Fin 512) :
    shapeCast S1x512 (multiReduction (F := Ideal) .add [0] S512 x 0x00000000#32 reduces_S1024x512_S512 (.inl rfl) rfl)
        shapeCasts_S512_S1x512 (ix2 (0 : Fin 1) d)
      = ∑ p : Fin 1024, x (ix2 p d) := by
  refine (shapeCast_addUnit_apply ![512] _ shapeCasts_S512_S1x512 (ix2 (0 : Fin 1) d)).trans ?_
  refine (Ideal.multiReduction_add_single x 0x00000000#32 reduces_S1024x512_S512 (.inl rfl) rfl _).trans ?_
  refine Finset.sum_congr rfl fun p _ => congrArg x ?_
  funext a
  match a with
  | ⟨0, _⟩ => rfl
  | ⟨1, _⟩ => rfl

/-- Adding a tile's column sums to an accumulator row. -/
theorem pay6_apply (x : Vec Ideal S1024x512 .f32) (s : Vec Ideal S1x512 .f32) (d : Fin 512) :
    k0_pay6 x s (ix2 (0 : Fin 1) d) = s (ix2 (0 : Fin 1) d) + ∑ p : Fin 1024, x (ix2 p d) := by
  unfold k0_pay6
  exact (congrFun (shapeCast_self _ shapeCasts_S1x512_S1x512) (ix2 (0 : Fin 1) d)).trans
    (congrArg (fun y => s (ix2 (0 : Fin 1) d) + y) (tileRow_apply x d))

theorem pay8_apply (x : Vec Ideal S1024x512 .f32) (s : Vec Ideal S1x512 .f32) (d : Fin 512) :
    k0_pay8 x s (ix2 (0 : Fin 1) d) = s (ix2 (0 : Fin 1) d) + ∑ p : Fin 1024, x (ix2 p d) := by
  unfold k0_pay8
  exact (congrFun (shapeCast_self _ shapeCasts_S1x512_S1x512) (ix2 (0 : Fin 1) d)).trans
    (congrArg (fun y => s (ix2 (0 : Fin 1) d) + y) (tileRow_apply x d))

/-- Adding the column sums of a tile's squares to an accumulator row. -/
theorem pay7_apply (x : Vec Ideal S1024x512 .f32) (s : Vec Ideal S1x512 .f32) (d : Fin 512) :
    k0_pay7 x s (ix2 (0 : Fin 1) d) = s (ix2 (0 : Fin 1) d) + ∑ p : Fin 1024, x (ix2 p d) * x (ix2 p d) := by
  unfold k0_pay7
  exact (congrFun (shapeCast_self _ shapeCasts_S1x512_S1x512) (ix2 (0 : Fin 1) d)).trans
    (congrArg (fun y => s (ix2 (0 : Fin 1) d) + y) (tileRow_apply (mulf (F := Ideal) x x) d))

theorem pay19_apply (x : Vec Ideal S1024x512 .f32) (s : Vec Ideal S1x512 .f32) (d : Fin 512) :
    k0_pay1 s (k0_pay9 x) (ix2 (0 : Fin 1) d) = s (ix2 (0 : Fin 1) d) + ∑ p : Fin 1024, x (ix2 p d) * x (ix2 p d) := by
  unfold k0_pay1 k0_pay9
  exact (congrFun (shapeCast_self _ shapeCasts_S1x512_S1x512) (ix2 (0 : Fin 1) d)).trans
    (congrArg (fun y => s (ix2 (0 : Fin 1) d) + y) (tileRow_apply (mulf (F := Ideal) x x) d))

/-- The four rows the first point resets the accumulators to are zero. -/
theorem pay2_apply (j : S1x512.Idx) : k0_pay2 (F := Ideal) j = 0 := by
  unfold k0_pay2
  exact (congrFun (shapeCast_self _ shapeCasts_S1x512_S1x512) j).trans Ideal.ofBits_zero_f32
theorem pay3_apply (j : S1x512.Idx) : k0_pay3 (F := Ideal) j = 0 := by
  unfold k0_pay3
  exact (congrFun (shapeCast_self _ shapeCasts_S1x512_S1x512) j).trans Ideal.ofBits_zero_f32
theorem pay4_apply (j : S1x512.Idx) : k0_pay4 (F := Ideal) j = 0 := by
  unfold k0_pay4
  exact (congrFun (shapeCast_self _ shapeCasts_S1x512_S1x512) j).trans Ideal.ofBits_zero_f32
theorem pay5_apply (j : S1x512.Idx) : k0_pay5 (F := Ideal) j = 0 := by
  unfold k0_pay5
  exact (congrFun (shapeCast_self _ shapeCasts_S1x512_S1x512) j).trans Ideal.ofBits_zero_f32

/-! ## Eight tiles of 1024 rows are the 8192 rows -/

/-- Row n of column d of an array, for every natural n (zero past the last row). -/
def rowAt (X : SA.Idx → EReal) (d : Fin 512) (n : ℕ) : EReal := if h : n < 8192 then X (ix2 ⟨n, h⟩ d) else 0

theorem rowAt_fin (X : SA.Idx → EReal) (d : Fin 512) (n : Fin 8192) : rowAt X d n.val = X (ix2 n d) :=
  dif_pos n.isLt

/-- Summing tile by tile, row by row inside a tile, is summing over all rows: row 1024·s + p is met once. -/
theorem sum_tiles {M : Type} [AddCommMonoid M] (g : ℕ → M) :
    ∑ s ∈ Finset.range 8, ∑ p : Fin 1024, g (1024 * s + p.val) = ∑ n : Fin 8192, g n.val := by
  show _ = ∑ n : Fin (8 * 1024), g n.val
  rw [Finset.sum_range (fun s => ∑ p : Fin 1024, g (1024 * s + p.val)),
    ← Equiv.sum_comp (finProdFinEquiv (m := 8) (n := 1024)) (fun n : Fin (8 * 1024) => g n.val),
    Fintype.sum_prod_type]
  refine Finset.sum_congr rfl fun s _ => Finset.sum_congr rfl fun p _ => congrArg g ?_
  show 1024 * s.val + p.val = p.val + 1024 * s.val
  omega

-- the TensorCore's buffer contents when the region is entered, over the extended reals
variable (V : (c : Dev nD) → (b : Ref sig .tc) → Buf (Elt Ideal) ((c : Thread nD τ).loc b))

/-! ## A tile's entry is the array's -/

/-- At point t both input windows sit on row tile t and on the one column tile. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)

/-- Row p of the first input's tile at point t is row 1024·t + p of the first input. -/
theorem ablk_apply (c : Dev nD) (t : Fin cfg0.N) (p : Fin 1024) (d : Fin 512) :
    ablk (F := Ideal) V c t (ix2 p d) = rowAt (V c main_arg0) d (1024 * t.val + p.val) := by
  have hi := idx0_0 t
  have ht : t.val < 8 := t.isLt.trans_eq N_0
  have hlt : 1024 * t.val + p.val < 8192 := by have := p.isLt; omega
  rw [rowAt, dif_pos hlt]
  show iblk0 V c 0 t (ix2 p d) = _
  unfold iblk0
  rw [View.read_apply]
  show V c main_arg0 _ = V c main_arg0 _
  congr 1
  funext a
  apply Fin.ext
  match a with
  | ⟨0, _⟩ => show win0_0.index t 0 * 1024 + 1 * p.val = 1024 * t.val + p.val; rw [hi.1]; omega
  | ⟨1, _⟩ => show win0_0.index t 1 * 512 + 1 * d.val = d.val; rw [hi.2]; omega

/-- Row p of the second input's tile at point t is row 1024·t + p of the second input. -/
theorem bblk_apply (c : Dev nD) (t : Fin cfg0.N) (p : Fin 1024) (d : Fin 512) :
    bblk (F := Ideal) V c t (ix2 p d) = rowAt (V c main_arg1) d (1024 * t.val + p.val) := by
  have hi := idx0_1 t
  have ht : t.val < 8 := t.isLt.trans_eq N_0
  have hlt : 1024 * t.val + p.val < 8192 := by have := p.isLt; omega
  rw [rowAt, dif_pos hlt]
  show iblk0 V c 1 t (ix2 p d) = _
  unfold iblk0
  rw [View.read_apply]
  show V c main_arg1 _ = V c main_arg1 _
  congr 1
  funext a
  apply Fin.ext
  match a with
  | ⟨0, _⟩ => show win0_1.index t 0 * 1024 + 1 * p.val = 1024 * t.val + p.val; rw [hi.1]; omega
  | ⟨1, _⟩ => show win0_1.index t 1 * 512 + 1 * d.val = d.val; rw [hi.2]; omega

/-! ## The accumulators after each point -/

/-- After point n the first accumulator holds, at column d, the sum of the first input's rows below 1024·(n+1). -/
theorem acc_sum_a (c : Dev nD) (d : Fin 512) : ∀ (n : ℕ) (hn : n < cfg0.N),
    (acc0 (F := Ideal) V c n hn).1 (ix2 (0 : Fin 1) d)
      = ∑ s ∈ Finset.range (n + 1), ∑ p : Fin 1024, rowAt (V c main_arg0) d (1024 * s + p.val)
  | 0, hn => by
    rw [acc0_zero]
    dsimp only
    refine (pay6_apply (ablk (F := Ideal) V c ⟨0, hn⟩) (k0_pay2 (F := Ideal)) d).trans ?_
    rw [pay2_apply, zero_add, Finset.sum_range_one]
    exact Finset.sum_congr rfl fun p _ => ablk_apply V c ⟨0, hn⟩ p d
  | n + 1, hn => by
    rw [acc0_succ]
    dsimp only
    refine (pay6_apply (ablk (F := Ideal) V c ⟨n + 1, hn⟩) (acc0 (F := Ideal) V c n (Nat.lt_of_succ_lt hn)).1 d).trans ?_
    rw [acc_sum_a c d n (Nat.lt_of_succ_lt hn), Finset.sum_range_succ _ (n + 1)]
    exact congrArg _ (Finset.sum_congr rfl fun p _ => ablk_apply V c ⟨n + 1, hn⟩ p d)

/-- After point n the second accumulator holds the sum of the squares of those rows' entries. -/
theorem acc_sumsq_a (c : Dev nD) (d : Fin 512) : ∀ (n : ℕ) (hn : n < cfg0.N),
    (acc0 (F := Ideal) V c n hn).2.1 (ix2 (0 : Fin 1) d)
      = ∑ s ∈ Finset.range (n + 1), ∑ p : Fin 1024,
          rowAt (V c main_arg0) d (1024 * s + p.val) * rowAt (V c main_arg0) d (1024 * s + p.val)
  | 0, hn => by
    rw [acc0_zero]
    dsimp only
    refine (pay7_apply (ablk (F := Ideal) V c ⟨0, hn⟩) (k0_pay3 (F := Ideal)) d).trans ?_
    rw [pay3_apply, zero_add, Finset.sum_range_one]
    exact Finset.sum_congr rfl fun p _ => by rw [ablk_apply V c ⟨0, hn⟩ p d]
  | n + 1, hn => by
    rw [acc0_succ]
    dsimp only
    refine (pay7_apply (ablk (F := Ideal) V c ⟨n + 1, hn⟩) (acc0 (F := Ideal) V c n (Nat.lt_of_succ_lt hn)).2.1 d).trans ?_
    rw [acc_sumsq_a c d n (Nat.lt_of_succ_lt hn), Finset.sum_range_succ _ (n + 1)]
    exact congrArg _ (Finset.sum_congr rfl fun p _ => by rw [ablk_apply V c ⟨n + 1, hn⟩ p d])

/-- The third and the fourth accumulator: the same of the second input. -/
theorem acc_sum_b (c : Dev nD) (d : Fin 512) : ∀ (n : ℕ) (hn : n < cfg0.N),
    (acc0 (F := Ideal) V c n hn).2.2.1 (ix2 (0 : Fin 1) d)
      = ∑ s ∈ Finset.range (n + 1), ∑ p : Fin 1024, rowAt (V c main_arg1) d (1024 * s + p.val)
  | 0, hn => by
    rw [acc0_zero]
    dsimp only
    refine (pay8_apply (bblk (F := Ideal) V c ⟨0, hn⟩) (k0_pay4 (F := Ideal)) d).trans ?_
    rw [pay4_apply, zero_add, Finset.sum_range_one]
    exact Finset.sum_congr rfl fun p _ => bblk_apply V c ⟨0, hn⟩ p d
  | n + 1, hn => by
    rw [acc0_succ]
    dsimp only
    refine (pay8_apply (bblk (F := Ideal) V c ⟨n + 1, hn⟩) (acc0 (F := Ideal) V c n (Nat.lt_of_succ_lt hn)).2.2.1 d).trans ?_
    rw [acc_sum_b c d n (Nat.lt_of_succ_lt hn), Finset.sum_range_succ _ (n + 1)]
    exact congrArg _ (Finset.sum_congr rfl fun p _ => bblk_apply V c ⟨n + 1, hn⟩ p d)

theorem acc_sumsq_b (c : Dev nD) (d : Fin 512) : ∀ (n : ℕ) (hn : n < cfg0.N),
    (acc0 (F := Ideal) V c n hn).2.2.2 (ix2 (0 : Fin 1) d)
      = ∑ s ∈ Finset.range (n + 1), ∑ p : Fin 1024,
          rowAt (V c main_arg1) d (1024 * s + p.val) * rowAt (V c main_arg1) d (1024 * s + p.val)
  | 0, hn => by
    rw [acc0_zero]
    dsimp only
    refine (pay19_apply (bblk (F := Ideal) V c ⟨0, hn⟩) (k0_pay5 (F := Ideal)) d).trans ?_
    rw [pay5_apply, zero_add, Finset.sum_range_one]
    exact Finset.sum_congr rfl fun p _ => by rw [bblk_apply V c ⟨0, hn⟩ p d]
  | n + 1, hn => by
    rw [acc0_succ]
    dsimp only
    refine (pay19_apply (bblk (F := Ideal) V c ⟨n + 1, hn⟩) (acc0 (F := Ideal) V c n (Nat.lt_of_succ_lt hn)).2.2.2 d).trans ?_
    rw [acc_sumsq_b c d n (Nat.lt_of_succ_lt hn), Finset.sum_range_succ _ (n + 1)]
    exact congrArg _ (Finset.sum_congr rfl fun p _ => by rw [bblk_apply V c ⟨n + 1, hn⟩ p d])

/-! ## The output arrays after the run -/

/-- The last point is a point of the grid. -/
theorem last_lt : 7 < cfg0.N := by rw [show cfg0.N = 8 from N_0]; decide

/-- What window 2's array receives: the first accumulator as the last point leaves it. -/
abbrev res2 (c : Dev nD) : Buf (Elt Ideal) ((c : Thread nD τ).loc main_v0_0) := (acc0 (F := Ideal) V c 7 last_lt).1

/-- Window 2 is written back at the last point only, and what is written is the whole row: the block is the array. -/
theorem flushed2_eq (c : Dev nD) (t : Fin cfg0.N) (hf : (cfg0.win 2).flush t = true) :
    (dat0 (F := Ideal) V c).flushed 2 t = ((cfg0.win 2).blk t).view.read (Elt Ideal) (res2 V c) := by
  have hN : cfg0.N = 8 := N_0
  have h7 : t.val = 7 := by have := (flush0_2 t).mp hf; have := t.isLt; omega
  obtain rfl : t = t0_7 := Fin.ext h7
  show (cfg0.win 2).cut (grid0.coords t0_7) ((dat0 (F := Ideal) V c).after 2 t0_7) = _
  rw [after0_2]
  have hz : (fun a => win0_2.index t0_7 a * main_v0_0.ty.shape.size a) = fun _ => 0 :=
    funext fun a => by fin_cases a <;> decide
  exact (Memref.read_access_unit_zero (Elt Ideal) main_v0_0 hz (fun a => by rw [congrFun hz a]; simp) (res2 V c)).symm

/-- So after the run window 2's array holds that accumulator: the last point's block covers every index. -/
theorem final2 (c : Dev nD) : (dat0 (F := Ideal) V c).arrAt 2 cfg0.N = res2 V c :=
  (dat0 (F := Ideal) V c).arrAt_eq_of_cover 2 (res2 V c) (flushed2_eq V c) fun i =>
    ⟨t0_7, (flush0_2 t0_7).mpr rfl, by
      show i ∈ ((View.whole main_v0_0).slice (win0_2.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_2.index t0_7 0 * win0_2.size 0 ≤ (i 0 : Nat)
          ∧ (i 0 : Nat) < win0_2.index t0_7 0 * win0_2.size 0 + win0_2.xsize (grid0.coords t0_7) 0
        rw [show win0_2.index t0_7 0 * win0_2.size 0 = 0 from by decide +kernel,
          show win0_2.xsize (grid0.coords t0_7) 0 = 1 from by decide +kernel]
        omega
      | ⟨1, _⟩ =>
        show win0_2.index t0_7 1 * win0_2.size 1 ≤ (i 1 : Nat)
          ∧ (i 1 : Nat) < win0_2.index t0_7 1 * win0_2.size 1 + win0_2.xsize (grid0.coords t0_7) 1
        rw [show win0_2.index t0_7 1 * win0_2.size 1 = 0 from by decide +kernel,
          show win0_2.xsize (grid0.coords t0_7) 1 = 512 from by decide +kernel]
        omega⟩

/-- What window 3's array receives: the second accumulator as the last point leaves it. -/
abbrev res3 (c : Dev nD) : Buf (Elt Ideal) ((c : Thread nD τ).loc main_v0_1) := (acc0 (F := Ideal) V c 7 last_lt).2.1

/-- Window 3 is written back at the last point only, and what is written is the whole row: the block is the array. -/
theorem flushed3_eq (c : Dev nD) (t : Fin cfg0.N) (hf : (cfg0.win 3).flush t = true) :
    (dat0 (F := Ideal) V c).flushed 3 t = ((cfg0.win 3).blk t).view.read (Elt Ideal) (res3 V c) := by
  have hN : cfg0.N = 8 := N_0
  have h7 : t.val = 7 := by have := (flush0_3 t).mp hf; have := t.isLt; omega
  obtain rfl : t = t0_7 := Fin.ext h7
  show (cfg0.win 3).cut (grid0.coords t0_7) ((dat0 (F := Ideal) V c).after 3 t0_7) = _
  rw [after0_3]
  have hz : (fun a => win0_3.index t0_7 a * main_v0_1.ty.shape.size a) = fun _ => 0 :=
    funext fun a => by fin_cases a <;> decide
  exact (Memref.read_access_unit_zero (Elt Ideal) main_v0_1 hz (fun a => by rw [congrFun hz a]; simp) (res3 V c)).symm

/-- So after the run window 3's array holds that accumulator: the last point's block covers every index. -/
theorem final3 (c : Dev nD) : (dat0 (F := Ideal) V c).arrAt 3 cfg0.N = res3 V c :=
  (dat0 (F := Ideal) V c).arrAt_eq_of_cover 3 (res3 V c) (flushed3_eq V c) fun i =>
    ⟨t0_7, (flush0_3 t0_7).mpr rfl, by
      show i ∈ ((View.whole main_v0_1).slice (win0_3.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_3.index t0_7 0 * win0_3.size 0 ≤ (i 0 : Nat)
          ∧ (i 0 : Nat) < win0_3.index t0_7 0 * win0_3.size 0 + win0_3.xsize (grid0.coords t0_7) 0
        rw [show win0_3.index t0_7 0 * win0_3.size 0 = 0 from by decide +kernel,
          show win0_3.xsize (grid0.coords t0_7) 0 = 1 from by decide +kernel]
        omega
      | ⟨1, _⟩ =>
        show win0_3.index t0_7 1 * win0_3.size 1 ≤ (i 1 : Nat)
          ∧ (i 1 : Nat) < win0_3.index t0_7 1 * win0_3.size 1 + win0_3.xsize (grid0.coords t0_7) 1
        rw [show win0_3.index t0_7 1 * win0_3.size 1 = 0 from by decide +kernel,
          show win0_3.xsize (grid0.coords t0_7) 1 = 512 from by decide +kernel]
        omega⟩

/-- What window 4's array receives: the third accumulator as the last point leaves it. -/
abbrev res4 (c : Dev nD) : Buf (Elt Ideal) ((c : Thread nD τ).loc main_v0_2) := (acc0 (F := Ideal) V c 7 last_lt).2.2.1

/-- Window 4 is written back at the last point only, and what is written is the whole row: the block is the array. -/
theorem flushed4_eq (c : Dev nD) (t : Fin cfg0.N) (hf : (cfg0.win 4).flush t = true) :
    (dat0 (F := Ideal) V c).flushed 4 t = ((cfg0.win 4).blk t).view.read (Elt Ideal) (res4 V c) := by
  have hN : cfg0.N = 8 := N_0
  have h7 : t.val = 7 := by have := (flush0_4 t).mp hf; have := t.isLt; omega
  obtain rfl : t = t0_7 := Fin.ext h7
  show (cfg0.win 4).cut (grid0.coords t0_7) ((dat0 (F := Ideal) V c).after 4 t0_7) = _
  rw [after0_4]
  have hz : (fun a => win0_4.index t0_7 a * main_v0_2.ty.shape.size a) = fun _ => 0 :=
    funext fun a => by fin_cases a <;> decide
  exact (Memref.read_access_unit_zero (Elt Ideal) main_v0_2 hz (fun a => by rw [congrFun hz a]; simp) (res4 V c)).symm

/-- So after the run window 4's array holds that accumulator: the last point's block covers every index. -/
theorem final4 (c : Dev nD) : (dat0 (F := Ideal) V c).arrAt 4 cfg0.N = res4 V c :=
  (dat0 (F := Ideal) V c).arrAt_eq_of_cover 4 (res4 V c) (flushed4_eq V c) fun i =>
    ⟨t0_7, (flush0_4 t0_7).mpr rfl, by
      show i ∈ ((View.whole main_v0_2).slice (win0_4.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_4.index t0_7 0 * win0_4.size 0 ≤ (i 0 : Nat)
          ∧ (i 0 : Nat) < win0_4.index t0_7 0 * win0_4.size 0 + win0_4.xsize (grid0.coords t0_7) 0
        rw [show win0_4.index t0_7 0 * win0_4.size 0 = 0 from by decide +kernel,
          show win0_4.xsize (grid0.coords t0_7) 0 = 1 from by decide +kernel]
        omega
      | ⟨1, _⟩ =>
        show win0_4.index t0_7 1 * win0_4.size 1 ≤ (i 1 : Nat)
          ∧ (i 1 : Nat) < win0_4.index t0_7 1 * win0_4.size 1 + win0_4.xsize (grid0.coords t0_7) 1
        rw [show win0_4.index t0_7 1 * win0_4.size 1 = 0 from by decide +kernel,
          show win0_4.xsize (grid0.coords t0_7) 1 = 512 from by decide +kernel]
        omega⟩

/-- What window 5's array receives: the fourth accumulator as the last point leaves it. -/
abbrev res5 (c : Dev nD) : Buf (Elt Ideal) ((c : Thread nD τ).loc main_v0_3) := (acc0 (F := Ideal) V c 7 last_lt).2.2.2

/-- Window 5 is written back at the last point only, and what is written is the whole row: the block is the array. -/
theorem flushed5_eq (c : Dev nD) (t : Fin cfg0.N) (hf : (cfg0.win 5).flush t = true) :
    (dat0 (F := Ideal) V c).flushed 5 t = ((cfg0.win 5).blk t).view.read (Elt Ideal) (res5 V c) := by
  have hN : cfg0.N = 8 := N_0
  have h7 : t.val = 7 := by have := (flush0_5 t).mp hf; have := t.isLt; omega
  obtain rfl : t = t0_7 := Fin.ext h7
  show (cfg0.win 5).cut (grid0.coords t0_7) ((dat0 (F := Ideal) V c).after 5 t0_7) = _
  rw [after0_5]
  have hz : (fun a => win0_5.index t0_7 a * main_v0_3.ty.shape.size a) = fun _ => 0 :=
    funext fun a => by fin_cases a <;> decide
  exact (Memref.read_access_unit_zero (Elt Ideal) main_v0_3 hz (fun a => by rw [congrFun hz a]; simp) (res5 V c)).symm

/-- So after the run window 5's array holds that accumulator: the last point's block covers every index. -/
theorem final5 (c : Dev nD) : (dat0 (F := Ideal) V c).arrAt 5 cfg0.N = res5 V c :=
  (dat0 (F := Ideal) V c).arrAt_eq_of_cover 5 (res5 V c) (flushed5_eq V c) fun i =>
    ⟨t0_7, (flush0_5 t0_7).mpr rfl, by
      show i ∈ ((View.whole main_v0_3).slice (win0_5.rect t0_7)).set
      rw [View.set_slice_whole, Rect.mem_set_unit]
      intro a
      have h0 : (i 0 : Nat) < 1 := (i 0).isLt
      have h1 : (i 1 : Nat) < 512 := (i 1).isLt
      match a with
      | ⟨0, _⟩ =>
        show win0_5.index t0_7 0 * win0_5.size 0 ≤ (i 0 : Nat)
          ∧ (i 0 : Nat) < win0_5.index t0_7 0 * win0_5.size 0 + win0_5.xsize (grid0.coords t0_7) 0
        rw [show win0_5.index t0_7 0 * win0_5.size 0 = 0 from by decide +kernel,
          show win0_5.xsize (grid0.coords t0_7) 0 = 1 from by decide +kernel]
        omega
      | ⟨1, _⟩ =>
        show win0_5.index t0_7 1 * win0_5.size 1 ≤ (i 1 : Nat)
          ∧ (i 1 : Nat) < win0_5.index t0_7 1 * win0_5.size 1 + win0_5.xsize (grid0.coords t0_7) 1
        rw [show win0_5.index t0_7 1 * win0_5.size 1 = 0 from by decide +kernel,
          show win0_5.xsize (grid0.coords t0_7) 1 = 512 from by decide +kernel]
        omega⟩

/-! ## The four column statistics -/

theorem arr0_sum_a (c : Dev nD) (d : Fin 512) :
    (dat0 (F := Ideal) V c).arrAt 2 cfg0.N (ix2 (0 : Fin 1) d) = colSum (V c main_arg0) d := by
  refine (congrFun (final2 V c) (ix2 (0 : Fin 1) d)).trans ?_
  refine (acc_sum_a V c d 7 last_lt).trans ?_
  refine (sum_tiles (rowAt (V c main_arg0) d)).trans ?_
  exact Finset.sum_congr rfl fun n _ => rowAt_fin (V c main_arg0) d n
theorem arr0_sumsq_a (c : Dev nD) (d : Fin 512) :
    (dat0 (F := Ideal) V c).arrAt 3 cfg0.N (ix2 (0 : Fin 1) d) = colSumSq (V c main_arg0) d := by
  refine (congrFun (final3 V c) (ix2 (0 : Fin 1) d)).trans ?_
  refine (acc_sumsq_a V c d 7 last_lt).trans ?_
  refine (sum_tiles (fun n => rowAt (V c main_arg0) d n * rowAt (V c main_arg0) d n)).trans ?_
  exact Finset.sum_congr rfl fun n _ => by rw [rowAt_fin (V c main_arg0) d n]
theorem arr0_sum_b (c : Dev nD) (d : Fin 512) :
    (dat0 (F := Ideal) V c).arrAt 4 cfg0.N (ix2 (0 : Fin 1) d) = colSum (V c main_arg1) d := by
  refine (congrFun (final4 V c) (ix2 (0 : Fin 1) d)).trans ?_
  refine (acc_sum_b V c d 7 last_lt).trans ?_
  refine (sum_tiles (rowAt (V c main_arg1) d)).trans ?_
  exact Finset.sum_congr rfl fun n _ => rowAt_fin (V c main_arg1) d n
theorem arr0_sumsq_b (c : Dev nD) (d : Fin 512) :
    (dat0 (F := Ideal) V c).arrAt 5 cfg0.N (ix2 (0 : Fin 1) d) = colSumSq (V c main_arg1) d := by
  refine (congrFun (final5 V c) (ix2 (0 : Fin 1) d)).trans ?_
  refine (acc_sumsq_b V c d 7 last_lt).trans ?_
  refine (sum_tiles (fun n => rowAt (V c main_arg1) d n * rowAt (V c main_arg1) d n)).trans ?_
  exact Finset.sum_congr rfl fun n _ => by rw [rowAt_fin (V c main_arg1) d n]

end Cert.KernelIdeal.Hand

end
-- ==== Proof.KV.Trip1.lean ====
/-
  One trip of the main region's inner loop, over the extended reals: from a 512 by 512 tile of the first input, 512
  rows of the second, the two means and reciprocal deviations and the two label vectors it adds to the carried scalar
  the sum over the tile of the squared difference between the scaled inner product of the normalised rows and the mask.
-/
import proofs.«132247_j36120674959540_1_alg».proof.Proof.Spec
import proofs.«132247_j36120674959540_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

/-- One cell of a tile: row p of the first tile against row q of the second. -/
def cellT (xa xb : S512x512.Idx → EReal) (ma ia mb ib : S1x512.Idx → EReal)
    (lr : S512x1.Idx → BitVec 32) (lc : S1x512.Idx → BitVec 32) (p q : Fin 512) : EReal :=
  (Ideal.div (∑ d : Fin 512, ((xa (ix2 p d) - ma (ix2 (0 : Fin 1) d)) * ia (ix2 (0 : Fin 1) d)) * ((xb (ix2 q d) - mb (ix2 (0 : Fin 1) d)) * ib (ix2 (0 : Fin 1) d))) ((512 : ℝ) : EReal)
      - (if lr (ix2 p (0 : Fin 1)) = lc (ix2 (0 : Fin 1) q) then 1 else 0))
    * (Ideal.div (∑ d : Fin 512, ((xa (ix2 p d) - ma (ix2 (0 : Fin 1) d)) * ia (ix2 (0 : Fin 1) d)) * ((xb (ix2 q d) - mb (ix2 (0 : Fin 1) d)) * ib (ix2 (0 : Fin 1) d))) ((512 : ℝ) : EReal)
      - (if lr (ix2 p (0 : Fin 1)) = lc (ix2 (0 : Fin 1) q) then 1 else 0))

/-! ## Layout steps the tile needs -/

/-- A column broadcast over many: an `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to a column: an `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The normalised tile -/

/-- A tile with each column's mean removed and the column scaled. -/
def normT (x : FVec Ideal S512x512 .f32) (m i : FVec Ideal S1x512 .f32) : FVec Ideal S512x512 .bf16 :=
  truncf .bf16 (mulf (subf x (broadcastTo S512x512 (shapeCast S1x512 m shapeCasts_S1x512_S1x512) broadcasts_S1x512_S512x512))
    (broadcastTo S512x512 (shapeCast S1x512 i shapeCasts_S1x512_S1x512) broadcasts_S1x512_S512x512)) bitsLt_bf16_f32

theorem normT_apply (x : FVec Ideal S512x512 .f32) (m i : FVec Ideal S1x512 .f32) (p d : Fin 512) :
    normT x m i (ix2 p d) = (x (ix2 p d) - m (ix2 (0 : Fin 1) d)) * i (ix2 (0 : Fin 1) d) := by
  unfold normT
  rw [truncf_apply, mulf_apply, subf_apply, broadcastTo_1b_ab_apply, broadcastTo_1b_ab_apply, shapeCast_self, shapeCast_self]

/-! ## The product of two tiles -/

theorem lhs_dot_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
theorem lhs_dot_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem rhs_dot_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
theorem rhs_dot_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- Rows of the first tile against rows of the second: the second transposed, then the matrix product into zero. -/
def dotT (a b : FVec Ideal S512x512 .bf16) : FVec Ideal S512x512 .f32 :=
  matmul dot_S512x512_S512x512_S512x512_1_0_0_1_n_n none a (transpose S512x512 [1, 0] b transposes_S512x512_p1_0_S512x512)
    (constant (F := Ideal) S512x512 .f32 0x00000000#32)

theorem dotT_apply (a b : FVec Ideal S512x512 .bf16) (p q : Fin 512) :
    dotT a b (ix2 p q) = ∑ d : Fin 512, a (ix2 p d) * b (ix2 q d) := by
  unfold dotT
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k :=
    funext fun ax => Fin.ext (by
      match ax with
      | ⟨0, _⟩ => exact lhs_dot_0 _ _
      | ⟨1, _⟩ => exact (lhs_dot_1 _ _).trans hk)
  have er : dot_S512x512_S512x512_S512x512_1_0_0_1_n_n.rhsIdx (ix2 p q) ((contrEquiv1 dot_S512x512_S512x512_S512x512_1_0_0_1_n_n 512 rfl rfl).symm k) = ix2 k q :=
    funext fun ax => Fin.ext (by
      match ax with
      | ⟨0, _⟩ => exact (rhs_dot_0 _ _).trans hk
      | ⟨1, _⟩ => exact rhs_dot_1 _ _)
  rw [el, er, transpose_ix2_apply]

/-! ## The label mask -/

/-- One where the row's label is the column's, zero elsewhere. -/
def maskT (lr : IVec S512x1 32) (lc : IVec S1x512 32) : FVec Ideal S512x512 .f32 :=
  sitofp .f32 (extui 32 (cmpi .eq (broadcastTo S512x512 (shapeCast S512x1 lr shapeCasts_S512x1_S512x1) broadcasts_S512x1_S512x512)
    (broadcastTo S512x512 (shapeCast S1x512 lc shapeCasts_S1x512_S1x512) broadcasts_S1x512_S512x512)) natLt_1_32)

/-- A one-bit equality test, widened and read signed, is one or zero. -/
theorem eqWord_value (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · subst h
    rw [if_pos rfl]
    have e : (IntOp.cmpi .eq x x).setWidth 32 = 1#32 := by
      show (BitVec.ofBool (x == x)).setWidth 32 = 1#32
      rw [beq_self_eq_true]; rfl
    rw [e]
    have : (1#32 : BitVec 32).toInt = 1 := by decide
    rw [this]; norm_num
  · rw [if_neg h]
    have e : (IntOp.cmpi .eq x y).setWidth 32 = 0#32 := by
      show (BitVec.ofBool (x == y)).setWidth 32 = 0#32
      rw [beq_eq_false_iff_ne.mpr h]; rfl
    rw [e]
    have : (0#32 : BitVec 32).toInt = 0 := by decide
    rw [this]; norm_num

theorem maskT_apply (lr : IVec S512x1 32) (lc : IVec S1x512 32) (p q : Fin 512) :
    maskT lr lc (ix2 p q) = if lr (ix2 p (0 : Fin 1)) = lc (ix2 (0 : Fin 1) q) then 1 else 0 := by
  unfold maskT
  rw [sitofp_apply, extui_apply]
  show FloatOps.sitofp (F := Ideal) .f32 ((IntOp.cmpi .eq (broadcastTo S512x512 (shapeCast S512x1 lr shapeCasts_S512x1_S512x1) broadcasts_S512x1_S512x512 (ix2 p q))
    (broadcastTo S512x512 (shapeCast S1x512 lc shapeCasts_S1x512_S1x512) broadcasts_S1x512_S512x512 (ix2 p q))).setWidth 32) = _
  rw [broadcastTo_a1_ab_apply, broadcastTo_1b_ab_apply, shapeCast_self, shapeCast_self]
  exact eqWord_value _ _

/-! ## The squared difference -/

/-- The product scaled by 1/512, less the mask, squared. -/
def sqT (g mk : FVec Ideal S512x512 .f32) : FVec Ideal S512x512 .f32 :=
  mulf (subf (divf g (broadcast S512x512 (Scalar.ofBits (F := Ideal) .f32 0x44000000#32))) mk)
    (subf (divf g (broadcast S512x512 (Scalar.ofBits (F := Ideal) .f32 0x44000000#32))) mk)

theorem sqT_apply (g mk : FVec Ideal S512x512 .f32) (j : S512x512.Idx) :
    sqT g mk j = (Ideal.div (g j) ((512 : ℝ) : EReal) - mk j) * (Ideal.div (g j) ((512 : ℝ) : EReal) - mk j) := by
  unfold sqT
  rw [mulf_apply, subf_apply, divf_apply, broadcast_apply]
  show (Ideal.div (g j) (Ideal.ofBits .f32 0x44000000#32) - mk j) * (Ideal.div (g j) (Ideal.ofBits .f32 0x44000000#32) - mk j) = _
  rw [ofBits_512]

/-! ## The two sums -/

/-- The sum along the rows, then down the column of row sums, as a one by one array. -/
def totT (s : FVec Ideal S512x512 .f32) : FVec Ideal S1x1 .f32 :=
  shapeCast S1x1 (multiReduction .add [0] S1
    (shapeCast S512x1 (multiReduction .add [1] S512 s 0x00000000#32 reduces_S512x512_S512 (.inl rfl) rfl) shapeCasts_S512_S512x1)
    0x00000000#32 reduces_S512x1_S1 (.inl rfl) rfl) shapeCasts_S1_S1x1

theorem rowSum_apply (s : FVec Ideal S512x512 .f32) (p : Fin 512) :
    multiReduction .add [1] S512 s 0x00000000#32 reduces_S512x512_S512 (.inl rfl) rfl (ix1 p) = ∑ q : Fin 512, s (ix2 p q) := by
  refine (Ideal.multiReduction_add_single _ _ _ _ _ (ix1 p)).trans ?_
  refine Finset.sum_congr rfl fun q _ => congrArg s ?_
  funext c
  apply Fin.ext
  match c with
  | ⟨0, _⟩ => rfl
  | ⟨1, _⟩ => rfl

theorem colSum_apply (v : FVec Ideal S512x1 .f32) :
    multiReduction .add [0] S1 v 0x00000000#32 reduces_S512x1_S1 (.inl rfl) rfl (ix1 (0 : Fin 1)) = ∑ p : Fin 512, v (ix2 p (0 : Fin 1)) := by
  refine (Ideal.multiReduction_add_single _ _ _ _ _ (ix1 (0 : Fin 1))).trans ?_
  refine Finset.sum_congr rfl fun p _ => congrArg v ?_
  funext c
  apply Fin.ext
  match c with
  | ⟨0, _⟩ => rfl
  | ⟨1, _⟩ => rfl

theorem totT_apply (s : FVec Ideal S512x512 .f32) :
    totT s (ix2 (0 : Fin 1) (0 : Fin 1)) = ∑ p : Fin 512, ∑ q : Fin 512, s (ix2 p q) := by
  unfold totT
  refine (shapeCast_a_1a_apply _ _ (0 : Fin 1) (0 : Fin 1)).trans ?_
  refine (colSum_apply _).trans ?_
  refine Finset.sum_congr rfl fun p _ => ?_
  refine (shapeCast_a_a1_apply _ _ p (0 : Fin 1)).trans ?_
  exact rowSum_apply s p

/-! ## The trip -/

/-- The payload is the carried scalar plus the total of the squared differences of the two normalised tiles. -/
theorem k1_pay3_eq (xa : Vec Ideal S512x512 .f32) (ma ia : Vec Ideal S1x512 .f32) (lr : Vec Ideal S512x1 .i32)
    (acc : FVec Ideal S1x1 .f32) (xb : Vec Ideal S512x512 .f32) (mb ib : Vec Ideal S1x512 .f32) (lc : Vec Ideal S1x512 .i32) :
    k1_pay3 (F := Ideal) xa ma ia lr acc xb mb ib lc
      = addf acc (totT (sqT (dotT (normT xa ma ia) (normT xb mb ib)) (maskT lr lc))) := rfl

/-- The trip's payload read at its one index. -/
theorem k1_pay3_apply (xa : Vec Ideal S512x512 .f32) (ma ia : Vec Ideal S1x512 .f32) (lr : Vec Ideal S512x1 .i32)
    (acc : FVec Ideal S1x1 .f32) (xb : Vec Ideal S512x512 .f32) (mb ib : Vec Ideal S1x512 .f32) (lc : Vec Ideal S1x512 .i32) :
    k1_pay3 (F := Ideal) xa ma ia lr acc xb mb ib lc (ix2 (0 : Fin 1) (0 : Fin 1))
      = acc (ix2 (0 : Fin 1) (0 : Fin 1)) + ∑ p : Fin 512, ∑ q : Fin 512, cellT xa xb ma ia mb ib lr lc p q := by
  rw [k1_pay3_eq, addf_apply, totT_apply]
  refine congrArg (acc (ix2 (0 : Fin 1) (0 : Fin 1)) + ·) (Finset.sum_congr rfl fun p _ => Finset.sum_congr rfl fun q _ => ?_)
  rw [sqT_apply, dotT_apply, maskT_apply]
  simp only [normT_apply]
  rfl

end Cert.KernelIdeal.Hand

end
-- ==== Proof.KV.Val1.lean ====
/-
  What the main region leaves in its one output array, over the extended reals: the sum over all 8192 by 8192 pairs of
  rows of the squared difference between the scaled inner product of the two normalised rows and the label mask — 16
  grid points of 512 rows of the first input, at each 16 loop trips of 512 rows of the second, each trip a 512 by 512
  tile's sum, all added to an accumulator that starts from zero.
-/
import proofs.«132247_j36120674959540_1_alg».proof.Proof.Spec
import proofs.«132247_j36120674959540_1_alg».proof.Proof.KI.Defs1
import proofs.«132247_j36120674959540_1_alg».proof.Proof.KV.Trip1
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

-- the TensorCore's buffer contents when the region is entered, over the extended reals
variable (V : (c : Dev nD) → (b : Ref sig .tc) → Buf (Elt Ideal) ((c : Thread nD τ).loc b))

/-- One cell over the whole arrays: row i of the first input against row j of the second. -/
def cell1 (A B : S8192x512.Idx → EReal) (ma ia mb ib : S1x512.Idx → EReal)
    (lr : S8192x1.Idx → BitVec 32) (lc : S1x8192.Idx → BitVec 32) (i j : Fin 8192) : EReal :=
  (Ideal.div (∑ d : Fin 512, ((A (ix2 i d) - ma (ix2 (0 : Fin 1) d)) * ia (ix2 (0 : Fin 1) d)) * ((B (ix2 j d) - mb (ix2 (0 : Fin 1) d)) * ib (ix2 (0 : Fin 1) d))) ((512 : ℝ) : EReal)
      - (if lr (ix2 i (0 : Fin 1)) = lc (ix2 (0 : Fin 1) j) then 1 else 0))
    * (Ideal.div (∑ d : Fin 512, ((A (ix2 i d) - ma (ix2 (0 : Fin 1) d)) * ia (ix2 (0 : Fin 1) d)) * ((B (ix2 j d) - mb (ix2 (0 : Fin 1) d)) * ib (ix2 (0 : Fin 1) d))) ((512 : ℝ) : EReal)
      - (if lr (ix2 i (0 : Fin 1)) = lc (ix2 (0 : Fin 1) j) then 1 else 0))

/-! ## Rows of the big arrays by tile and row inside the tile -/

/-- Row p of tile t. -/
def row1 (t : Fin 16) (p : Fin 512) : Fin 8192 := ⟨512 * t.val + p.val, by have := t.isLt; have := p.isLt; omega⟩

theorem sum_rows1 {M : Type} [AddCommMonoid M] (g : Fin 8192 → M) :
    ∑ i : Fin 8192, g i = ∑ t : Fin 16, ∑ p : Fin 512, g (row1 t p) := by
  rw [← Fintype.sum_prod_type']
  refine (Equiv.sum_comp (finProdFinEquiv (m := 16) (n := 512)) g).symm.trans (Fintype.sum_congr _ _ fun x => congrArg g (Fin.ext ?_))
  show x.2.val + 512 * x.1.val = 512 * x.1.val + x.2.val
  omega

theorem sum_pairs1 {M : Type} [AddCommMonoid M] (f : Fin 8192 → Fin 8192 → M) :
    ∑ i : Fin 8192, ∑ j : Fin 8192, f i j
      = ∑ t : Fin 16, ∑ k : Fin 16, ∑ p : Fin 512, ∑ q : Fin 512, f (row1 t p) (row1 k q) :=
  calc ∑ i : Fin 8192, ∑ j : Fin 8192, f i j
      = ∑ t : Fin 16, ∑ p : Fin 512, ∑ j : Fin 8192, f (row1 t p) j := sum_rows1 _
    _ = ∑ t : Fin 16, ∑ p : Fin 512, ∑ k : Fin 16, ∑ q : Fin 512, f (row1 t p) (row1 k q) :=
        Fintype.sum_congr _ _ fun t => Fintype.sum_congr _ _ fun p => sum_rows1 _
    _ = ∑ t : Fin 16, ∑ k : Fin 16, ∑ p : Fin 512, ∑ q : Fin 512, f (row1 t p) (row1 k q) :=
        Fintype.sum_congr _ _ fun t => Finset.sum_comm

theorem trips1_eq : k1_t1_loop.trips = 16 := by decide +kernel

/-! ## The loads of a trip, read at an index -/

theorem ldB1_apply (xb : Vec Ideal S8192x512 .f32) (k : Fin k1_t1_loop.trips) (hk : k.val < 16) (q d : Fin 512) :
    View.ld xb (rB k) (ix2 q d) = xb (ix2 (row1 ⟨k.val, hk⟩ q) d) := by
  show xb _ = xb _
  congr 1
  funext a
  apply Fin.ext
  match a with
  | ⟨0, _⟩ =>
    show (k1_off1 k) 0 + 1 * q.val = 512 * k.val + q.val
    rw [k1_off1_eq k]; show 512 * k.val + 1 * q.val = _; omega
  | ⟨1, _⟩ =>
    show (k1_off1 k) 1 + 1 * d.val = d.val
    rw [k1_off1_eq k]; show 0 + 1 * d.val = _; omega

theorem ldL1_apply (lc : Vec Ideal S1x8192 .i32) (k : Fin k1_t1_loop.trips) (hk : k.val < 16) (q : Fin 512) :
    View.ld lc (rL k) (ix2 (0 : Fin 1) q) = lc (ix2 (0 : Fin 1) (row1 ⟨k.val, hk⟩ q)) := by
  show lc _ = lc _
  congr 1
  funext a
  apply Fin.ext
  match a with
  | ⟨0, _⟩ =>
    show (k1_off2 k) 0 + 1 * 0 = 0
    rw [k1_off2_eq k]; rfl
  | ⟨1, _⟩ =>
    show (k1_off2 k) 1 + 1 * q.val = 512 * k.val + q.val
    rw [k1_off2_eq k]; show 512 * k.val + 1 * q.val = _; omega

/-! ## The small payloads and the inner loop, read at the one index -/

theorem k1_pay2_apply (i : S1x1.Idx) : k1_pay2 (F := Ideal) i = 0 := by
  unfold k1_pay2
  exact Ideal.ofBits_zero_f32

theorem k1_pay1_apply (i : S1x1.Idx) : k1_pay1 (F := Ideal) i = 0 := by
  unfold k1_pay1
  refine (congrFun (shapeCast_self _ shapeCasts_S1x1_S1x1) i).trans ?_
  exact Ideal.ofBits_zero_f32

theorem k1_pay4_apply (tot : FVec Ideal S1x1 .f32) (s : Vec Ideal S1x1 .f32) (i : S1x1.Idx) :
    k1_pay4 (F := Ideal) tot s i = s i + tot i := by
  unfold k1_pay4
  exact congrFun (shapeCast_self (addf s tot) shapeCasts_S1x1_S1x1) i

/-- One cell of a row tile against the whole second input: row p of the tile, row j of the second input. -/
def cellH1 (xa : S512x512.Idx → EReal) (B : S8192x512.Idx → EReal) (ma ia mb ib : S1x512.Idx → EReal)
    (lr : S512x1.Idx → BitVec 32) (lc : S1x8192.Idx → BitVec 32) (p : Fin 512) (j : Fin 8192) : EReal :=
  (Ideal.div (∑ d : Fin 512, ((xa (ix2 p d) - ma (ix2 (0 : Fin 1) d)) * ia (ix2 (0 : Fin 1) d)) * ((B (ix2 j d) - mb (ix2 (0 : Fin 1) d)) * ib (ix2 (0 : Fin 1) d))) ((512 : ℝ) : EReal)
      - (if lr (ix2 p (0 : Fin 1)) = lc (ix2 (0 : Fin 1) j) then 1 else 0))
    * (Ideal.div (∑ d : Fin 512, ((xa (ix2 p d) - ma (ix2 (0 : Fin 1) d)) * ia (ix2 (0 : Fin 1) d)) * ((B (ix2 j d) - mb (ix2 (0 : Fin 1) d)) * ib (ix2 (0 : Fin 1) d))) ((512 : ℝ) : EReal)
      - (if lr (ix2 p (0 : Fin 1)) = lc (ix2 (0 : Fin 1) j) then 1 else 0))

/-- What trip k adds: its tile's sum (nothing past the last trip). -/
def tripSum1 (xa : Vec Ideal S512x512 .f32) (xb : Vec Ideal S8192x512 .f32) (ma ia mb ib : Vec Ideal S1x512 .f32)
    (lr : Vec Ideal S512x1 .i32) (lc : Vec Ideal S1x8192 .i32) (k : ℕ) : EReal :=
  if h : k < k1_t1_loop.trips then
    ∑ p : Fin 512, ∑ q : Fin 512, cellT xa (View.ld xb (rB ⟨k, h⟩)) ma ia mb ib lr (View.ld lc (rL ⟨k, h⟩)) p q
  else 0

theorem loop1_apply (xa : Vec Ideal S512x512 .f32) (xb : Vec Ideal S8192x512 .f32) (ma ia mb ib : Vec Ideal S1x512 .f32)
    (lr : Vec Ideal S512x1 .i32) (lc : Vec Ideal S1x8192 .i32) :
    ∀ n : ℕ, loop1 xa xb ma ia mb ib lr lc n (ix2 (0 : Fin 1) (0 : Fin 1)) = ∑ k ∈ Finset.range n, tripSum1 xa xb ma ia mb ib lr lc k
  | 0 => by
    rw [loop1_zero, Finset.range_zero, Finset.sum_empty]
    exact k1_pay2_apply _
  | n + 1 => by
    rw [Finset.sum_range_succ, ← loop1_apply xa xb ma ia mb ib lr lc n, loop1.eq_2]
    unfold tripSum1
    by_cases h : n < k1_t1_loop.trips
    · rw [dif_pos h, dif_pos h]
      exact k1_pay3_apply xa ma ia lr (loop1 xa xb ma ia mb ib lr lc n) (View.ld xb (rB ⟨n, h⟩)) mb ib (View.ld lc (rL ⟨n, h⟩))
    · rw [dif_neg h, dif_neg h, add_zero]

theorem tripSum1_eq (xa : Vec Ideal S512x512 .f32) (xb : Vec Ideal S8192x512 .f32) (ma ia mb ib : Vec Ideal S1x512 .f32)
    (lr : Vec Ideal S512x1 .i32) (lc : Vec Ideal S1x8192 .i32) (k : Fin 16) :
    tripSum1 xa xb ma ia mb ib lr lc k.val = ∑ p : Fin 512, ∑ q : Fin 512, cellH1 xa xb ma ia mb ib lr lc p (row1 k q) := by
  have h : k.val < k1_t1_loop.trips := by rw [trips1_eq]; exact k.isLt
  unfold tripSum1
  rw [dif_pos h]
  refine Fintype.sum_congr _ _ fun p => Fintype.sum_congr _ _ fun q => ?_
  unfold cellT cellH1
  simp only [ldB1_apply xb ⟨k.val, h⟩ k.isLt, ldL1_apply lc ⟨k.val, h⟩ k.isLt]

/-- A point's total, over the whole arrays, once its blocks are read off them. -/
theorem point1_sum (xa : Vec Ideal S512x512 .f32) (xb : Vec Ideal S8192x512 .f32) (ma ia mb ib : Vec Ideal S1x512 .f32)
    (lr : Vec Ideal S512x1 .i32) (lc : Vec Ideal S1x8192 .i32)
    (A B : S8192x512.Idx → EReal) (MA IA MB IB : S1x512.Idx → EReal) (LR : S8192x1.Idx → BitVec 32) (LC : S1x8192.Idx → BitVec 32)
    (t : Fin 16) (hA : ∀ (p d : Fin 512), xa (ix2 p d) = A (ix2 (row1 t p) d))
    (hL : ∀ p : Fin 512, lr (ix2 p (0 : Fin 1)) = LR (ix2 (row1 t p) (0 : Fin 1)))
    (hB : xb = B) (hma : ma = MA) (hia : ia = IA) (hmb : mb = MB) (hib : ib = IB) (hlc : lc = LC) :
    loop1 xa xb ma ia mb ib lr lc k1_t1_loop.trips (ix2 (0 : Fin 1) (0 : Fin 1))
      = ∑ k : Fin 16, ∑ p : Fin 512, ∑ q : Fin 512, cell1 A B MA IA MB IB LR LC (row1 t p) (row1 k q) := by
  subst hB hma hia hmb hib hlc
  rw [loop1_apply, trips1_eq, Finset.sum_range]
  refine Fintype.sum_congr _ _ fun k => ?_
  rw [tripSum1_eq]
  refine Fintype.sum_congr _ _ fun p => Fintype.sum_congr _ _ fun q => ?_
  unfold cellH1 cell1
  simp only [hA, hL]

/-! ## The windows' blocks, read off the arrays -/

theorem idx1_0 : ∀ t : Fin cfg1.N, win1_0.index t 0 = t.val ∧ win1_0.index t 1 = 0 :=
  (by decide +kernel : ∀ t : Fin grid1.N, win1_0.index t 0 = t.val ∧ win1_0.index t 1 = 0)

/-- The first window's block at point t is rows 512·t … of the first input. -/
theorem xa1_apply (c : Dev nD) (t : Fin cfg1.N) (ht : t.val < 16) (p d : Fin 512) :
    xa1 V c t (ix2 p d) = (V c main_arg0 : S8192x512.Idx → EReal) (ix2 (row1 ⟨t.val, ht⟩ p) d) := by
  have hi := idx1_0 t
  show ((cfg1.win 0).blk t).view.read (Elt Ideal) (V c (Pipeline.arrRef spec1 0)) (ix2 p d) = _
  rw [View.read_apply]
  show V c main_arg0 _ = V c main_arg0 _
  congr 1
  funext a
  apply Fin.ext
  match a with
  | ⟨0, _⟩ => show win1_0.index t 0 * 512 + 1 * p.val = 512 * t.val + p.val; rw [hi.1]; omega
  | ⟨1, _⟩ => show win1_0.index t 1 * 512 + 1 * d.val = d.val; rw [hi.2]; omega

theorem idx1_6 : ∀ t : Fin cfg1.N, win1_6.index t 0 = t.val ∧ win1_6.index t 1 = 0 :=
  (by decide +kernel : ∀ t : Fin grid1.N, win1_6.index t 0 = t.val ∧ win1_6.index t 1 = 0)

/-- The row labels' block at point t is rows 512·t … of the label column. -/
theorem lr1_apply (c : Dev nD) (t : Fin cfg1.N) (ht : t.val < 16) (p : Fin 512) :
    lr1 V c t (ix2 p (0 : Fin 1)) = (V c main_v19 : S8192x1.Idx → BitVec 32) (ix2 (row1 ⟨t.val, ht⟩ p) (0 : Fin 1)) := by
  have hi := idx1_6 t
  show ((cfg1.win 6).blk t).view.read (Elt Ideal) (V c (Pipeline.arrRef spec1 6)) (ix2 p (0 : Fin 1)) = _
  rw [View.read_apply]
  show V c main_v19 _ = V c main_v19 _
  congr 1
  funext a
  apply Fin.ext
  match a with
  | ⟨0, _⟩ => show win1_6.index t 0 * 512 + 1 * p.val = 512 * t.val + p.val; rw [hi.1]; omega
  | ⟨1, _⟩ => show win1_6.index t 1 * 1 + 1 * 0 = 0; rw [hi.2]

theorem idx1_1 : ∀ t : Fin cfg1.N, win1_1.index t 0 = 0 ∧ win1_1.index t 1 = 0 :=
  (by decide +kernel : ∀ t : Fin grid1.N, win1_1.index t 0 = 0 ∧ win1_1.index t 1 = 0)

theorem xb1_eq (c : Dev nD) (t : Fin cfg1.N) : xb1 V c t = (V c main_arg1 : S8192x512.Idx → EReal) := by
  have hi := idx1_1 t
  funext x
  show ((cfg1.win 1).blk t).view.read (Elt Ideal) (V c (Pipeline.arrRef spec1 1)) x = _
  rw [View.read_apply]
  show V c main_arg1 _ = V c main_arg1 x
  congr 1
  funext a
  apply Fin.ext
  match a with
  | ⟨0, _⟩ => show win1_1.index t 0 * 8192 + 1 * (x 0).val = (x 0).val; rw [hi.1]; omega
  | ⟨1, _⟩ => show win1_1.index t 1 * 512 + 1 * (x 1).val = (x 1).val; rw [hi.2]; omega

theorem idx1_2 : ∀ t : Fin cfg1.N, win1_2.index t 0 = 0 ∧ win1_2.index t 1 = 0 :=
  (by decide +kernel : ∀ t : Fin grid1.N, win1_2.index t 0 = 0 ∧ win1_2.index t 1 = 0)

theorem ma1_eq (c : Dev nD) (t : Fin cfg1.N) : ma1 V c t = (V c main_v2 : S1x512.Idx → EReal) := by
  have hi := idx1_2 t
  funext x
  show ((cfg1.win 2).blk t).view.read (Elt Ideal) (V c (Pipeline.arrRef spec1 2)) x = _
  rw [View.read_apply]
  show V c main_v2 _ = V c main_v2 x
  congr 1
  funext a
  apply Fin.ext
  match a with
  | ⟨0, _⟩ => show win1_2.index t 0 * 1 + 1 * (x 0).val = (x 0).val; rw [hi.1]; omega
  | ⟨1, _⟩ => show win1_2.index t 1 * 512 + 1 * (x 1).val = (x 1).val; rw [hi.2]; omega

theorem idx1_3 : ∀ t : Fin cfg1.N, win1_3.index t 0 = 0 ∧ win1_3.index t 1 = 0 :=
  (by decide +kernel : ∀ t : Fin grid1.N, win1_3.index t 0 = 0 ∧ win1_3.index t 1 = 0)

theorem ia1_eq (c : Dev nD) (t : Fin cfg1.N) : ia1 V c t = (V c main_v9 : S1x512.Idx → EReal) := by
  have hi := idx1_3 t
  funext x
  show ((cfg1.win 3).blk t).view.read (Elt Ideal) (V c (Pipeline.arrRef spec1 3)) x = _
  rw [View.read_apply]
  show V c main_v9 _ = V c main_v9 x
  congr 1
  funext a
  apply Fin.ext
  match a with
  | ⟨0, _⟩ => show win1_3.index t 0 * 1 + 1 * (x 0).val = (x 0).val; rw [hi.1]; omega
  | ⟨1, _⟩ => show win1_3.index t 1 * 512 + 1 * (x 1).val = (x 1).val; rw [hi.2]; omega

theorem idx1_4 : ∀ t : Fin cfg1.N, win1_4.index t 0 = 0 ∧ win1_4.index t 1 = 0 :=
  (by decide +kernel : ∀ t : Fin grid1.N, win1_4.index t 0 = 0 ∧ win1_4.index t 1 = 0)

theorem mb1_eq (c : Dev nD) (t : Fin cfg1.N) : mb1 V c t = (V c main_v11 : S1x512.Idx → EReal) := by
  have hi := idx1_4 t
  funext x
  show ((cfg1.win 4).blk t).view.read (Elt Ideal) (V c (Pipeline.arrRef spec1 4)) x = _
  rw [View.read_apply]
  show V c main_v11 _ = V c main_v11 x
  congr 1
  funext a
  apply Fin.ext
  match a with
  | ⟨0, _⟩ => show win1_4.index t 0 * 1 + 1 * (x 0).val = (x 0).val; rw [hi.1]; omega
  | ⟨1, _⟩ => show win1_4.index t 1 * 512 + 1 * (x 1).val = (x 1).val; rw [hi.2]; omega

theorem idx1_5 : ∀ t : Fin cfg1.N, win1_5.index t 0 = 0 ∧ win1_5.index t 1 = 0 :=
  (by decide +kernel : ∀ t : Fin grid1.N, win1_5.index t 0 = 0 ∧ win1_5.index t 1 = 0)

theorem ib1_eq (c : Dev nD) (t : Fin cfg1.N) : ib1 V c t = (V c main_v18 : S1x512.Idx → EReal) := by
  have hi := idx1_5 t
  funext x
  show ((cfg1.win 5).blk t).view.read (Elt Ideal) (V c (Pipeline.arrRef spec1 5)) x = _
  rw [View.read_apply]
  show V c main_v18 _ = V c main_v18 x
  congr 1
  funext a
  apply Fin.ext
  match a with
  | ⟨0, _⟩ => show win1_5.index t 0 * 1 + 1 * (x 0).val = (x 0).val; rw [hi.1]; omega
  | ⟨1, _⟩ => show win1_5.index t 1 * 512 + 1 * (x 1).val = (x 1).val; rw [hi.2]; omega

theorem idx1_7 : ∀ t : Fin cfg1.N, win1_7.index t 0 = 0 ∧ win1_7.index t 1 = 0 :=
  (by decide +kernel : ∀ t : Fin grid1.N, win1_7.index t 0 = 0 ∧ win1_7.index t 1 = 0)

theorem lc1_eq (c : Dev nD) (t : Fin cfg1.N) : lc1 V c t = (V c main_v20 : S1x8192.Idx → BitVec 32) := by
  have hi := idx1_7 t
  funext x
  show ((cfg1.win 7).blk t).view.read (Elt Ideal) (V c (Pipeline.arrRef spec1 7)) x = _
  rw [View.read_apply]
  show V c main_v20 _ = V c main_v20 x
  congr 1
  funext a
  apply Fin.ext
  match a with
  | ⟨0, _⟩ => show win1_7.index t 0 * 1 + 1 * (x 0).val = (x 0).val; rw [hi.1]; omega
  | ⟨1, _⟩ => show win1_7.index t 1 * 8192 + 1 * (x 1).val = (x 1).val; rw [hi.2]; omega

/-! ## A point's total over the whole arrays, and the accumulator over the grid -/

theorem tot1_apply (c : Dev nD) (t : Fin cfg1.N) (ht : t.val < 16) :
    tot1 V c t (ix2 (0 : Fin 1) (0 : Fin 1))
      = ∑ k : Fin 16, ∑ p : Fin 512, ∑ q : Fin 512,
          cell1 (V c main_arg0) (V c main_arg1) (V c main_v2) (V c main_v9) (V c main_v11) (V c main_v18) (V c main_v19) (V c main_v20) (row1 ⟨t.val, ht⟩ p) (row1 k q) :=
  point1_sum (xa1 V c t) (xb1 V c t) (ma1 V c t) (ia1 V c t) (mb1 V c t) (ib1 V c t) (lr1 V c t) (lc1 V c t)
    (V c main_arg0) (V c main_arg1) (V c main_v2) (V c main_v9) (V c main_v11) (V c main_v18) (V c main_v19) (V c main_v20)
    ⟨t.val, ht⟩ (xa1_apply V c t ht) (lr1_apply V c t ht) (xb1_eq V c t) (ma1_eq V c t) (ia1_eq V c t) (mb1_eq V c t) (ib1_eq V c t) (lc1_eq V c t)

/-- A point's total at the one index (nothing past the grid). -/
def ptot1 (c : Dev nD) (t : ℕ) : EReal :=
  if h : t < cfg1.N then tot1 V c ⟨t, h⟩ (ix2 (0 : Fin 1) (0 : Fin 1)) else 0

/-- After point n the accumulator holds the totals of the points up to n, added from zero. -/
theorem acc1_apply (c : Dev nD) : ∀ (n : ℕ) (hn : n < cfg1.N),
    acc1 V c n hn (ix2 (0 : Fin 1) (0 : Fin 1)) = ∑ t ∈ Finset.range (n + 1), ptot1 V c t
  | 0, hn => by
    rw [acc1_zero, Finset.sum_range_one]
    refine (k1_pay4_apply _ _ _).trans ?_
    rw [k1_pay1_apply, zero_add]
    unfold ptot1; rw [dif_pos hn]
  | n + 1, hn => by
    rw [acc1_succ, Finset.sum_range_succ, ← acc1_apply c n (Nat.lt_of_succ_lt hn)]
    refine (k1_pay4_apply _ _ _).trans ?_
    unfold ptot1; rw [dif_pos hn]

/-! ## The output array after the run -/

theorem last1_lt : 15 < cfg1.N := by rw [show cfg1.N = 16 from N_1]; decide

/-- What the output array ends holding: the accumulator after the last point. -/
abbrev out1 (c : Dev nD) : Buf (Elt Ideal) ((c : Thread nD τ).loc main_v21) := acc1 V c 15 last1_lt

/-- The one write-back, at the last point, writes the accumulator: the block is the whole one-entry array. -/
theorem flushed1_8_eq (c : Dev nD) (t : Fin cfg1.N) (hf : (cfg1.win 8).flush t = true) :
    (dat1 V c).flushed 8 t = ((cfg1.win 8).blk t).view.read (Elt Ideal) (out1 V c) := by
  have hN : cfg1.N = 16 := N_1
  have h15 : t.val = 15 := by have := (flush1_8 t).mp hf; have := t.isLt; omega
  obtain rfl : t = t1_15 := Fin.ext h15
  show (cfg1.win 8).cut (grid1.coords t1_15) ((dat1 V c).after 8 t1_15) = _
  rw [after1_8]
  have hz' : (fun a => win1_8.index t1_15 a * main_v21.ty.shape.size a) = fun _ => 0 := funext fun a => by fin_cases a <;> decide
  exact (Memref.read_access_unit_zero (Elt Ideal) main_v21 hz' (fun a => by rw [congrFun hz' a]; simp) (out1 V c)).symm

theorem final1_8 (c : Dev nD) : (dat1 V c).arrAt 8 cfg1.N = out1 V c :=
  (dat1 V c).arrAt_eq_of_cover 8 (out1 V c) (flushed1_8_eq V c) fun i =>
    ⟨t1_15, (flush1_8 t1_15).mpr rfl, by
      show i ∈ ((View.whole main_v21).slice (win1_8.rect t1_15)).set
      rw [View.set_slice_whole, Rect.mem_set_unit]
      intro a
      have h0 : (i 0 : Nat) < 1 := (i 0).isLt
      have h1 : (i 1 : Nat) < 1 := (i 1).isLt
      match a with
      | ⟨0, _⟩ => show win1_8.index t1_15 0 * win1_8.size 0 ≤ (i 0 : Nat) ∧ (i 0 : Nat) < win1_8.index t1_15 0 * win1_8.size 0 + win1_8.xsize (grid1.coords t1_15) 0
                  rw [show win1_8.index t1_15 0 * win1_8.size 0 = 0 from by decide +kernel, show win1_8.xsize (grid1.coords t1_15) 0 = 1 from by decide +kernel]; omega
      | ⟨1, _⟩ => show win1_8.index t1_15 1 * win1_8.size 1 ≤ (i 1 : Nat) ∧ (i 1 : Nat) < win1_8.index t1_15 1 * win1_8.size 1 + win1_8.xsize (grid1.coords t1_15) 1
                  rw [show win1_8.index t1_15 1 * win1_8.size 1 = 0 from by decide +kernel, show win1_8.xsize (grid1.coords t1_15) 1 = 1 from by decide +kernel]; omega⟩

theorem arr1_total (c : Dev nD) :
    (dat1 (F := Ideal) V c).arrAt 8 cfg1.N (ix2 (0 : Fin 1) (0 : Fin 1))
      = ∑ i : Fin 8192, ∑ j : Fin 8192, cell1 (V c main_arg0) (V c main_arg1) (V c main_v2) (V c main_v9) (V c main_v11) (V c main_v18) (V c main_v19) (V c main_v20) i j := by
  have hN : cfg1.N = 16 := N_1
  have e : (dat1 (F := Ideal) V c).arrAt 8 cfg1.N (ix2 (0 : Fin 1) (0 : Fin 1)) = acc1 V c 15 last1_lt (ix2 (0 : Fin 1) (0 : Fin 1)) :=
    congrFun (final1_8 V c) _
  have h1 : acc1 V c 15 last1_lt (ix2 (0 : Fin 1) (0 : Fin 1))
      = ∑ i : Fin 8192, ∑ j : Fin 8192, cell1 (V c main_arg0) (V c main_arg1) (V c main_v2) (V c main_v9) (V c main_v11) (V c main_v18) (V c main_v19) (V c main_v20) i j := by
    rw [acc1_apply, sum_pairs1, Finset.sum_range]
    refine Fintype.sum_congr _ _ fun t => ?_
    have ht : t.val < cfg1.N := by rw [hN]; exact t.isLt
    unfold ptot1
    rw [dif_pos ht]
    exact tot1_apply V c ⟨t.val, ht⟩ t.isLt
  exact e.trans h1

end Cert.KernelIdeal.Hand

end
-- ==== Proof.KV.Value.lean ====
/-
  The kernel program's result over the extended reals: the statistics region's column sums and sums of squares go
  through the host operations between the regions (mean = sum / 8192, variance = (sum of squares - sum² / 8192) / 8191,
  its reciprocal root; the labels as a column and as a row), the main region's double sum is taken at those, and the
  last reshape hands the 1 by 1 result over as a scalar: the specification's kLoss of the three argument arrays.
-/
import proofs.«132247_j36120674959540_1_alg».proof.Proof.Spec
import proofs.«132247_j36120674959540_1_alg».proof.Proof.KI.Fold
import proofs.«132247_j36120674959540_1_alg».proof.Proof.KV.Val0
import proofs.«132247_j36120674959540_1_alg».proof.Proof.KV.Val1
import proofs.«132247_j36120674959540_1_alg».proof.Proof.Gen.KernelIdeal.Regions
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (m : (ℓ : Loc nD τ sig) → Buf (Elt Ideal) ℓ) (ρ : Dev nD → PrngReg)

/-! ## The last reshape and the main region's output array -/

/-- The program's scalar result is the main region's 1 by 1 output at its one entry. -/
theorem W4_v22 (c : Dev nD) :
    W4 (F := Ideal) m ρ c (Proc.devRef .tc main_v22) ix0
      = W3 (F := Ideal) m ρ c (Proc.devRef .tc main_v21) (ix2 (0 : Fin 1) (0 : Fin 1)) := by
  show StableHlo.after hostOps2 _ (Proc.devRef .tc main_v22) ix0 = _
  after_results
  show shapeCast S_ (W3 (F := Ideal) m ρ c (Proc.devRef .tc main_v21) : S1x1.Idx → EReal) shapeCasts_S1x1_S_ ix0 = _
  refine shapeCast_apply _ shapeCasts_S1x1_S_ ix0 (ix2 (0 : Fin 1) (0 : Fin 1)) ?_
  have h0 : (S_.rowMajor ix0).val = 0 := Shape.rowMajorPi_zero _ _
  rw [Shape.rowMajor_val_two, h0]
  rfl

/-- The main region's output array after the region is what its write-back leaves. -/
theorem W3_v21 (c : Dev nD) :
    W3 (F := Ideal) m ρ c (Proc.devRef .tc main_v21) = (dat1 (V2 (F := Ideal) m ρ) c).arrAt 8 cfg1.N :=
  W3_arr (F := Ideal) m ρ c 8

/-! ## The argument arrays at the main region's entry -/

/-- No host operation and no write-back of the statistics region touches the first input. -/
theorem V2_arg0 (c : Dev nD) : V2 (F := Ideal) m ρ c main_arg0 = m ((c : Thread nD τ).loc main_arg0) := by
  show StableHlo.after hostOps1 (W1 (F := Ideal) m ρ c) (Proc.devRef .tc main_arg0) = _
  rw [StableHlo.after_of_writes_sub hostOps1 _ hostOps1_writes (by decide)]
  refine (W1_arr (F := Ideal) m ρ c 0).trans ?_
  rw [Dat.arrAt_in _ 0 rfl, A_eq0]

/-- Nor the second. -/
theorem V2_arg1 (c : Dev nD) : V2 (F := Ideal) m ρ c main_arg1 = m ((c : Thread nD τ).loc main_arg1) := by
  show StableHlo.after hostOps1 (W1 (F := Ideal) m ρ c) (Proc.devRef .tc main_arg1) = _
  rw [StableHlo.after_of_writes_sub hostOps1 _ hostOps1_writes (by decide)]
  refine (W1_arr (F := Ideal) m ρ c 1).trans ?_
  rw [Dat.arrAt_in _ 1 rfl, A_eq0]

/-- The labels, which the statistics region does not see, are as launched when the host operations read them. -/
theorem W1_arg2 (c : Dev nD) :
    W1 (F := Ideal) m ρ c (Proc.devRef .tc main_arg2) = m ((c : Thread nD τ).loc main_arg2) :=
  W1_of_ne (F := Ideal) m ρ c main_arg2 (by decide)

/-! ## The host operations between the regions, read at a column -/

/-- A quotient by the broadcast constant 8192. -/
theorem div8192_read (s : FVec Ideal S1x512 .f32) (d : Fin 512) :
    Host.divf (F := Ideal) s (broadcastInDim S1x512 ![] bcast_S_S1x512 (constant (F := Ideal) S_ .f32 0x46000000#32)) (ix2 (0 : Fin 1) d)
      = Ideal.div (s (ix2 (0 : Fin 1) d)) ((8192 : ℝ) : EReal) := by
  rw [hostDivf_apply, broadcastInDim_scalar_apply, constant_apply, ofBits_8192]

/-- A quotient by the broadcast constant 8191. -/
theorem div8191_read (s : FVec Ideal S1x512 .f32) (d : Fin 512) :
    Host.divf (F := Ideal) s (broadcastInDim S1x512 ![] bcast_S_S1x512 (constant (F := Ideal) S_ .f32 0x45FFF800#32)) (ix2 (0 : Fin 1) d)
      = Ideal.div (s (ix2 (0 : Fin 1) d)) ((8191 : ℝ) : EReal) := by
  rw [hostDivf_apply, broadcastInDim_scalar_apply, constant_apply, ofBits_8191]

/-- The reciprocal root of the variance formed from a sum s and a sum of squares q. -/
theorem rsqrtVar_read (s q : FVec Ideal S1x512 .f32) (d : Fin 512) :
    Host.rsqrt (F := Ideal)
        (Host.divf (F := Ideal)
          (subf q (Host.divf (F := Ideal) (mulf s s)
            (broadcastInDim S1x512 ![] bcast_S_S1x512 (constant (F := Ideal) S_ .f32 0x46000000#32))))
          (broadcastInDim S1x512 ![] bcast_S_S1x512 (constant (F := Ideal) S_ .f32 0x45FFF800#32))) (ix2 (0 : Fin 1) d)
      = Ideal.rsqrt (Ideal.div (q (ix2 (0 : Fin 1) d)
          - Ideal.div (s (ix2 (0 : Fin 1) d) * s (ix2 (0 : Fin 1) d)) ((8192 : ℝ) : EReal)) ((8191 : ℝ) : EReal)) := by
  show FloatOps.hostUnary .rsqrt (Host.divf (F := Ideal) _ _ (ix2 (0 : Fin 1) d)) = _
  rw [Ideal.hostUnary_rsqrt_def, div8191_read, subf_apply, div8192_read, mulf_apply]

/-! ## The statistics region's outputs as the host operations read them -/

theorem W1_sum_a (c : Dev nD) (d : Fin 512) :
    W1 (F := Ideal) m ρ c (Proc.devRef .tc main_v0_0) (ix2 (0 : Fin 1) d) = colSum (m ((c : Thread nD τ).loc main_arg0)) d :=
  (congrFun (W1_arr (F := Ideal) m ρ c 2) (ix2 (0 : Fin 1) d)).trans (arr0_sum_a (V0 (F := Ideal) m ρ) c d)
theorem W1_sumsq_a (c : Dev nD) (d : Fin 512) :
    W1 (F := Ideal) m ρ c (Proc.devRef .tc main_v0_1) (ix2 (0 : Fin 1) d) = colSumSq (m ((c : Thread nD τ).loc main_arg0)) d :=
  (congrFun (W1_arr (F := Ideal) m ρ c 3) (ix2 (0 : Fin 1) d)).trans (arr0_sumsq_a (V0 (F := Ideal) m ρ) c d)
theorem W1_sum_b (c : Dev nD) (d : Fin 512) :
    W1 (F := Ideal) m ρ c (Proc.devRef .tc main_v0_2) (ix2 (0 : Fin 1) d) = colSum (m ((c : Thread nD τ).loc main_arg1)) d :=
  (congrFun (W1_arr (F := Ideal) m ρ c 4) (ix2 (0 : Fin 1) d)).trans (arr0_sum_b (V0 (F := Ideal) m ρ) c d)
theorem W1_sumsq_b (c : Dev nD) (d : Fin 512) :
    W1 (F := Ideal) m ρ c (Proc.devRef .tc main_v0_3) (ix2 (0 : Fin 1) d) = colSumSq (m ((c : Thread nD τ).loc main_arg1)) d :=
  (congrFun (W1_arr (F := Ideal) m ρ c 5) (ix2 (0 : Fin 1) d)).trans (arr0_sumsq_b (V0 (F := Ideal) m ρ) c d)

/-! ## The means, the reciprocal roots and the labels at the main region's entry -/

/-- The first input's column means. -/
theorem V2_v2 (c : Dev nD) (d : Fin 512) :
    V2 (F := Ideal) m ρ c main_v2 (ix2 (0 : Fin 1) d) = mean (m ((c : Thread nD τ).loc main_arg0)) d := by
  have e : (V2 (F := Ideal) m ρ c main_v2 : S1x512.Idx → EReal)
      = Host.divf (F := Ideal) (W1 (F := Ideal) m ρ c (Proc.devRef .tc main_v0_0))
          (broadcastInDim S1x512 ![] bcast_S_S1x512 (constant (F := Ideal) S_ .f32 0x46000000#32)) := by
    show StableHlo.after hostOps1 (W1 (F := Ideal) m ρ c) (Proc.devRef .tc main_v2) = _
    after_results_simp
  refine (congrFun e (ix2 (0 : Fin 1) d)).trans ?_
  rw [div8192_read, W1_sum_a]
  rfl

/-- The second input's column means. -/
theorem V2_v11 (c : Dev nD) (d : Fin 512) :
    V2 (F := Ideal) m ρ c main_v11 (ix2 (0 : Fin 1) d) = mean (m ((c : Thread nD τ).loc main_arg1)) d := by
  have e : (V2 (F := Ideal) m ρ c main_v11 : S1x512.Idx → EReal)
      = Host.divf (F := Ideal) (W1 (F := Ideal) m ρ c (Proc.devRef .tc main_v0_2))
          (broadcastInDim S1x512 ![] bcast_S_S1x512 (constant (F := Ideal) S_ .f32 0x46000000#32)) := by
    show StableHlo.after hostOps1 (W1 (F := Ideal) m ρ c) (Proc.devRef .tc main_v11) = _
    after_results_simp
  refine (congrFun e (ix2 (0 : Fin 1) d)).trans ?_
  rw [div8192_read, W1_sum_b]
  rfl

/-- The reciprocal roots of the first input's column variances. -/
theorem V2_v9 (c : Dev nD) (d : Fin 512) :
    V2 (F := Ideal) m ρ c main_v9 (ix2 (0 : Fin 1) d) = Ideal.rsqrt (kVar (m ((c : Thread nD τ).loc main_arg0)) d) := by
  have e : (V2 (F := Ideal) m ρ c main_v9 : S1x512.Idx → EReal)
      = Host.rsqrt (F := Ideal)
        (Host.divf (F := Ideal)
          (subf (W1 (F := Ideal) m ρ c (Proc.devRef .tc main_v0_1))
            (Host.divf (F := Ideal) (mulf (W1 (F := Ideal) m ρ c (Proc.devRef .tc main_v0_0)) (W1 (F := Ideal) m ρ c (Proc.devRef .tc main_v0_0)))
              (broadcastInDim S1x512 ![] bcast_S_S1x512 (constant (F := Ideal) S_ .f32 0x46000000#32))))
          (broadcastInDim S1x512 ![] bcast_S_S1x512 (constant (F := Ideal) S_ .f32 0x45FFF800#32))) := by
    show StableHlo.after hostOps1 (W1 (F := Ideal) m ρ c) (Proc.devRef .tc main_v9) = _
    after_results_simp
  refine (congrFun e (ix2 (0 : Fin 1) d)).trans ?_
  rw [rsqrtVar_read, W1_sum_a, W1_sumsq_a]
  rfl

/-- The reciprocal roots of the second input's column variances. -/
theorem V2_v18 (c : Dev nD) (d : Fin 512) :
    V2 (F := Ideal) m ρ c main_v18 (ix2 (0 : Fin 1) d) = Ideal.rsqrt (kVar (m ((c : Thread nD τ).loc main_arg1)) d) := by
  have e : (V2 (F := Ideal) m ρ c main_v18 : S1x512.Idx → EReal)
      = Host.rsqrt (F := Ideal)
        (Host.divf (F := Ideal)
          (subf (W1 (F := Ideal) m ρ c (Proc.devRef .tc main_v0_3))
            (Host.divf (F := Ideal) (mulf (W1 (F := Ideal) m ρ c (Proc.devRef .tc main_v0_2)) (W1 (F := Ideal) m ρ c (Proc.devRef .tc main_v0_2)))
              (broadcastInDim S1x512 ![] bcast_S_S1x512 (constant (F := Ideal) S_ .f32 0x46000000#32))))
          (broadcastInDim S1x512 ![] bcast_S_S1x512 (constant (F := Ideal) S_ .f32 0x45FFF800#32))) := by
    show StableHlo.after hostOps1 (W1 (F := Ideal) m ρ c) (Proc.devRef .tc main_v18) = _
    after_results_simp
  refine (congrFun e (ix2 (0 : Fin 1) d)).trans ?_
  rw [rsqrtVar_read, W1_sum_b, W1_sumsq_b]
  rfl

/-- The labels as a column: row i holds label i. -/
theorem V2_v19 (c : Dev nD) (i : Fin 8192) :
    V2 (F := Ideal) m ρ c main_v19 (ix2 i (0 : Fin 1)) = m ((c : Thread nD τ).loc main_arg2) (ix1 i) := by
  have e : (V2 (F := Ideal) m ρ c main_v19 : S8192x1.Idx → BitVec 32)
      = shapeCast S8192x1 (W1 (F := Ideal) m ρ c (Proc.devRef .tc main_arg2) : S8192.Idx → BitVec 32) shapeCasts_S8192_S8192x1 := by
    show StableHlo.after hostOps1 (W1 (F := Ideal) m ρ c) (Proc.devRef .tc main_v19) = _
    after_results_simp
    rfl
  refine (congrFun e (ix2 i (0 : Fin 1))).trans ?_
  refine (shapeCast_apply _ shapeCasts_S8192_S8192x1 (ix2 i (0 : Fin 1)) (ix1 i) ?_).trans ?_
  · rw [Shape.rowMajor_val_two, Shape.rowMajor_val_one]
    show i.val = i.val * 1 + 0
    omega
  · exact congrFun (W1_arg2 m ρ c) (ix1 i)

/-- The labels as a row: column j holds label j. -/
theorem V2_v20 (c : Dev nD) (j : Fin 8192) :
    V2 (F := Ideal) m ρ c main_v20 (ix2 (0 : Fin 1) j) = m ((c : Thread nD τ).loc main_arg2) (ix1 j) := by
  have e : (V2 (F := Ideal) m ρ c main_v20 : S1x8192.Idx → BitVec 32)
      = shapeCast S1x8192 (W1 (F := Ideal) m ρ c (Proc.devRef .tc main_arg2) : S8192.Idx → BitVec 32) shapeCasts_S8192_S1x8192 := by
    show StableHlo.after hostOps1 (W1 (F := Ideal) m ρ c) (Proc.devRef .tc main_v20) = _
    after_results_simp
    rfl
  refine (congrFun e (ix2 (0 : Fin 1) j)).trans ?_
  refine (shapeCast_apply _ shapeCasts_S8192_S1x8192 (ix2 (0 : Fin 1) j) (ix1 j) ?_).trans ?_
  · rw [Shape.rowMajor_val_two, Shape.rowMajor_val_one]
    show j.val = 0 * 8192 + j.val
    omega
  · exact congrFun (W1_arg2 m ρ c) (ix1 j)

/-! ## One cell of the main region's double sum, at those arrays -/

/-- With the means, the reciprocal roots and the labels read as above, a cell is the squared difference between the
    scaled inner product of the two normalised rows and the label mask. -/
theorem cell1_eq (a b : SA.Idx → EReal) (l : SL.Idx → BitVec 32) (A B : S8192x512.Idx → EReal)
    (ma ia mb ib : S1x512.Idx → EReal) (lr : S8192x1.Idx → BitVec 32) (lc : S1x8192.Idx → BitVec 32)
    (hA : A = a) (hB : B = b)
    (hma : ∀ d : Fin 512, ma (ix2 (0 : Fin 1) d) = mean a d)
    (hia : ∀ d : Fin 512, ia (ix2 (0 : Fin 1) d) = Ideal.rsqrt (kVar a d))
    (hmb : ∀ d : Fin 512, mb (ix2 (0 : Fin 1) d) = mean b d)
    (hib : ∀ d : Fin 512, ib (ix2 (0 : Fin 1) d) = Ideal.rsqrt (kVar b d))
    (hlr : ∀ i : Fin 8192, lr (ix2 i (0 : Fin 1)) = l (ix1 i))
    (hlc : ∀ j : Fin 8192, lc (ix2 (0 : Fin 1) j) = l (ix1 j))
    (i j : Fin 8192) :
    cell1 A B ma ia mb ib lr lc i j = (kC a b i j - mask l i j) * (kC a b i j - mask l i j) := by
  subst hA hB
  unfold cell1 kC kNorm mask
  simp only [hma, hia, hmb, hib, hlr, hlc]

/-- The double sum of the cells at the main region's entry arrays is the specification's sum. -/
theorem total_eq (c : Dev nD) :
    (∑ i : Fin 8192, ∑ j : Fin 8192,
        cell1 (V2 (F := Ideal) m ρ c main_arg0) (V2 (F := Ideal) m ρ c main_arg1) (V2 (F := Ideal) m ρ c main_v2)
          (V2 (F := Ideal) m ρ c main_v9) (V2 (F := Ideal) m ρ c main_v11) (V2 (F := Ideal) m ρ c main_v18)
          (V2 (F := Ideal) m ρ c main_v19) (V2 (F := Ideal) m ρ c main_v20) i j : EReal)
      = kLoss (m ((c : Thread nD τ).loc main_arg0)) (m ((c : Thread nD τ).loc main_arg1)) (m ((c : Thread nD τ).loc main_arg2)) := by
  unfold kLoss
  refine Finset.sum_congr rfl fun i _ => Finset.sum_congr rfl fun j _ => ?_
  exact cell1_eq (m ((c : Thread nD τ).loc main_arg0)) (m ((c : Thread nD τ).loc main_arg1)) (m ((c : Thread nD τ).loc main_arg2))
    (V2 (F := Ideal) m ρ c main_arg0) (V2 (F := Ideal) m ρ c main_arg1)
    (V2 (F := Ideal) m ρ c main_v2) (V2 (F := Ideal) m ρ c main_v9) (V2 (F := Ideal) m ρ c main_v11) (V2 (F := Ideal) m ρ c main_v18)
    (V2 (F := Ideal) m ρ c main_v19) (V2 (F := Ideal) m ρ c main_v20)
    (V2_arg0 m ρ c) (V2_arg1 m ρ c)
    (V2_v2 m ρ c) (V2_v9 m ρ c) (V2_v11 m ρ c) (V2_v18 m ρ c) (V2_v19 m ρ c) (V2_v20 m ρ c) i j

/-! ## The program's result -/

theorem kernel_value (c : Dev nD) :
    W4 (F := Ideal) m ρ c (Proc.devRef .tc main_v22) ix0
      = kLoss (m ((c : Thread nD τ).loc main_arg0)) (m ((c : Thread nD τ).loc main_arg1)) (m ((c : Thread nD τ).loc main_arg2)) :=
  (W4_v22 m ρ c).trans <|
    (congrFun (W3_v21 m ρ c) (ix2 (0 : Fin 1) (0 : Fin 1))).trans <|
      (arr1_total (V2 (F := Ideal) m ρ) c).trans (total_eq m ρ c)

end Cert.KernelIdeal.Hand

end
-- ==== Proof.RefTerm.lean ====
/-
  The reference computation as one pure term of its three argument arrays. Each of the two
  8192 × 512 arrays is standardised column by column: the column mean (the column sum over 8192)
  is subtracted and the difference divided by the column's standard deviation, the square root of
  the sum of squared deviations over 8192 − 1 (selected against a quiet NaN when that count is not
  positive). The two standardised arrays are multiplied, the first by the transpose of the second,
  into an 8192 × 8192 matrix, divided by 512; from it the indicator that the two integer labels of
  a row and a column agree is subtracted, the difference squared, and everything summed to a scalar.
  Every definition is a flat chain, one line per operation of the program, in program order; the
  three pieces the program computes twice (once per array) are stated once.
-/
import proofs.«132247_j36120674959540_1_alg».proof.Proof.Gen.ReferenceIdeal

noncomputable section

namespace Cert.ReferenceIdeal.RefValue

open Cert.ReferenceIdeal Cert.ReferenceIdeal.Gen Idealize.ShloMosaic Idealize.SL.Sem

variable {F : FTy → Type} [FloatOps F]

/-- The column means of `x`: the column sums from zero, over 8192
    (for `a`: main_cst, main_v0, main_cst_0, main_v1, main_v2; for `b`: main_cst_1, main_v10, main_cst_2, main_v11, main_v12). -/
def colMean (x : FVec F S8192x512 .f32) : FVec F S512 .f32 :=
  let cst : FVec F S_ .f32 := constant S_ .f32 0x00000000#32
  let v0 : FVec F S512 .f32 := Host.reduceAdd x cst reducesTo_S8192x512_S512_d0 h_S_
  let cst_0 : FVec F S_ .f32 := constant S_ .f32 0x46000000#32
  let v1 : FVec F S512 .f32 := broadcastInDim S512 ![] bcast_S_S512 cst_0
  let v2 : FVec F S512 .f32 := Host.divf v0 v1
  v2

/-- The column variances of `x` with `c` degrees of freedom removed, guarded: the sum of squared deviations from
    the column mean over `8192 − c`, where that count is positive, else a quiet NaN
    (for `a`: main_call0_call0_cst … main_call0_call0_cst_4, main_call0_call0_call0_v0, main_call0_call0_call0_v1, main_call0_v0;
    for `b`: the same names under main_call1, ending in main_call1_v0). -/
def colVar (x : FVec F S8192x512 .f32) (c : IVec S_ 32) : FVec F S512 .f32 :=
  let cst : FVec F S_ .f32 := constant S_ .f32 0x00000000#32
  let v0 : FVec F S512 .f32 := Host.reduceAdd x cst reducesTo_S8192x512_S512_d0 h_S_
  let v1 : FVec F S1x512 .f32 := broadcastInDim S1x512 ![1] bcast_S512_S1x512_1 v0
  let cst_0 : FVec F S_ .f32 := constant S_ .f32 0x46000000#32
  let v2 : FVec F S1x512 .f32 := broadcastInDim S1x512 ![] bcast_S_S1x512 cst_0
  let v3 : FVec F S1x512 .f32 := Host.divf v1 v2
  let v4 : FVec F S8192x512 .f32 := broadcastInDim S8192x512 ![0, 1] bcast_S1x512_S8192x512_0_1 v3
  let v5 : FVec F S8192x512 .f32 := subf x v4
  let v6 : FVec F S8192x512 .f32 := mulf v5 v5
  let v7 : FVec F S_ .f32 := sitofp .f32 c
  let cst_1 : FVec F S_ .f32 := constant S_ .f32 0x46000000#32
  let v8 : FVec F S_ .f32 := subf cst_1 v7
  let cst_2 : FVec F S_ .f32 := constant S_ .f32 0x00000000#32
  let v9 : FVec F S512 .f32 := Host.reduceAdd v6 cst_2 reducesTo_S8192x512_S512_d0 h_S_
  let v10 : FVec F S512 .f32 := broadcastInDim S512 ![] bcast_S_S512 v8
  let v11 : FVec F S512 .f32 := Host.divf v9 v10
  let cst_3 : FVec F S_ .f32 := constant S_ .f32 0x00000000#32
  let v12 : IVec S_ 1 := cmpf .ogt v8 cst_3
  let cst_4 : FVec F S_ .f32 := constant S_ .f32 0x7FC00000#32
  let where_v0 : FVec F S_ .f32 := id cst_4
  let where_v1 : FVec F S512 .f32 := broadcastInDim S512 ![] bcast_S_S512 where_v0
  let where_v2 : FVec F S512 .f32 := select (broadcastInDim S512 ![] bcast_S_S512 v12) v11 where_v1
  where_v2

/-- `x` standardised by the column means `mean` and the column deviations `std`
    (for `a`: main_v4 … main_v9; for `b`: main_v14 … main_v19). -/
def standardise (x : FVec F S8192x512 .f32) (mean std : FVec F S512 .f32) : FVec F S8192x512 .f32 :=
  let v4 : FVec F S1x512 .f32 := broadcastInDim S1x512 ![1] bcast_S512_S1x512_1 mean
  let v5 : FVec F S8192x512 .f32 := broadcastInDim S8192x512 ![0, 1] bcast_S1x512_S8192x512_0_1 v4
  let v6 : FVec F S8192x512 .f32 := subf x v5
  let v7 : FVec F S1x512 .f32 := broadcastInDim S1x512 ![1] bcast_S512_S1x512_1 std
  let v8 : FVec F S8192x512 .f32 := broadcastInDim S8192x512 ![0, 1] bcast_S1x512_S8192x512_0_1 v7
  let v9 : FVec F S8192x512 .f32 := Host.divf v6 v8
  v9

/-- The scalar the reference returns, of the two float arrays `a`, `b` and the integer labels `l`. -/
def refTerm (a b : FVec F S8192x512 .f32) (l : IVec S8192 32) : FVec F S_ .f32 :=
  -- `a` standardised
  let main_v2 : FVec F S512 .f32 := colMean a
  let main_c : IVec S_ 32 := constantI S_ 32 1#32
  let main_call0_v0 : FVec F S512 .f32 := colVar a main_c
  let main_v3 : FVec F S512 .f32 := Host.sqrt main_call0_v0
  let main_v9 : FVec F S8192x512 .f32 := standardise a main_v2 main_v3
  -- `b` standardised
  let main_v12 : FVec F S512 .f32 := colMean b
  let main_c_3 : IVec S_ 32 := constantI S_ 32 1#32
  let main_call1_v0 : FVec F S512 .f32 := colVar b main_c_3
  let main_v13 : FVec F S512 .f32 := Host.sqrt main_call1_v0
  let main_v19 : FVec F S8192x512 .f32 := standardise b main_v12 main_v13
  -- the cross-correlation matrix: the product with the transpose, over 512
  let main_v20 : FVec F S512x8192 .f32 := transpose S512x8192 [1, 0] main_v19 transposes_S8192x512_S512x8192_1_0
  let main_v21 : FVec F S8192x8192 .f32 := Host.dotGeneral dot_S8192x512_S512x8192_S8192x8192_1_0_0_1_n_n none main_v9 main_v20
  let main_cst_4 : FVec F S_ .f32 := constant S_ .f32 0x44000000#32
  let main_v22 : FVec F S8192x8192 .f32 := broadcastInDim S8192x8192 ![] bcast_S_S8192x8192 main_cst_4
  let main_v23 : FVec F S8192x8192 .f32 := Host.divf main_v21 main_v22
  -- the indicator that the labels of row and column agree
  let main_v24 : IVec S8192x1 32 := broadcastInDim S8192x1 ![0] bcast_S8192_S8192x1_0 l
  let main_v25 : IVec S1x8192 32 := broadcastInDim S1x8192 ![1] bcast_S8192_S1x8192_1 l
  let main_v26 : IVec S8192x8192 32 := broadcastInDim S8192x8192 ![0, 1] bcast_S8192x1_S8192x8192_0_1 main_v24
  let main_v27 : IVec S8192x8192 32 := broadcastInDim S8192x8192 ![0, 1] bcast_S1x8192_S8192x8192_0_1 main_v25
  let main_v28 : IVec S8192x8192 1 := cmpi .eq main_v26 main_v27
  let main_v29 : FVec F S8192x8192 .f32 := uitofp .f32 main_v28
  -- the squared difference, summed over the whole matrix
  let main_v30 : FVec F S8192x8192 .f32 := subf main_v23 main_v29
  let main_v31 : FVec F S8192x8192 .f32 := mulf main_v30 main_v30
  let main_cst_5 : FVec F S_ .f32 := constant S_ .f32 0x00000000#32
  let main_v32 : FVec F S_ .f32 := Host.reduceAdd main_v31 main_cst_5 reducesTo_S8192x8192_S_d0_1 h_S_
  main_v32

end Cert.ReferenceIdeal.RefValue

end
-- ==== Proof.RefRun.lean ====
/-
  The run of the reference program read back: its eighty-five operations in program order (the
  operations of each function it calls written at the call, over that call's buffers), the program
  as that straight line, and the statement that every weakly fair execution terminates with the
  result buffer at the composed term of the three argument arrays and the arguments unchanged.
-/
import proofs.«132247_j36120674959540_1_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the calls unfolded: six of its own (the column means of the first
    array and the integer one), the twenty-three of the first deviation (the guarded variance's nineteen,
    the selection's three, the square root), six standardising the first array, the same thirty-five for
    the second array, and the last fifteen (transpose, product, quotient, label indicator, squared
    difference, total). -/
abbrev ops : List (HloOp τ sig (Elt F)) :=
  [ nullary main_cst (constant S_ .f32 0x00000000#32),
    binary main_arg0 main_cst main_v0 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_0 (constant S_ .f32 0x46000000#32),
    unary main_cst_0 main_v1 (broadcastInDim S512 ![] bcast_S_S512 : (⟨S_, .f32⟩ : BufTy).Contents (Elt F) → (⟨S512, .f32⟩ : BufTy).Contents (Elt F)),
    binary main_v0 main_v1 main_v2 (Host.divf : (⟨S512, .f32⟩ : BufTy).Contents (Elt F) → (⟨S512, .f32⟩ : BufTy).Contents (Elt F) → (⟨S512, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S8192x512_S512_d0 h_S_),
    TRef.unary main_call0.call0.v0 main_call0.call0.v1 (broadcastInDim S1x512 ![1] bcast_S512_S1x512_1),
    TRef.nullary main_call0.call0.cst_0 (constant S_ .f32 0x46000000#32),
    TRef.unary main_call0.call0.cst_0 main_call0.call0.v2 (broadcastInDim S1x512 ![] bcast_S_S1x512),
    TRef.binary main_call0.call0.v1 main_call0.call0.v2 main_call0.call0.v3 Host.divf,
    TRef.unary main_call0.call0.v3 main_call0.call0.v4 (broadcastInDim S8192x512 ![0, 1] bcast_S1x512_S8192x512_0_1),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x46000000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8192x512_S512_d0 h_S_),
    TRef.unary main_call0.call0.v8 main_call0.call0.v10 (broadcastInDim S512 ![] bcast_S_S512),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S512 ![] bcast_S_S512),
    TRef.ternary main_call0.call0.v12 main_call0.call0.v11 main_call0.call0.call0.v1 main_call0.call0.call0.v2 (fun p a b => select (broadcastInDim S512 ![] bcast_S_S512 p) a b),
    TRef.unary main_call0.call0.call0.v2 main_call0.v1 Host.sqrt,
    unary main_v2 main_v4 (broadcastInDim S1x512 ![1] bcast_S512_S1x512_1 : (⟨S512, .f32⟩ : BufTy).Contents (Elt F) → (⟨S1x512, .f32⟩ : BufTy).Contents (Elt F)),
    unary main_v4 main_v5 (broadcastInDim S8192x512 ![0, 1] bcast_S1x512_S8192x512_0_1 : (⟨S1x512, .f32⟩ : BufTy).Contents (Elt F) → (⟨S8192x512, .f32⟩ : BufTy).Contents (Elt F)),
    binary main_arg0 main_v5 main_v6 (subf : (⟨S8192x512, .f32⟩ : BufTy).Contents (Elt F) → (⟨S8192x512, .f32⟩ : BufTy).Contents (Elt F) → (⟨S8192x512, .f32⟩ : BufTy).Contents (Elt F)),
    unary main_v3 main_v7 (broadcastInDim S1x512 ![1] bcast_S512_S1x512_1 : (⟨S512, .f32⟩ : BufTy).Contents (Elt F) → (⟨S1x512, .f32⟩ : BufTy).Contents (Elt F)),
    unary main_v7 main_v8 (broadcastInDim S8192x512 ![0, 1] bcast_S1x512_S8192x512_0_1 : (⟨S1x512, .f32⟩ : BufTy).Contents (Elt F) → (⟨S8192x512, .f32⟩ : BufTy).Contents (Elt F)),
    binary main_v6 main_v8 main_v9 (Host.divf : (⟨S8192x512, .f32⟩ : BufTy).Contents (Elt F) → (⟨S8192x512, .f32⟩ : BufTy).Contents (Elt F) → (⟨S8192x512, .f32⟩ : BufTy).Contents (Elt F)),
    nullary main_cst_1 (constant S_ .f32 0x00000000#32),
    binary main_arg1 main_cst_1 main_v10 ((fun x v => Host.reduceAdd x v reducesTo_S8192x512_S512_d0 h_S_) : (⟨S8192x512, .f32⟩ : BufTy).Contents (Elt F) → (⟨S_, .f32⟩ : BufTy).Contents (Elt F) → (⟨S512, .f32⟩ : BufTy).Contents (Elt F)),
    nullary main_cst_2 (constant S_ .f32 0x46000000#32),
    unary main_cst_2 main_v11 (broadcastInDim S512 ![] bcast_S_S512 : (⟨S_, .f32⟩ : BufTy).Contents (Elt F) → (⟨S512, .f32⟩ : BufTy).Contents (Elt F)),
    binary main_v10 main_v11 main_v12 (Host.divf : (⟨S512, .f32⟩ : BufTy).Contents (Elt F) → (⟨S512, .f32⟩ : BufTy).Contents (Elt F) → (⟨S512, .f32⟩ : BufTy).Contents (Elt F)),
    nullary main_c_3 (constantI S_ 32 1#32),
    TRef.nullary main_call1.call0.cst (constant S_ .f32 0x00000000#32),
    TRef.binary (.of main_arg1) main_call1.call0.cst main_call1.call0.v0 (fun x v => Host.reduceAdd x v reducesTo_S8192x512_S512_d0 h_S_),
    TRef.unary main_call1.call0.v0 main_call1.call0.v1 (broadcastInDim S1x512 ![1] bcast_S512_S1x512_1),
    TRef.nullary main_call1.call0.cst_0 (constant S_ .f32 0x46000000#32),
    TRef.unary main_call1.call0.cst_0 main_call1.call0.v2 (broadcastInDim S1x512 ![] bcast_S_S1x512),
    TRef.binary main_call1.call0.v1 main_call1.call0.v2 main_call1.call0.v3 Host.divf,
    TRef.unary main_call1.call0.v3 main_call1.call0.v4 (broadcastInDim S8192x512 ![0, 1] bcast_S1x512_S8192x512_0_1),
    TRef.binary (.of main_arg1) main_call1.call0.v4 main_call1.call0.v5 subf,
    TRef.binary main_call1.call0.v5 main_call1.call0.v5 main_call1.call0.v6 mulf,
    TRef.unary (.of main_c_3) main_call1.call0.v7 (sitofp .f32),
    TRef.nullary main_call1.call0.cst_1 (constant S_ .f32 0x46000000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S8192x512_S512_d0 h_S_),
    TRef.unary main_call1.call0.v8 main_call1.call0.v10 (broadcastInDim S512 ![] bcast_S_S512),
    TRef.binary main_call1.call0.v9 main_call1.call0.v10 main_call1.call0.v11 Host.divf,
    TRef.nullary main_call1.call0.cst_3 (constant S_ .f32 0x00000000#32),
    TRef.binary main_call1.call0.v8 main_call1.call0.cst_3 main_call1.call0.v12 (cmpf .ogt),
    TRef.nullary main_call1.call0.cst_4 (constant S_ .f32 0x7FC00000#32),
    TRef.unary main_call1.call0.cst_4 main_call1.call0.call0.v0 id,
    TRef.unary main_call1.call0.call0.v0 main_call1.call0.call0.v1 (broadcastInDim S512 ![] bcast_S_S512),
    TRef.ternary main_call1.call0.v12 main_call1.call0.v11 main_call1.call0.call0.v1 main_call1.call0.call0.v2 (fun p a b => select (broadcastInDim S512 ![] bcast_S_S512 p) a b),
    TRef.unary main_call1.call0.call0.v2 main_call1.v1 Host.sqrt,
    unary main_v12 main_v14 (broadcastInDim S1x512 ![1] bcast_S512_S1x512_1 : (⟨S512, .f32⟩ : BufTy).Contents (Elt F) → (⟨S1x512, .f32⟩ : BufTy).Contents (Elt F)),
    unary main_v14 main_v15 (broadcastInDim S8192x512 ![0, 1] bcast_S1x512_S8192x512_0_1 : (⟨S1x512, .f32⟩ : BufTy).Contents (Elt F) → (⟨S8192x512, .f32⟩ : BufTy).Contents (Elt F)),
    binary main_arg1 main_v15 main_v16 (subf : (⟨S8192x512, .f32⟩ : BufTy).Contents (Elt F) → (⟨S8192x512, .f32⟩ : BufTy).Contents (Elt F) → (⟨S8192x512, .f32⟩ : BufTy).Contents (Elt F)),
    unary main_v13 main_v17 (broadcastInDim S1x512 ![1] bcast_S512_S1x512_1 : (⟨S512, .f32⟩ : BufTy).Contents (Elt F) → (⟨S1x512, .f32⟩ : BufTy).Contents (Elt F)),
    unary main_v17 main_v18 (broadcastInDim S8192x512 ![0, 1] bcast_S1x512_S8192x512_0_1 : (⟨S1x512, .f32⟩ : BufTy).Contents (Elt F) → (⟨S8192x512, .f32⟩ : BufTy).Contents (Elt F)),
    binary main_v16 main_v18 main_v19 (Host.divf : (⟨S8192x512, .f32⟩ : BufTy).Contents (Elt F) → (⟨S8192x512, .f32⟩ : BufTy).Contents (Elt F) → (⟨S8192x512, .f32⟩ : BufTy).Contents (Elt F)),
    unary main_v19 main_v20 ((transpose S512x8192 [1, 0] · transposes_S8192x512_S512x8192_1_0) : (⟨S8192x512, .f32⟩ : BufTy).Contents (Elt F) → (⟨S512x8192, .f32⟩ : BufTy).Contents (Elt F)),
    binary main_v9 main_v20 main_v21 ((fun l r => Host.dotGeneral dot_S8192x512_S512x8192_S8192x8192_1_0_0_1_n_n none l r) : (⟨S8192x512, .f32⟩ : BufTy).Contents (Elt F) → (⟨S512x8192, .f32⟩ : BufTy).Contents (Elt F) → (⟨S8192x8192, .f32⟩ : BufTy).Contents (Elt F)),
    nullary main_cst_4 (constant S_ .f32 0x44000000#32),
    unary main_cst_4 main_v22 (broadcastInDim S8192x8192 ![] bcast_S_S8192x8192 : (⟨S_, .f32⟩ : BufTy).Contents (Elt F) → (⟨S8192x8192, .f32⟩ : BufTy).Contents (Elt F)),
    binary main_v21 main_v22 main_v23 (Host.divf : (⟨S8192x8192, .f32⟩ : BufTy).Contents (Elt F) → (⟨S8192x8192, .f32⟩ : BufTy).Contents (Elt F) → (⟨S8192x8192, .f32⟩ : BufTy).Contents (Elt F)),
    unary main_arg2 main_v24 (broadcastInDim S8192x1 ![0] bcast_S8192_S8192x1_0 : (⟨S8192, .i32⟩ : BufTy).Contents (Elt F) → (⟨S8192x1, .i32⟩ : BufTy).Contents (Elt F)),
    unary main_arg2 main_v25 (broadcastInDim S1x8192 ![1] bcast_S8192_S1x8192_1 : (⟨S8192, .i32⟩ : BufTy).Contents (Elt F) → (⟨S1x8192, .i32⟩ : BufTy).Contents (Elt F)),
    unary main_v24 main_v26 (broadcastInDim S8192x8192 ![0, 1] bcast_S8192x1_S8192x8192_0_1 : (⟨S8192x1, .i32⟩ : BufTy).Contents (Elt F) → (⟨S8192x8192, .i32⟩ : BufTy).Contents (Elt F)),
    unary main_v25 main_v27 (broadcastInDim S8192x8192 ![0, 1] bcast_S1x8192_S8192x8192_0_1 : (⟨S1x8192, .i32⟩ : BufTy).Contents (Elt F) → (⟨S8192x8192, .i32⟩ : BufTy).Contents (Elt F)),
    binary main_v26 main_v27 main_v28 (cmpi .eq : (⟨S8192x8192, .i32⟩ : BufTy).Contents (Elt F) → (⟨S8192x8192, .i32⟩ : BufTy).Contents (Elt F) → (⟨S8192x8192, .i1⟩ : BufTy).Contents (Elt F)),
    unary main_v28 main_v29 (uitofp .f32 : (⟨S8192x8192, .i1⟩ : BufTy).Contents (Elt F) → (⟨S8192x8192, .f32⟩ : BufTy).Contents (Elt F)),
    binary main_v23 main_v29 main_v30 (subf : (⟨S8192x8192, .f32⟩ : BufTy).Contents (Elt F) → (⟨S8192x8192, .f32⟩ : BufTy).Contents (Elt F) → (⟨S8192x8192, .f32⟩ : BufTy).Contents (Elt F)),
    binary main_v30 main_v30 main_v31 (mulf : (⟨S8192x8192, .f32⟩ : BufTy).Contents (Elt F) → (⟨S8192x8192, .f32⟩ : BufTy).Contents (Elt F) → (⟨S8192x8192, .f32⟩ : BufTy).Contents (Elt F)),
    nullary main_cst_5 (constant S_ .f32 0x00000000#32),
    binary main_v31 main_cst_5 main_v32 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)) ]

-- eighty-five binds re-associated: the rewrite under the chain recurses once per statement
set_option maxRecDepth 4096 in
set_option maxHeartbeats 1000000 in
/-- The program is that straight line: the functions' definitions unfolded at their calls, both sides are
    one chain of steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    unary_bufs_sub .., binary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., unary_bufs_sub ..,
    binary_bufs_sub .., unary_bufs_sub .., unary_bufs_sub .., binary_bufs_sub .., unary_bufs_sub .., binary_bufs_sub ..,
    nullary_bufs_sub .., unary_bufs_sub .., binary_bufs_sub .., unary_bufs_sub .., unary_bufs_sub .., unary_bufs_sub ..,
    unary_bufs_sub .., binary_bufs_sub .., unary_bufs_sub .., binary_bufs_sub .., binary_bufs_sub .., nullary_bufs_sub ..,
    binary_bufs_sub ..⟩

set_option maxHeartbeats 1600000 in
set_option maxRecDepth 8192 in
/-- On the device, for any float values, from any memory with zero counters: every weakly fair execution of the
    program terminates with the result at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v32) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v32).trans (by after_results_simp; rfl),
      (h c main_arg0).trans (by after_results_simp; first | done | rfl),
      (h c main_arg1).trans (by after_results_simp; first | done | rfl),
      (h c main_arg2).trans (by after_results_simp; first | done | rfl)⟩)
    (run_seq scopedRefs_eq scopedSems_eq defs main (fun _ => ops) main_eq (fun _ => ops_sub) m ρ)

end Cert.ReferenceIdeal.RefValue

end
-- ==== Proof.RefValue.lean ====
/-
  The reference's one term, read at the extended reals, is the specification's loss. Stage by stage, at an
  index given by its coordinates: a column's sum from the zero word is the sum of the column; the column mean is
  that sum over 8192; the guarded variance is the sum of the squared deviations from the mean over 8191 (the count
  8192 − 1 is positive, so the guard's select takes the quotient and the other branch is never looked at); a
  standardised entry is the deviation over the root of the variance; the product with the transpose contracts the
  512 columns; the scaled product less the indicator that two labels agree is squared; and the sum over the whole
  8192 × 8192 matrix is the double sum over rows and columns. Sums over the extended reals regroup freely, so no
  finiteness is asked.
-/
import proofs.«132247_j36120674959540_1_alg».proof.Proof.RefTerm
import proofs.«132247_j36120674959540_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx

/-! ## Broadcasts read at coordinates -/

section Broadcasts
variable {α : Type}

/-- A scalar spread over a vector of 512 reads the scalar. -/
theorem bcast_scalar_512 (v : S_.Idx → α) (d : Fin 512) :
    broadcastInDim S512 ![] bcast_S_S512 v (ix1 d) = v ix0 :=
  broadcastInDim_scalar_apply _ v _

/-- A scalar spread over a row of 512 reads the scalar. -/
theorem bcast_scalar_1x512 (v : S_.Idx → α) (z : Fin 1) (d : Fin 512) :
    broadcastInDim S1x512 ![] bcast_S_S1x512 v (ix2 z d) = v ix0 :=
  broadcastInDim_scalar_apply _ v _

/-- A scalar spread over the square matrix reads the scalar. -/
theorem bcast_scalar_sq (v : S_.Idx → α) (i j : Fin 8192) :
    broadcastInDim S8192x8192 ![] bcast_S_S8192x8192 v (ix2 i j) = v ix0 :=
  broadcastInDim_scalar_apply _ v _

/-- A vector of 512 laid as one row: entry (0, d) is entry d. -/
theorem bcast_row (v : S512.Idx → α) (z : Fin 1) (d : Fin 512) :
    broadcastInDim S1x512 ![1] bcast_S512_S1x512_1 v (ix2 z d) = v (ix1 d) :=
  broadcastInDim_apply _ _ v _ _ fun a => match a with | ⟨0, _⟩ => rfl

/-- One row of 512 repeated down 8192 rows: entry (n, d) is entry (0, d). -/
theorem bcast_rows (v : S1x512.Idx → α) (n : Fin 8192) (d : Fin 512) :
    broadcastInDim S8192x512 ![0, 1] bcast_S1x512_S8192x512_0_1 v (ix2 n d) = v (ix2 (0 : Fin 1) d) :=
  broadcastInDim_apply _ _ v _ _ fun a => match a with | ⟨0, _⟩ => rfl | ⟨1, _⟩ => rfl

/-- The labels laid as one column: entry (i, 0) is label i. -/
theorem bcast_labels_col (v : S8192.Idx → α) (i : Fin 8192) (z : Fin 1) :
    broadcastInDim S8192x1 ![0] bcast_S8192_S8192x1_0 v (ix2 i z) = v (ix1 i) :=
  broadcastInDim_apply _ _ v _ _ fun a => match a with | ⟨0, _⟩ => rfl

/-- The labels laid as one row: entry (0, j) is label j. -/
theorem bcast_labels_row (v : S8192.Idx → α) (z : Fin 1) (j : Fin 8192) :
    broadcastInDim S1x8192 ![1] bcast_S8192_S1x8192_1 v (ix2 z j) = v (ix1 j) :=
  broadcastInDim_apply _ _ v _ _ fun a => match a with | ⟨0, _⟩ => rfl

/-- One column repeated across 8192 columns: entry (i, j) is entry (i, 0). -/
theorem bcast_cols_sq (v : S8192x1.Idx → α) (i j : Fin 8192) :
    broadcastInDim S8192x8192 ![0, 1] bcast_S8192x1_S8192x8192_0_1 v (ix2 i j) = v (ix2 i (0 : Fin 1)) :=
  broadcastInDim_apply _ _ v _ _ fun a => match a with | ⟨0, _⟩ => rfl | ⟨1, _⟩ => rfl

/-- One row repeated down 8192 rows: entry (i, j) is entry (0, j). -/
theorem bcast_rows_sq (v : S1x8192.Idx → α) (i j : Fin 8192) :
    broadcastInDim S8192x8192 ![0, 1] bcast_S1x8192_S8192x8192_0_1 v (ix2 i j) = v (ix2 (0 : Fin 1) j) :=
  broadcastInDim_apply _ _ v _ _ fun a => match a with | ⟨0, _⟩ => rfl | ⟨1, _⟩ => rfl

end Broadcasts

/-! ## A column's sum -/

/-- The sum down a column, from the zero word: the sum of the column's 8192 entries. -/
theorem colReduce_apply (y : FVec Ideal S8192x512 .f32) (d : Fin 512) :
    Host.reduceAdd (F := Ideal) y (constant (F := Ideal) S_ .f32 0x00000000#32) reducesTo_S8192x512_S512_d0 h_S_ (ix1 d)
      = ∑ n : Fin 8192, y (ix2 n d) := by
  rw [hostReduceAdd_apply, Ideal.hostReduceAdd_single reducesTo_S8192x512_S512_d0 (by decide)]
  show Ideal.ofBits .f32 0x00000000#32 + _ = _
  rw [Ideal.ofBits_zero_f32, zero_add]
  exact Finset.sum_congr rfl fun k _ =>
    congrArg y (funext fun a => Fin.ext (by match a with | ⟨0, _⟩ => rfl | ⟨1, _⟩ => rfl))

/-! ## The column mean -/

/-- The column means: the column's sum over 8192. -/
theorem colMean_apply (x : FVec Ideal S8192x512 .f32) (d : Fin 512) :
    colMean (F := Ideal) x (ix1 d) = Cert.Spec.mean x d := by
  unfold colMean
  dsimp only
  rw [hostDivf_apply, colReduce_apply, bcast_scalar_512, constant_apply, Cert.Spec.ofBits_8192]
  rfl

/-! ## The guarded column variance -/

/-- The count of the variance's divisor: 8192 less the one degree of freedom removed is 8191. -/
theorem count_eq :
    subf (constant (F := Ideal) S_ .f32 0x46000000#32) (sitofp (F := Ideal) .f32 (constantI S_ 32 1#32)) ix0
      = ((8191 : ℝ) : EReal) := by
  show Ideal.ofBits .f32 0x46000000#32 - (((1#32 : BitVec 32).toInt : ℝ) : EReal) = _
  rw [Cert.Spec.ofBits_8192, show (1#32 : BitVec 32).toInt = 1 by decide, ← EReal.coe_sub]
  norm_num

/-- The count is positive, so the guard's bit is one. -/
theorem guard_eq : Ideal.cmp .ogt ((8191 : ℝ) : EReal) 0 = 1#1 := by
  have h : (0 : EReal) < ((8191 : ℝ) : EReal) := EReal.coe_pos.mpr (by norm_num)
  simp [Ideal.cmp, h]

/-- A squared deviation from the column mean, through the two broadcasts of the mean. -/
theorem sqdev_apply (x : FVec Ideal S8192x512 .f32) (n : Fin 8192) (d : Fin 512) :
    (mulf
        (subf x (broadcastInDim S8192x512 ![0, 1] bcast_S1x512_S8192x512_0_1
          (Host.divf (F := Ideal)
            (broadcastInDim S1x512 ![1] bcast_S512_S1x512_1
              (Host.reduceAdd (F := Ideal) x (constant (F := Ideal) S_ .f32 0x00000000#32) reducesTo_S8192x512_S512_d0 h_S_))
            (broadcastInDim S1x512 ![] bcast_S_S1x512 (constant (F := Ideal) S_ .f32 0x46000000#32)))))
        (subf x (broadcastInDim S8192x512 ![0, 1] bcast_S1x512_S8192x512_0_1
          (Host.divf (F := Ideal)
            (broadcastInDim S1x512 ![1] bcast_S512_S1x512_1
              (Host.reduceAdd (F := Ideal) x (constant (F := Ideal) S_ .f32 0x00000000#32) reducesTo_S8192x512_S512_d0 h_S_))
            (broadcastInDim S1x512 ![] bcast_S_S1x512 (constant (F := Ideal) S_ .f32 0x46000000#32))))))
      (ix2 n d)
      = (x (ix2 n d) - Cert.Spec.mean x d) * (x (ix2 n d) - Cert.Spec.mean x d) := by
  rw [mulf_apply, subf_apply, bcast_rows, hostDivf_apply, bcast_row, colReduce_apply, bcast_scalar_1x512, constant_apply,
    Cert.Spec.ofBits_8192]
  rfl

/-- The guarded variance with one degree of freedom removed: the squared deviations' sum over 8191. -/
theorem colVar_apply (x : FVec Ideal S8192x512 .f32) (d : Fin 512) :
    colVar (F := Ideal) x (constantI S_ 32 1#32) (ix1 d) = Cert.Spec.rVar x d := by
  unfold colVar
  dsimp only
  rw [select_apply, bcast_scalar_512, cmpf_apply, count_eq, constant_apply, Ideal.ofBits_zero_f32, Ideal.cmpf_def, guard_eq,
    select_one, hostDivf_apply, bcast_scalar_512, count_eq, colReduce_apply]
  unfold Cert.Spec.rVar Cert.Spec.ssd
  exact congrArg (fun s => Ideal.div s ((8191 : ℝ) : EReal)) (Finset.sum_congr rfl fun n _ => sqdev_apply x n d)

/-! ## A standardised entry -/

/-- An entry less its column's mean, over its column's deviation. -/
theorem standardise_apply (x : FVec Ideal S8192x512 .f32) (mean std : FVec Ideal S512 .f32) (n : Fin 8192) (d : Fin 512) :
    standardise (F := Ideal) x mean std (ix2 n d) = Ideal.div (x (ix2 n d) - mean (ix1 d)) (std (ix1 d)) := by
  unfold standardise
  dsimp only
  rw [hostDivf_apply, subf_apply, bcast_rows, bcast_row, bcast_rows, bcast_row]

/-- The root of a column's variance. -/
theorem sqrt_apply (v : FVec Ideal S512 .f32) (d : Fin 512) : Host.sqrt (F := Ideal) v (ix1 d) = Ideal.sqrt (v (ix1 d)) := rfl

/-- A standardised entry of the reference is the specification's. -/
theorem norm_apply (x : FVec Ideal S8192x512 .f32) (n : Fin 8192) (d : Fin 512) :
    standardise (F := Ideal) x (colMean (F := Ideal) x) (Host.sqrt (F := Ideal) (colVar (F := Ideal) x (constantI S_ 32 1#32))) (ix2 n d)
      = Cert.Spec.rNorm x n d := by
  rw [standardise_apply, colMean_apply, sqrt_apply, colVar_apply]
  rfl

/-! ## The product with the transpose -/

/-- On the product's left operand, axis 0 is the result's row. -/
theorem lhs_axis0 (i : S8192x8192.Idx) (q : dot_S8192x512_S512x8192_S8192x8192_1_0_0_1_n_n.contr.Idx) :
    (dot_S8192x512_S512x8192_S8192x8192_1_0_0_1_n_n.lhsIdx i q 0).val = (i 0).val := by
  unfold DotDims.lhsIdx
  rw [dif_neg (show ¬(0 : Fin S8192x512.rank) ∈ dot_S8192x512_S512x8192_S8192x8192_1_0_0_1_n_n.lhsBatch by decide),
    dif_pos (show (0 : Fin S8192x512.rank) ∈ dot_S8192x512_S512x8192_S8192x8192_1_0_0_1_n_n.lhsNonContracting by decide)]
  rfl

/-- On the product's left operand, axis 1 is the contracted coordinate. -/
theorem lhs_axis1 (i : S8192x8192.Idx) (q : dot_S8192x512_S512x8192_S8192x8192_1_0_0_1_n_n.contr.Idx) :
    (dot_S8192x512_S512x8192_S8192x8192_1_0_0_1_n_n.lhsIdx i q 1).val = (q ⟨0, by decide⟩).val :=
  dot_S8192x512_S512x8192_S8192x8192_1_0_0_1_n_n.lhsIdx_val_of_single rfl i q

/-- On the product's right operand, axis 0 is the contracted coordinate. -/
theorem rhs_axis0 (i : S8192x8192.Idx) (q : dot_S8192x512_S512x8192_S8192x8192_1_0_0_1_n_n.contr.Idx) :
    (dot_S8192x512_S512x8192_S8192x8192_1_0_0_1_n_n.rhsIdx i q 0).val = (q ⟨0, by decide⟩).val :=
  dot_S8192x512_S512x8192_S8192x8192_1_0_0_1_n_n.rhsIdx_val_of_single rfl i q

/-- On the product's right operand, axis 1 is the result's column. -/
theorem rhs_axis1 (i : S8192x8192.Idx) (q : dot_S8192x512_S512x8192_S8192x8192_1_0_0_1_n_n.contr.Idx) :
    (dot_S8192x512_S512x8192_S8192x8192_1_0_0_1_n_n.rhsIdx i q 1).val = (i 1).val := by
  unfold DotDims.rhsIdx
  rw [dif_neg (show ¬(1 : Fin S512x8192.rank) ∈ dot_S8192x512_S512x8192_S8192x8192_1_0_0_1_n_n.rhsBatch by decide),
    dif_pos (show (1 : Fin S512x8192.rank) ∈ dot_S8192x512_S512x8192_S8192x8192_1_0_0_1_n_n.rhsNonContracting by decide)]
  rfl

/-- The matrix product at (i, j): the sum over the 512 contracted coordinates of the operands' products. -/
theorem dot_apply (lhs : FVec Ideal S8192x512 .f32) (rhs : FVec Ideal S512x8192 .f32) (i j : Fin 8192) :
    Host.dotGeneral (F := Ideal) dot_S8192x512_S512x8192_S8192x8192_1_0_0_1_n_n none lhs rhs (ix2 i j)
      = ∑ k : Fin 512, lhs (ix2 i k) * rhs (ix2 k j) := by
  simp only [Host.dotGeneral]
  rw [Ideal.dotGeneral_apply, ← Equiv.sum_comp (contrEquiv1 dot_S8192x512_S512x8192_S8192x8192_1_0_0_1_n_n 512 rfl rfl).symm]
  refine Finset.sum_congr rfl fun k _ => ?_
  have hk := contrEquiv1_symm_val dot_S8192x512_S512x8192_S8192x8192_1_0_0_1_n_n 512 rfl rfl k
  have el : dot_S8192x512_S512x8192_S8192x8192_1_0_0_1_n_n.lhsIdx (ix2 i j) ((contrEquiv1 dot_S8192x512_S512x8192_S8192x8192_1_0_0_1_n_n 512 rfl rfl).symm k) = ix2 i k :=
    funext fun a => Fin.ext (by
      match a with
      | ⟨0, _⟩ => exact lhs_axis0 _ _
      | ⟨1, _⟩ => exact (lhs_axis1 _ _).trans hk)
  have er : dot_S8192x512_S512x8192_S8192x8192_1_0_0_1_n_n.rhsIdx (ix2 i j) ((contrEquiv1 dot_S8192x512_S512x8192_S8192x8192_1_0_0_1_n_n 512 rfl rfl).symm k) = ix2 k j :=
    funext fun a => Fin.ext (by
      match a with
      | ⟨0, _⟩ => exact (rhs_axis0 _ _).trans hk
      | ⟨1, _⟩ => exact rhs_axis1 _ _)
  rw [el, er]

/-- The transposed matrix at (k, j) is the matrix at (j, k). -/
theorem transpose_apply' (y : FVec Ideal S8192x512 .f32) (k : Fin 512) (j : Fin 8192) :
    transpose S512x8192 [1, 0] y transposes_S8192x512_S512x8192_1_0 (ix2 k j) = y (ix2 j k) :=
  transpose_ix2_apply y _ k j

/-! ## The indicator of equal labels -/

/-- The one-bit comparison of two labels, read as a number, is the indicator that they agree. -/
theorem indicator_eq (p q : BitVec 32) :
    FloatOps.uitofp (F := Ideal) .f32 (IntOp.cmpi .eq p q) = if p = q then (1 : EReal) else 0 := by
  show (((IntOp.cmpi .eq p q).toNat : ℝ) : EReal) = _
  by_cases h : p = q
  · rw [if_pos h]; subst h; simp [IntOp.cmpi]
  · rw [if_neg h]; simp [IntOp.cmpi, h]

/-- The comparison of two label matrices read as numbers, at an index: the entries' comparison as a number. -/
theorem uitofp_cmpi_apply (x y : IVec S8192x8192 32) (i j : Fin 8192) :
    uitofp (F := Ideal) .f32 (cmpi .eq x y) (ix2 i j)
      = FloatOps.uitofp (F := Ideal) .f32 (IntOp.cmpi .eq (x (ix2 i j)) (y (ix2 i j))) := rfl

/-! ## The whole term -/

/-- The reference's scalar is the specification's loss. -/
theorem ref_value (a b : FVec Ideal S8192x512 .f32) (l : IVec S8192 32) :
    refTerm (F := Ideal) a b l ix0 = Cert.Spec.rLoss a b l := by
  unfold refTerm
  dsimp only
  rw [hostReduceAdd_apply, Ideal.hostReduceAdd_total reducesTo_S8192x8192_S_d0_1 (fun b => b.elim0)]
  show Ideal.ofBits .f32 0x00000000#32 + _ = _
  rw [Ideal.ofBits_zero_f32, zero_add, sum_idx2]
  unfold Cert.Spec.rLoss
  refine Finset.sum_congr rfl fun i _ => Finset.sum_congr rfl fun j _ => ?_
  rw [mulf_apply, subf_apply, hostDivf_apply, dot_apply, bcast_scalar_sq, constant_apply, Cert.Spec.ofBits_512,
    uitofp_cmpi_apply, bcast_cols_sq, bcast_labels_col, bcast_rows_sq, bcast_labels_row, indicator_eq]
  have hC : (∑ k : Fin 512,
      standardise (F := Ideal) a (colMean (F := Ideal) a) (Host.sqrt (F := Ideal) (colVar (F := Ideal) a (constantI S_ 32 1#32))) (ix2 i k)
        * transpose S512x8192 [1, 0]
            (standardise (F := Ideal) b (colMean (F := Ideal) b) (Host.sqrt (F := Ideal) (colVar (F := Ideal) b (constantI S_ 32 1#32))))
            transposes_S8192x512_S512x8192_1_0 (ix2 k j))
      = ∑ k : Fin 512, Cert.Spec.rNorm a i k * Cert.Spec.rNorm b j k :=
    Finset.sum_congr rfl fun k _ => by rw [transpose_apply', norm_apply, norm_apply]
  rw [hC]
  rfl

end Cert.ReferenceIdeal.RefValue

end
-- ==== Proof.Pre.lean ====
/-
  The precondition, read at the extended reals. The predicate is a conjunction of four "for all" statements,
  each a reduction by "and" of a one-bit array: |a(n,d)| < +∞ at every entry, the same for b, and, for each of the two
  arrays, at every column d, 0 < Σ_n (x(n,d) - μ_d)·(x(n,d) - μ_d) with μ_d = (Σ_n x(n,d)) / 8192. An extended real whose
  absolute value is below +∞ is a real number, and the column statistic is the specification's sum of squared
  deviations, so the predicate gives: every entry of a and of b is real, and no column's sum of squared deviations
  vanishes.
-/
import proofs.«132247_j36120674959540_1_alg».proof.Proof.Gen.Pre_finite_inputs
import proofs.«132247_j36120674959540_1_alg».proof.Proof.Spec
import Idealize.ShloMosaic.Lib.ReduceAll
import Idealize.ShloMosaic.Lib.IdealHost
import Idealize.ShloMosaic.Lib.Pipeline.Value
import Idealize.ShloMosaic.PureOps.Ideal.Laws
import Idealize.ShloMosaic.Lib.ValueIdx

noncomputable section

namespace Cert.PreFacts

open Idealize.ShloMosaic Idealize.ShloMosaic.ValueIdx
open Cert.Pre_finite_inputs Cert.Pre_finite_inputs.Facts

/-- The scalar shape has one index. -/
instance : Subsingleton S_.Idx := ⟨fun a b => funext fun d => d.elim0⟩

/-! ## One entry: an absolute value below +∞ is a real number -/

/-- The word 0x7F800000 is +∞. -/
theorem ofBits_inf : Ideal.ofBits .f32 0x7F800000#32 = (⊤ : EReal) := by
  simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | top => simp [Ideal.cmp] at h
  | coe r => exact ⟨r, rfl⟩

/-! ## One column: the predicate's statistic is the sum of squared deviations -/

/-- Dropping the row axis of the 8192 by 512 shape leaves the 512 columns. -/
theorem red0 : S8192x512.Reduces [0] S512 := by decide

/-- Column d's index with row n inserted is (n, d). -/
theorem lift_eq (d : Fin 512) (n : Fin 8192) : red0.lift (ix1 d) n = ix2 n d := by
  funext a
  refine Fin.ext ?_
  match a with
  | ⟨0, _⟩ => rfl
  | ⟨1, _⟩ => rfl

/-- A sum over the rows from the zero word is the column's sum. -/
theorem colReduce_apply (x : FVec Ideal S8192x512 .f32) (d : Fin 512) :
    Host.reduceAdd (F := Ideal) x (constant (F := Ideal) S_ .f32 0x00000000#32) reducesTo_S8192x512_S512_d0 h_S_ (ix1 d)
      = ∑ n : Fin 8192, x (ix2 n d) := by
  rw [hostReduceAdd_apply, Ideal.hostReduceAdd_single _ red0, constant_apply, Ideal.ofBits_zero_f32, zero_add]
  exact Finset.sum_congr rfl fun n _ => congrArg x (lift_eq d n)

/-- The predicate's column mean: the column's sum divided by the word of 8192. -/
def colMean (x : FVec Ideal S8192x512 .f32) : FVec Ideal S512 .f32 :=
  Host.divf (F := Ideal)
    (Host.reduceAdd (F := Ideal) x (constant (F := Ideal) S_ .f32 0x00000000#32) reducesTo_S8192x512_S512_d0 h_S_)
    (broadcastInDim S512 ![] bcast_S_S512 (constant (F := Ideal) S_ .f32 0x46000000#32))

/-- The column means copied down the rows. -/
def colMeanRows (x : FVec Ideal S8192x512 .f32) : FVec Ideal S8192x512 .f32 :=
  broadcastInDim S8192x512 ![0, 1] bcast_S1x512_S8192x512_0_1 (broadcastInDim S1x512 ![1] bcast_S512_S1x512_1 (colMean x))

/-- The predicate's column statistic: the sum over the rows of the squared deviation from the column's mean. -/
def colStat (x : FVec Ideal S8192x512 .f32) : FVec Ideal S512 .f32 :=
  Host.reduceAdd (F := Ideal) (mulf (subf x (colMeanRows x)) (subf x (colMeanRows x)))
    (constant (F := Ideal) S_ .f32 0x00000000#32) reducesTo_S8192x512_S512_d0 h_S_

/-- The predicate's mean of column d is the specification's. -/
theorem colMean_apply (x : FVec Ideal S8192x512 .f32) (d : Fin 512) : colMean x (ix1 d) = Cert.Spec.mean x d := by
  unfold colMean
  rw [hostDivf_apply, colReduce_apply, broadcastInDim_scalar_apply, constant_apply, Cert.Spec.ofBits_8192]
  rfl

/-- Read at (n, d), the copied means give column d's. -/
theorem colMeanRows_apply (x : FVec Ideal S8192x512 .f32) (n : Fin 8192) (d : Fin 512) :
    colMeanRows x (ix2 n d) = Cert.Spec.mean x d := by
  unfold colMeanRows
  rw [broadcastInDim_apply _ bcast_S1x512_S8192x512_0_1 _ (ix2 n d) (ix2 (0 : Fin 1) d)
      (fun a => match a with | ⟨0, _⟩ => rfl | ⟨1, _⟩ => rfl),
    broadcastInDim_apply _ bcast_S512_S1x512_1 _ (ix2 (0 : Fin 1) d) (ix1 d) (fun a => match a with | ⟨0, _⟩ => rfl),
    colMean_apply]

/-- The predicate's statistic of column d is the specification's sum of squared deviations. -/
theorem colStat_apply (x : FVec Ideal S8192x512 .f32) (d : Fin 512) : colStat x (ix1 d) = Cert.Spec.ssd x d := by
  unfold colStat
  rw [colReduce_apply]
  unfold Cert.Spec.ssd
  refine Finset.sum_congr rfl fun n _ => ?_
  rw [mulf_apply, subf_apply, colMeanRows_apply]

/-- A column whose statistic compares above the zero word has a positive sum of squared deviations. -/
theorem ssd_pos_of_cmp (x : FVec Ideal S8192x512 .f32) (d : Fin 512)
    (h : cmpf .ogt (colStat x) (broadcastInDim S512 ![] bcast_S_S512 (constant (F := Ideal) S_ .f32 0x00000000#32)) (ix1 d) = 1#1) :
    0 < Cert.Spec.ssd x d := by
  rw [cmpf_apply, broadcastInDim_scalar_apply, constant_apply, Ideal.ofBits_zero_f32, colStat_apply, Ideal.cmpf_def] at h
  by_contra hn
  simp [Ideal.cmp, hn] at h

/-- An entry whose absolute value compares below the word of +∞ is a real number. -/
theorem real_of_cmp (x : FVec Ideal S8192x512 .f32) (i : S8192x512.Idx)
    (h : cmpf .olt (Host.absf (F := Ideal) x) (broadcastInDim S8192x512 ![] bcast_S_S8192x512 (constant (F := Ideal) S_ .f32 0x7F800000#32)) i = 1#1) :
    ∃ r : ℝ, x i = (r : EReal) := by
  rw [cmpf_apply, broadcastInDim_scalar_apply, constant_apply] at h
  exact real_of_abs_lt_inf (x i) h

/-! ## The precondition read -/

/-- Where the predicate holds, every entry of both arrays is a real number and no column of either has a
    vanishing sum of squared deviations. -/
theorem of_pre (a b : Cert.Spec.SA.Idx → EReal) (l : Cert.Spec.SL.Idx → BitVec 32)
    (h : Cert.Pre_finite_inputs.fn (F := Ideal) a b l = fun _ => 1#1) :
    (∀ i, ∃ r : ℝ, a i = (r : EReal)) ∧ (∀ i, ∃ r : ℝ, b i = (r : EReal)) ∧ (∀ d, 0 < Cert.Spec.ssd a d)
      ∧ (∀ d, 0 < Cert.Spec.ssd b d) := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun d => ?_, fun d => ?_⟩
  · exact real_of_cmp a i (Host.reduce_andi_all _ _ _ _ _ h1 i)
  · exact real_of_cmp b i (Host.reduce_andi_all _ _ _ _ _ h2 i)
  · exact ssd_pos_of_cmp a d (Host.reduce_andi_all _ _ _ _ _ h3 (ix1 d))
  · exact ssd_pos_of_cmp b d (Host.reduce_andi_all _ _ _ _ _ h4 (ix1 d))

end Cert.PreFacts

end
-- ==== Proof.lean ====
/-
  The kernel (two Pallas calls around a few host operations) against its reference, a cross-correlation loss: both
  standardise every column of two 8192 by 512 arrays to mean zero and unit sample variance, form the 8192 by 8192
  matrix of inner products of the rows of the first with the rows of the second over 512, subtract the indicator
  that two rows carry the same label, square and sum.

  The frames. Each kernel call runs over a grid and keeps its accumulators in scratch memory between grid points:
  the first call gathers, column by column, the sums and the sums of squares of both arrays; the second walks the row
  tiles of the first array and, inside each, the row chunks of the second, adding every tile's sum of squared
  residuals to one scalar. The invariant of a call carries what its accumulators hold after each point, so the run
  ends with every buffer at a named value, the three arguments untouched. The word-level program and its
  idealization are one text, so one proof, generic in the number system, serves both.

  The values, over the extended reals. The kernel normalises with the reciprocal root of the variance computed as
  (Σx² - (Σx)²/8192)/8191; the reference divides by the root of Σ(x-μ)²/8191. For finite entries the two variances
  are one real number, and where it is positive multiplying by the reciprocal root is dividing by the root; sums
  regroup freely. On a constant column the variance is zero and the two sides part (0·∞ against 0/0), so the
  statement's domain is the inputs with no constant column: exactly where the reference's own quotient is defined.
-/
import proofs.«132247_j36120674959540_1_alg».proof.Defs
import proofs.«132247_j36120674959540_1_alg».proof.Proof.Gen.Kernel
import proofs.«132247_j36120674959540_1_alg».proof.Proof.Gen.KernelIdeal
import proofs.«132247_j36120674959540_1_alg».proof.Proof.Gen.ReferenceIdeal
import proofs.«132247_j36120674959540_1_alg».proof.Proof.Gen.Pre_finite_inputs
import proofs.«132247_j36120674959540_1_alg».proof.Proof.K.Run
import proofs.«132247_j36120674959540_1_alg».proof.Proof.KI.Run
import proofs.«132247_j36120674959540_1_alg».proof.Proof.KV.Value
import proofs.«132247_j36120674959540_1_alg».proof.Proof.RefRun
import proofs.«132247_j36120674959540_1_alg».proof.Proof.RefValue
import proofs.«132247_j36120674959540_1_alg».proof.Proof.Pre
import proofs.«132247_j36120674959540_1_alg».proof.Proof.Spec

noncomputable section

namespace Cert.Proof

open Idealize.ShloMosaic Idealize.SL.Sem Idealize.ShloMosaic.ValueIdx

/-- The word-level kernel program runs to the end and leaves its arguments as launched. -/
theorem frame_k : Cert.frame_Kernel := fun m ρ _ => Cert.Kernel.Hand.frame m ρ

/-- So does its idealization: the same run at the extended reals. -/
theorem frame_ki : Cert.frame_KernelIdeal := fun m ρ _ => Cert.KernelIdeal.Hand.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Both idealized programs end at the kernel's loss of the argument arrays: the kernel's run names its result, the
    reference's result is the reference's loss, and under the precondition (finite entries, no constant column) the
    two losses are one number. -/
theorem algebraic : Cert.algebraic_KernelIdeal_ReferenceIdeal := by
  intro m ρ m' ρ' hpre hagree
  refine ⟨fun c => fun _ => Cert.Spec.kLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run_value (F := Ideal) m ρ)
    funext j
    rw [eq_ix0 j]
    exact Cert.KernelIdeal.Hand.kernel_value m ρ c
  · refine (θ_run Cert.ReferenceIdeal.defs _ _).mono (fun _ h c => ⟨(h c).1.trans ?_, (h c).2⟩)
      (Cert.ReferenceIdeal.RefValue.run (F := Ideal) m' ρ')
    obtain ⟨ha, hb, hva, hvb⟩ := Cert.PreFacts.of_pre _ _ _ (hpre c)
    rw [(hagree c).1, (hagree c).2.1, (hagree c).2.2]
    funext j
    rw [eq_ix0 j, Cert.ReferenceIdeal.RefValue.ref_value]
    exact (Cert.Spec.kLoss_eq_rLoss _ _ _ ha hb hva hvb).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
